-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x2 : Shape := ⟨2, ![400000, 2]⟩
abbrev S2x19600000 : Shape := ⟨2, ![2, 19600000]⟩
abbrev S19600000x3 : Shape := ⟨2, ![19600000, 3]⟩
abbrev S2x7x128 : Shape := ⟨3, ![2, 7, 128]⟩
abbrev S2x128 : Shape := ⟨2, ![2, 128]⟩
abbrev S2x128x2 : Shape := ⟨3, ![2, 128, 2]⟩
abbrev S2x2 : Shape := ⟨2, ![2, 2]⟩
abbrev S_ : Shape := ⟨0, ![]⟩

class Facts : Prop where
  bcast_S_S400000x2 : S_.BroadcastsInDim S400000x2 (![] : Fin 0 → Fin S400000x2.rank)
  reducesTo_S400000x2_S_d0_1 : S400000x2.ReducesTo [0, 1] S_
  h_S_ : 0 < S_.numel
  bcast_S_S19600000x3 : S_.BroadcastsInDim S19600000x3 (![] : Fin 0 → Fin S19600000x3.rank)
  reducesTo_S19600000x3_S_d0_1 : S19600000x3.ReducesTo [0, 1] S_
  bcast_S_S2x7x128 : S_.BroadcastsInDim S2x7x128 (![] : Fin 0 → Fin S2x7x128.rank)
  reducesTo_S2x7x128_S_d0_1_2 : S2x7x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x2 : S_.BroadcastsInDim S2x128x2 (![] : Fin 0 → Fin S2x128x2.rank)
  reducesTo_S2x128x2_S_d0_1_2 : S2x128x2.ReducesTo [0, 1, 2] S_
  bcast_S_S2x2 : S_.BroadcastsInDim S2x2 (![] : Fin 0 → Fin S2x2.rank)
  reducesTo_S2x2_S_d0_1 : S2x2.ReducesTo [0, 1] S_

variable [Facts]

def fn_part1 {F : FTy → Type} [FloatOps F] (main_arg5 : FVec F S2x128x2 .f32) (main_arg6 : FVec F S2x2 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x2 .f32 := Host.absf main_arg5
  let main_cst_6 : FVec F S_ .f32 := constant S_ .f32 0x7F800000#32
  let main_v20 : FVec F S2x128x2 .f32 := broadcastInDim S2x128x2 ![] bcast_S_S2x128x2 main_cst_6
  let main_v21 : IVec S2x128x2 1 := cmpf .olt main_v19 main_v20
  let main_c_7 : IVec S_ 1 := constantI S_ 1 1#1
  let main_v22 : IVec S_ 1 := (fun x v => Host.reduce IntOp.andi x v reducesTo_S2x128x2_S_d0_1_2 h_S_) main_v21 main_c_7
  let main_v23 : IVec S_ 1 := andi main_v18 main_v22
  let main_v24 : FVec F S2x2 .f32 := Host.absf main_arg6
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  main_v28

def fn {F : FTy → Type} [FloatOps F] (main_arg0 : FVec F S400000x2 .f32) (main_arg1 : IVec S2x19600000 32) (main_arg2 : FVec F S19600000x3 .f32) (main_arg3 : FVec F S2x7x128 .f32) (main_arg4 : FVec F S2x128 .f32) (main_arg5 : FVec F S2x128x2 .f32) (main_arg6 : FVec F S2x2 .f32) : IVec S_ 1 :=
  let main_v0 : FVec F S400000x2 .f32 := Host.absf main_arg0
  let main_cst : FVec F S_ .f32 := constant S_ .f32 0x7F800000#32
  let main_v1 : FVec F S400000x2 .f32 := broadcastInDim S400000x2 ![] bcast_S_S400000x2 main_cst
  let main_v2 : IVec S400000x2 1 := cmpf .olt main_v0 main_v1
  let main_c : IVec S_ 1 := constantI S_ 1 1#1
  let main_v3 : IVec S_ 1 := (fun x v => Host.reduce IntOp.andi x v reducesTo_S400000x2_S_d0_1 h_S_) main_v2 main_c
  let main_v4 : FVec F S19600000x3 .f32 := Host.absf main_arg2
  let main_cst_0 : FVec F S_ .f32 := constant S_ .f32 0x7F800000#32
  let main_v5 : FVec F S19600000x3 .f32 := broadcastInDim S19600000x3 ![] bcast_S_S19600000x3 main_cst_0
  let main_v6 : IVec S19600000x3 1 := cmpf .olt main_v4 main_v5
  let main_c_1 : IVec S_ 1 := constantI S_ 1 1#1
  let main_v7 : IVec S_ 1 := (fun x v => Host.reduce IntOp.andi x v reducesTo_S19600000x3_S_d0_1 h_S_) main_v6 main_c_1
  let main_v8 : IVec S_ 1 := andi main_v3 main_v7
  let main_v9 : FVec F S2x7x128 .f32 := Host.absf main_arg3
  let main_cst_2 : FVec F S_ .f32 := constant S_ .f32 0x7F800000#32
  let main_v10 : FVec F S2x7x128 .f32 := broadcastInDim S2x7x128 ![] bcast_S_S2x7x128 main_cst_2
  let main_v11 : IVec S2x7x128 1 := cmpf .olt main_v9 main_v10
  let main_c_3 : IVec S_ 1 := constantI S_ 1 1#1
  let main_v12 : IVec S_ 1 := (fun x v => Host.reduce IntOp.andi x v reducesTo_S2x7x128_S_d0_1_2 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg5 main_arg6 main_v13 main_v16
-- ==== Kernel.lean ====
abbrev S400000x2 : Shape := ⟨2, ![400000, 2]⟩
abbrev S2x19600000 : Shape := ⟨2, ![2, 19600000]⟩
abbrev S19600000x3 : Shape := ⟨2, ![19600000, 3]⟩
abbrev S2x7x128 : Shape := ⟨3, ![2, 7, 128]⟩
abbrev S2x128 : Shape := ⟨2, ![2, 128]⟩
abbrev S2x128x2 : Shape := ⟨3, ![2, 128, 2]⟩
abbrev S2x2 : Shape := ⟨2, ![2, 2]⟩
abbrev S1x19600000 : Shape := ⟨2, ![1, 19600000]⟩
abbrev S19600000 : Shape := ⟨1, ![19600000]⟩
abbrev S_ : Shape := ⟨0, ![]⟩
abbrev S19600000x1 : Shape := ⟨2, ![19600000, 1]⟩
abbrev S400000x1 : Shape := ⟨2, ![400000, 1]⟩
abbrev S400000x3 : Shape := ⟨2, ![400000, 3]⟩
abbrev S1x7x128 : Shape := ⟨3, ![1, 7, 128]⟩
abbrev S7x128 : Shape := ⟨2, ![7, 128]⟩
abbrev S1x128 : Shape := ⟨2, ![1, 128]⟩
abbrev S128 : Shape := ⟨1, ![128]⟩
abbrev S1x128x2 : Shape := ⟨3, ![1, 128, 2]⟩
abbrev S128x2 : Shape := ⟨2, ![128, 2]⟩
abbrev S1x2 : Shape := ⟨2, ![1, 2]⟩
abbrev S2 : Shape := ⟨1, ![2]⟩
abbrev S4000x2 : Shape := ⟨2, ![4000, 2]⟩
abbrev S4000x1 : Shape := ⟨2, ![4000, 1]⟩
abbrev S4000x3 : Shape := ⟨2, ![4000, 3]⟩
abbrev S4000x7 : Shape := ⟨2, ![4000, 7]⟩
abbrev S4000x128 : Shape := ⟨2, ![4000, 128]⟩
abbrev S2x400000 : Shape := ⟨2, ![2, 400000]⟩
abbrev S153125x128 : Shape := ⟨2, ![153125, 128]⟩
abbrev S2048x128 : Shape := ⟨2, ![2048, 128]⟩

abbrev nBuf : Space → Nat
  | .hbm => 82
  | .vmem => 34
  | .smem => 0
  | _ => 0

abbrev bufTy : (tb : Table) → Fin (tcTables nBuf tb) → BufTy
  | .hbm, ⟨0, _⟩ => ⟨S400000x2, .f32⟩
  | .hbm, ⟨1, _⟩ => ⟨S2x19600000, .i32⟩
  | .hbm, ⟨2, _⟩ => ⟨S19600000x3, .f32⟩
  | .hbm, ⟨3, _⟩ => ⟨S2x7x128, .f32⟩
  | .hbm, ⟨4, _⟩ => ⟨S2x128, .f32⟩
  | .hbm, ⟨5, _⟩ => ⟨S2x128x2, .f32⟩
  | .hbm, ⟨6, _⟩ => ⟨S2x2, .f32⟩
  | .hbm, ⟨7, _⟩ => ⟨S1x19600000, .i32⟩
  | .hbm, ⟨8, _⟩ => ⟨S19600000, .i32⟩
  | .hbm, ⟨9, _⟩ => ⟨S1x19600000, .i32⟩
  | .hbm, ⟨10, _⟩ => ⟨S19600000, .i32⟩
  | .hbm, ⟨11, _⟩ => ⟨S_, .f32⟩
  | .hbm, ⟨12, _⟩ => ⟨S19600000x1, .f32⟩
  | .hbm, ⟨13, _⟩ => ⟨S_, .f32⟩
  | .hbm, ⟨14, _⟩ => ⟨S400000x1, .f32⟩
  | .hbm, ⟨15, _⟩ => ⟨S19600000x1, .i32⟩
  | .hbm, ⟨16, _⟩ => ⟨S400000x1, .f32⟩
  | .hbm, ⟨17, _⟩ => ⟨S_, .f32⟩
  | .hbm, ⟨18, _⟩ => ⟨S400000x1, .f32⟩
  | .hbm, ⟨19, _⟩ => ⟨S400000x1, .f32⟩
  | .hbm, ⟨20, _⟩ => ⟨S400000x1, .f32⟩
  | .hbm, ⟨21, _⟩ => ⟨S_, .f32⟩
  | .hbm, ⟨22, _⟩ => ⟨S400000x3, .f32⟩
  | .hbm, ⟨23, _⟩ => ⟨S19600000x1, .i32⟩
  | .hbm, ⟨24, _⟩ => ⟨S400000x3, .f32⟩
  | .hbm, ⟨25, _⟩ => ⟨S400000x3, .f32⟩
  | .hbm, ⟨26, _⟩ => ⟨S400000x3, .f32⟩
  | .hbm, ⟨27, _⟩ => ⟨S1x7x128, .f32⟩
  | .hbm, ⟨28, _⟩ => ⟨S7x128, .f32⟩
  | .hbm, ⟨29, _⟩ => ⟨S1x128, .f32⟩
  | .hbm, ⟨30, _⟩ => ⟨S128, .f32⟩
  | .hbm, ⟨31, _⟩ => ⟨S1x128x2, .f32⟩
  | .hbm, ⟨32, _⟩ => ⟨S128x2, .f32⟩
  | .hbm, ⟨33, _⟩ => ⟨S1x2, .f32⟩
  | .hbm, ⟨34, _⟩ => ⟨S2, .f32⟩
  | .hbm, ⟨35, _⟩ => ⟨S1x128, .f32⟩
  | .hbm, ⟨36, _⟩ => ⟨S1x2, .f32⟩
  | .hbm, ⟨37, _⟩ => ⟨S400000x2, .f32⟩
  | .hbm, ⟨38, _⟩ => ⟨S1x7x128, .f32⟩
  | .hbm, ⟨39, _⟩ => ⟨S7x128, .f32⟩
  | .hbm, ⟨40, _⟩ => ⟨S1x128, .f32⟩
  | .hbm, ⟨41, _⟩ => ⟨S128, .f32⟩
  | .hbm, ⟨42, _⟩ => ⟨S1x128x2, .f32⟩
  | .hbm, ⟨43, _⟩ => ⟨S128x2, .f32⟩
  | .hbm, ⟨44, _⟩ => ⟨S1x2, .f32⟩
  | .hbm, ⟨45, _⟩ => ⟨S2, .f32⟩
  | .hbm, ⟨46, _⟩ => ⟨S1x128, .f32⟩
  | .hbm, ⟨47, _⟩ => ⟨S1x2, .f32⟩
  | .hbm, ⟨48, _⟩ => ⟨S400000x2, .f32⟩
  | .hbm, ⟨49, _⟩ => ⟨S2x400000, .f32⟩
  | .hbm, ⟨50, _⟩ => ⟨S_, .i32⟩
  | .hbm, ⟨51, _⟩ => ⟨S19600000, .i32⟩
  | .hbm, ⟨52, _⟩ => ⟨S19600000, .i1⟩
  | .hbm, ⟨53, _⟩ => ⟨S_, .i32⟩
  | .hbm, ⟨54, _⟩ => ⟨S19600000, .i32⟩
  | .hbm, ⟨55, _⟩ => ⟨S19600000, .i32⟩
  | .hbm, ⟨56, _⟩ => ⟨S19600000, .i32⟩
  | .hbm, ⟨57, _⟩ => ⟨S19600000x1, .i32⟩
  | .hbm, ⟨58, _⟩ => ⟨S2x19600000, .f32⟩
  | .hbm, ⟨59, _⟩ => ⟨S_, .i32⟩
  | .hbm, ⟨60, _⟩ => ⟨S19600000, .i32⟩
  | .hbm, ⟨61, _⟩ => ⟨S19600000, .i1⟩
  | .hbm, ⟨62, _⟩ => ⟨S_, .i32⟩
  | .hbm, ⟨63, _⟩ => ⟨S19600000, .i32⟩
  | .hbm, ⟨64, _⟩ => ⟨S19600000, .i32⟩
  | .hbm, ⟨65, _⟩ => ⟨S19600000, .i32⟩
  | .hbm, ⟨66, _⟩ => ⟨S19600000x1, .i32⟩
  | .hbm, ⟨67, _⟩ => ⟨S2x19600000, .f32⟩
  | .hbm, ⟨68, _⟩ => ⟨S1x19600000, .f32⟩
  | .hbm, ⟨69, _⟩ => ⟨S19600000, .f32⟩
  | .hbm, ⟨70, _⟩ => ⟨S153125x128, .f32⟩
  | .hbm, ⟨71, _⟩ => ⟨S1x19600000, .f32⟩
  | .hbm, ⟨72, _⟩ => ⟨S19600000, .f32⟩
  | .hbm, ⟨73, _⟩ => ⟨S153125x128, .f32⟩
  | .hbm, ⟨74, _⟩ => ⟨S1x19600000, .f32⟩
  | .hbm, ⟨75, _⟩ => ⟨S19600000, .f32⟩
  | .hbm, ⟨76, _⟩ => ⟨S153125x128, .f32⟩
  | .hbm, ⟨77, _⟩ => ⟨S1x19600000, .f32⟩
  | .hbm, ⟨78, _⟩ => ⟨S19600000, .f32⟩
  | .hbm, ⟨79, _⟩ => ⟨S153125x128, .f32⟩
  | .hbm, ⟨80, _⟩ => ⟨S153125x128, .f32⟩
  | .hbm, ⟨81, _⟩ => ⟨S19600000x1, .f32⟩
  | .local _ .vmem, ⟨0, _⟩ => ⟨S4000x2, .f32⟩
  | .local _ .vmem, ⟨1, _⟩ => ⟨S4000x2, .f32⟩
  | .local _ .vmem, ⟨2, _⟩ => ⟨S4000x1, .f32⟩
  | .local _ .vmem, ⟨3, _⟩ => ⟨S4000x1, .f32⟩
  | .local _ .vmem, ⟨4, _⟩ => ⟨S4000x3, .f32⟩
  | .local _ .vmem, ⟨5, _⟩ => ⟨S4000x3, .f32⟩
  | .local _ .vmem, ⟨6, _⟩ => ⟨S7x128, .f32⟩
  | .local _ .vmem, ⟨7, _⟩ => ⟨S1x128, .f32⟩
  | .local _ .vmem, ⟨8, _⟩ => ⟨S128x2, .f32⟩
  | .local _ .vmem, ⟨9, _⟩ => ⟨S1x2, .f32⟩
  | .local _ .vmem, ⟨10, _⟩ => ⟨S4000x2, .f32⟩
  | .local _ .vmem, ⟨11, _⟩ => ⟨S4000x2, .f32⟩
  | .local _ .vmem, ⟨12, _⟩ => ⟨S4000x2, .f32⟩
  | .local _ .vmem, ⟨13, _⟩ => ⟨S4000x2, .f32⟩
  | .local _ .vmem, ⟨14, _⟩ => ⟨S4000x1, .f32⟩
  | .local _ .vmem, ⟨15, _⟩ => ⟨S4000x1, .f32⟩
  | .local _ .vmem, ⟨16, _⟩ => ⟨S4000x3, .f32⟩
  | .local _ .vmem, ⟨17, _⟩ => ⟨S4000x3, .f32⟩
  | .local _ .vmem, ⟨18, _⟩ => ⟨S7x128, .f32⟩
  | .local _ .vmem, ⟨19, _⟩ => ⟨S1x128, .f32⟩
  | .local _ .vmem, ⟨20, _⟩ => ⟨S128x2, .f32⟩
  | .local _ .vmem, ⟨21, _⟩ => ⟨S1x2, .f32⟩
  | .local _ .vmem, ⟨22, _⟩ => ⟨S4000x2, .f32⟩
  | .local _ .vmem, ⟨23, _⟩ => ⟨S4000x2, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | _, _ => ⟨S400000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S7x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x19600000_S1x19600000_0_0 : S2x19600000.Slices ![0, 0] S1x19600000
  shapeCasts_S1x19600000_S19600000 : S1x19600000.ShapeCasts S19600000
  slices_S2x19600000_S1x19600000_1_0 : S2x19600000.Slices ![1, 0] S1x19600000
  bcast_S_S19600000x1 : S_.BroadcastsInDim S19600000x1 (![] : Fin 0 → Fin S19600000x1.rank)
  bcast_S_S400000x1 : S_.BroadcastsInDim S400000x1 (![] : Fin 0 → Fin S400000x1.rank)
  bcast_S19600000_S19600000x1_0 : S19600000.BroadcastsInDim S19600000x1 (![0] : Fin 1 → Fin S19600000x1.rank)
  bcast_S_S400000x3 : S_.BroadcastsInDim S400000x3 (![] : Fin 0 → Fin S400000x3.rank)
  bcast_S400000x1_S400000x3_0_1 : S400000x1.BroadcastsInDim S400000x3 (![0, 1] : Fin 2 → Fin S400000x3.rank)
  slices_S2x7x128_S1x7x128_0_0_0 : S2x7x128.Slices ![0, 0, 0] S1x7x128
  shapeCasts_S1x7x128_S7x128 : S1x7x128.ShapeCasts S7x128
  slices_S2x128_S1x128_0_0 : S2x128.Slices ![0, 0] S1x128
  shapeCasts_S1x128_S128 : S1x128.ShapeCasts S128
  slices_S2x128x2_S1x128x2_0_0_0 : S2x128x2.Slices ![0, 0, 0] S1x128x2
  shapeCasts_S1x128x2_S128x2 : S1x128x2.ShapeCasts S128x2
  slices_S2x2_S1x2_0_0 : S2x2.Slices ![0, 0] S1x2
  shapeCasts_S1x2_S2 : S1x2.ShapeCasts S2
  shapeCasts_S128_S1x128 : S128.ShapeCasts S1x128
  shapeCasts_S2_S1x2 : S2.ShapeCasts S1x2
  inb_S4000x2_S4000x2_0_0 : ∀ a, (![0, 0] : Fin 2 → Nat) a + S4000x2.size a ≤ S4000x2.size a
  h_S4000x2 : 0 < S4000x2.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  broadcasts_S4000x1_S4000x2 : S4000x1.Broadcasts S4000x2
  concatenates_S4000x2_S4000x2_S4000x3_S4000x7_d1 : Shape.Concatenates [S4000x2, S4000x2, S4000x3] S4000x7 1
  inb_S7x128_S7x128_0_0 : ∀ a, (![0, 0] : Fin 2 → Nat) a + S7x128.size a ≤ S7x128.size a
  h_S7x128 : 0 < S7x128.numel
  shapeCasts_S7x128_S7x128 : S7x128.ShapeCasts S7x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S4000x128 : S1x128.Broadcasts S4000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  slices_S2x7x128_S1x7x128_1_0_0 : S2x7x128.Slices ![1, 0, 0] S1x7x128
  slices_S2x128_S1x128_1_0 : S2x128.Slices ![1, 0] S1x128
  slices_S2x128x2_S1x128x2_1_0_0 : S2x128x2.Slices ![1, 0, 0] S1x128x2
  slices_S2x2_S1x2_1_0 : S2x2.Slices ![1, 0] S1x2
  shapeCasts_S4000x2_S4000x2 : S4000x2.ShapeCasts S4000x2
  transposes_S400000x2_S2x400000_1_0 : S400000x2.Transposes [1, 0] S2x400000
  bcast_S_S19600000 : S_.BroadcastsInDim S19600000 (![] : Fin 0 → Fin S19600000.rank)
  shapeCasts_S19600000_S153125x128 : S19600000.ShapeCasts S153125x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S153125x128_S19600000x1 : S153125x128.ShapeCasts S19600000x1
  scatter_S400000x1_S19600000x1_S19600000x1_1_0_0_1_wf : ScatterDims.WF S400000x1 S19600000x1 S19600000x1 [1] [0] [0] 1
  scatter_S400000x3_S19600000x1_S19600000x3_1_0_0_1_wf : ScatterDims.WF S400000x3 S19600000x1 S19600000x3 [1] [0] [0] 1
  dot_S4000x7_S7x128_S4000x128_1_0_0_1_n_n_wf : DotDims.WF S4000x7 S7x128 S4000x128 [1] [0] [0] [1] [] []
  dot_S4000x128_S128x2_S4000x2_1_0_0_1_n_n_wf : DotDims.WF S4000x128 S128x2 S4000x2 [1] [0] [0] [1] [] []
  gather_S2x400000_S19600000x1_S2x19600000_0_1_n_n_1_1_21_wf : GatherDims.WF S2x400000 S19600000x1 S2x19600000 [0] [1] [] [1] [] 1 ![2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S400000x2.size a
  hwx0_0 : ∀ i : grid0.Coords, EltTy.bits .f32 = 32 ∨ (Rect.block (s := S400000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S400000x1.size a
  hwx0_1 : ∀ i : grid0.Coords, EltTy.bits .f32 = 32 ∨ (Rect.block (s := S400000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S400000x3.size a
  hwx0_2 : ∀ i : grid0.Coords, EltTy.bits .f32 = 32 ∨ (Rect.block (s := S400000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x128.size a ≤ S7x128.size a
  hwx0_3 : ∀ i : grid0.Coords, EltTy.bits .f32 = 32 ∨ (Rect.block (s := S7x128) S7x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x2.size a ≤ S400000x2.size a
  hwx0_7 : ∀ i : grid0.Coords, EltTy.bits .f32 = 32 ∨ (Rect.block (s := S400000x2) S4000x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S400000x2.size a
  hwx1_0 : ∀ i : grid1.Coords, EltTy.bits .f32 = 32 ∨ (Rect.block (s := S400000x2) S4000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S400000x1.size a
  hwx1_1 : ∀ i : grid1.Coords, EltTy.bits .f32 = 32 ∨ (Rect.block (s := S400000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S400000x3.size a
  hwx1_2 : ∀ i : grid1.Coords, EltTy.bits .f32 = 32 ∨ (Rect.block (s := S400000x3) S4000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S7x128.size a ≤ S7x128.size a
  hwx1_3 : ∀ i : grid1.Coords, EltTy.bits .f32 = 32 ∨ (Rect.block (s := S7x128) S7x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x2.size a ≤ S400000x2.size a
  hwx1_7 : ∀ i : grid1.Coords, EltTy.bits .f32 = 32 ∨ (Rect.block (s := S400000x2) S4000x2.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S2048x128.size a < S153125x128.size a
  hwx2_0 : ∀ i : grid2.Coords, EltTy.bits .f32 = 32 ∨ (Rect.unit (s := S153125x128) (fun a => cc2_transform_0 i a * S2048x128.size a) (fun a => (Pipeline.Clip.of (cc2_transform_0 i a) (S2048x128.size a) (S153125x128.size a)).extent (S2048x128.size a)) fun a => Pipeline.Clip.inb (Pipeline.Clip.ok_of (hstart2_0 i a))).WholeWords (EltTy.packing .f32)
  hwxs2_0 : ∀ i : grid2.Coords, EltTy.bits .f32 = 32 ∨ (Rect.unit (s := S2048x128) (fun _ => 0) (fun a => (Pipeline.Clip.of (cc2_transform_0 i a) (S2048x128.size a) (S153125x128.size a)).extent (S2048x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x128.size a < S153125x128.size a
  hwx2_1 : ∀ i : grid2.Coords, EltTy.bits .f32 = 32 ∨ (Rect.unit (s := S153125x128) (fun a => cc2_transform_1 i a * S2048x128.size a) (fun a => (Pipeline.Clip.of (cc2_transform_1 i a) (S2048x128.size a) (S153125x128.size a)).extent (S2048x128.size a)) fun a => Pipeline.Clip.inb (Pipeline.Clip.ok_of (hstart2_1 i a))).WholeWords (EltTy.packing .f32)
  hwxs2_1 : ∀ i : grid2.Coords, EltTy.bits .f32 = 32 ∨ (Rect.unit (s := S2048x128) (fun _ => 0) (fun a => (Pipeline.Clip.of (cc2_transform_1 i a) (S2048x128.size a) (S153125x128.size a)).extent (S2048x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S2048x128.size a < S153125x128.size a
  hwx2_2 : ∀ i : grid2.Coords, EltTy.bits .f32 = 32 ∨ (Rect.unit (s := S153125x128) (fun a => cc2_transform_2 i a * S2048x128.size a) (fun a => (Pipeline.Clip.of (cc2_transform_2 i a) (S2048x128.size a) (S153125x128.size a)).extent (S2048x128.size a)) fun a => Pipeline.Clip.inb (Pipeline.Clip.ok_of (hstart2_2 i a))).WholeWords (EltTy.packing .f32)
  hwxs2_2 : ∀ i : grid2.Coords, EltTy.bits .f32 = 32 ∨ (Rect.unit (s := S2048x128) (fun _ => 0) (fun a => (Pipeline.Clip.of (cc2_transform_2 i a) (S2048x128.size a) (S153125x128.size a)).extent (S2048x128.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S2048x128.size a < S153125x128.size a
  hwx2_3 : ∀ i : grid2.Coords, EltTy.bits .f32 = 32 ∨ (Rect.unit (s := S153125x128) (fun a => cc2_transform_3 i a * S2048x128.size a) (fun a => (Pipeline.Clip.of (cc2_transform_3 i a) (S2048x128.size a) (S153125x128.size a)).extent (S2048x128.size a)) fun a => Pipeline.Clip.inb (Pipeline.Clip.ok_of (hstart2_3 i a))).WholeWords (EltTy.packing .f32)
  hwxs2_3 : ∀ i : grid2.Coords, EltTy.bits .f32 = 32 ∨ (Rect.unit (s := S2048x128) (fun _ => 0) (fun a => (Pipeline.Clip.of (cc2_transform_3 i a) (S2048x128.size a) (S153125x128.size a)).extent (S2048x128.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S2048x128.size a < S153125x128.size a
  hwx2_4 : ∀ i : grid2.Coords, EltTy.bits .f32 = 32 ∨ (Rect.unit (s := S153125x128) (fun a => cc2_transform_4 i a * S2048x128.size a) (fun a => (Pipeline.Clip.of (cc2_transform_4 i a) (S2048x128.size a) (S153125x128.size a)).extent (S2048x128.size a)) fun a => Pipeline.Clip.inb (Pipeline.Clip.ok_of (hstart2_4 i a))).WholeWords (EltTy.packing .f32)
  hwxs2_4 : ∀ i : grid2.Coords, EltTy.bits .f32 = 32 ∨ (Rect.unit (s := S2048x128) (fun _ => 0) (fun a => (Pipeline.Clip.of (cc2_transform_4 i a) (S2048x128.size a) (S153125x128.size a)).extent (S2048x128.size a)) fun a => (Nat.zero_add _).trans_le (Pipeline.Clip.extent_le (Pipeline.Clip.ok_of (hstart2_4 i a)))).WholeWords (EltTy.packing .f32)

variable [Facts₀]

def scatter_S400000x1_S19600000x1_S19600000x1_1_0_0_1 : ScatterDims S400000x1 S19600000x1 S19600000x1 where
  updateWindowDims := [1]
  insertedWindowDims := [0]
  scatterDimsToOperandDims := [0]
  indexVectorDim := 1
  wf := scatter_S400000x1_S19600000x1_S19600000x1_1_0_0_1_wf
def scatter_S400000x3_S19600000x1_S19600000x3_1_0_0_1 : ScatterDims S400000x3 S19600000x1 S19600000x3 where
  updateWindowDims := [1]
  insertedWindowDims := [0]
  scatterDimsToOperandDims := [0]
  indexVectorDim := 1
  wf := scatter_S400000x3_S19600000x1_S19600000x3_1_0_0_1_wf
def dot_S4000x7_S7x128_S4000x128_1_0_0_1_n_n : DotDims S4000x7 S7x128 S4000x128 where
  lhsContracting := [1]
  rhsContracting := [0]
  lhsNonContracting := [0]
  rhsNonContracting := [1]
  lhsBatch := []
  rhsBatch := []
  wf := dot_S4000x7_S7x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf
def gather_S2x400000_S19600000x1_S2x19600000_0_1_n_n_1_1_21 : GatherDims S2x400000 S19600000x1 S2x19600000 where
  offsetDims := [0]
  collapsedSliceDims := [1]
  operandBatchingDims := []
  startIndicesBatchingDims := []
  startIndexMap := [1]
  indexVectorDim := 1
  sliceSizes := ![2, 1]
  wf := gather_S2x400000_S19600000x1_S2x19600000_0_1_n_n_1_1_21_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S7x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S4000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S7x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S4000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpecClip (Memref.whole main_v55) S2048x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v58) S2048x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v61) S2048x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v64) S2048x128.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpecClip (Memref.whole main_v65) S2048x128.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S400000x2 : Shape := ⟨2, ![400000, 2]⟩
abbrev S2x19600000 : Shape := ⟨2, ![2, 19600000]⟩
abbrev S19600000x3 : Shape := ⟨2, ![19600000, 3]⟩
abbrev S2x7x128 : Shape := ⟨3, ![2, 7, 128]⟩
abbrev S2x128 : Shape := ⟨2, ![2, 128]⟩
abbrev S2x128x2 : Shape := ⟨3, ![2, 128, 2]⟩
abbrev S2x2 : Shape := ⟨2, ![2, 2]⟩
abbrev S1x19600000 : Shape := ⟨2, ![1, 19600000]⟩
abbrev S19600000 : Shape := ⟨1, ![19600000]⟩
abbrev S_ : Shape := ⟨0, ![]⟩
abbrev S19600000x1 : Shape := ⟨2, ![19600000, 1]⟩
abbrev S400000x1 : Shape := ⟨2, ![400000, 1]⟩
abbrev S19600000x2 : Shape := ⟨2, ![19600000, 2]⟩
abbrev S19600000x5 : Shape := ⟨2, ![19600000, 5]⟩
abbrev S400000x5 : Shape := ⟨2, ![400000, 5]⟩
abbrev S400000x7 : Shape := ⟨2, ![400000, 7]⟩
abbrev S1x7x128 : Shape := ⟨3, ![1, 7, 128]⟩
abbrev S7x128 : Shape := ⟨2, ![7, 128]⟩
abbrev S400000x128 : Shape := ⟨2, ![400000, 128]⟩
abbrev S1x128 : Shape := ⟨2, ![1, 128]⟩
abbrev S128 : Shape := ⟨1, ![128]⟩
abbrev S1x128x2 : Shape := ⟨3, ![1, 128, 2]⟩
abbrev S128x2 : Shape := ⟨2, ![128, 2]⟩
abbrev S1x2 : Shape := ⟨2, ![1, 2]⟩
abbrev S2 : Shape := ⟨1, ![2]⟩

abbrev nBuf : Space → Nat
  | .hbm => 115
  | .vmem => 0
  | .smem => 0
  | _ => 0

abbrev bufTy : (tb : Table) → Fin (tcTables nBuf tb) → BufTy
  | .hbm, ⟨0, _⟩ => ⟨S400000x2, .f32⟩
  | .hbm, ⟨1, _⟩ => ⟨S2x19600000, .i32⟩
  | .hbm, ⟨2, _⟩ => ⟨S19600000x3, .f32⟩
  | .hbm, ⟨3, _⟩ => ⟨S2x7x128, .f32⟩
  | .hbm, ⟨4, _⟩ => ⟨S2x128, .f32⟩
  | .hbm, ⟨5, _⟩ => ⟨S2x128x2, .f32⟩
  | .hbm, ⟨6, _⟩ => ⟨S2x2, .f32⟩
  | .hbm, ⟨7, _⟩ => ⟨S1x19600000, .i32⟩
  | .hbm, ⟨8, _⟩ => ⟨S19600000, .i32⟩
  | .hbm, ⟨9, _⟩ => ⟨S1x19600000, .i32⟩
  | .hbm, ⟨10, _⟩ => ⟨S19600000, .i32⟩
  | .hbm, ⟨11, _⟩ => ⟨S_, .f32⟩
  | .hbm, ⟨12, _⟩ => ⟨S19600000x1, .f32⟩
  | .hbm, ⟨13, _⟩ => ⟨S_, .f32⟩
  | .hbm, ⟨14, _⟩ => ⟨S400000x1, .f32⟩
  | .hbm, ⟨15, _⟩ => ⟨S19600000x1, .i32⟩
  | .hbm, ⟨16, _⟩ => ⟨S400000x1, .f32⟩
  | .hbm, ⟨17, _⟩ => ⟨S_, .f32⟩
  | .hbm, ⟨18, _⟩ => ⟨S400000x1, .f32⟩
  | .hbm, ⟨19, _⟩ => ⟨S400000x1, .f32⟩
  | .hbm, ⟨20, _⟩ => ⟨S_, .i32⟩
  | .hbm, ⟨21, _⟩ => ⟨S19600000, .i32⟩
  | .hbm, ⟨22, _⟩ => ⟨S19600000, .i1⟩
  | .hbm, ⟨23, _⟩ => ⟨S_, .i32⟩
  | .hbm, ⟨24, _⟩ => ⟨S19600000, .i32⟩
  | .hbm, ⟨25, _⟩ => ⟨S19600000, .i32⟩
  | .hbm, ⟨26, _⟩ => ⟨S19600000, .i32⟩
  | .hbm, ⟨27, _⟩ => ⟨S19600000x1, .i32⟩
  | .hbm, ⟨28, _⟩ => ⟨S19600000x2, .f32⟩
  | .hbm, ⟨29, _⟩ => ⟨S19600000x5, .f32⟩
  | .hbm, ⟨30, _⟩ => ⟨S_, .f32⟩
  | .hbm, ⟨31, _⟩ => ⟨S400000x5, .f32⟩
  | .hbm, ⟨32, _⟩ => ⟨S19600000x1, .i32⟩
  | .hbm, ⟨33, _⟩ => ⟨S400000x5, .f32⟩
  | .hbm, ⟨34, _⟩ => ⟨S400000x5, .f32⟩
  | .hbm, ⟨35, _⟩ => ⟨S400000x5, .f32⟩
  | .hbm, ⟨36, _⟩ => ⟨S400000x7, .f32⟩
  | .hbm, ⟨37, _⟩ => ⟨S1x7x128, .f32⟩
  | .hbm, ⟨38, _⟩ => ⟨S7x128, .f32⟩
  | .hbm, ⟨39, _⟩ => ⟨S400000x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S400000x128, .f32⟩
  | .hbm, ⟨44, _⟩ => ⟨S400000x128, .f32⟩
  | .hbm, ⟨45, _⟩ => ⟨S_, .f32⟩
  | .hbm, ⟨46, _⟩ => ⟨S400000x128, .f32⟩
  | .hbm, ⟨47, _⟩ => ⟨S400000x128, .f32⟩
  | .hbm, ⟨48, _⟩ => ⟨S1x128x2, .f32⟩
  | .hbm, ⟨49, _⟩ => ⟨S128x2, .f32⟩
  | .hbm, ⟨50, _⟩ => ⟨S400000x2, .f32⟩
  | .hbm, ⟨51, _⟩ => ⟨S1x2, .f32⟩
  | .hbm, ⟨52, _⟩ => ⟨S2, .f32⟩
  | .hbm, ⟨53, _⟩ => ⟨S1x2, .f32⟩
  | .hbm, ⟨54, _⟩ => ⟨S400000x2, .f32⟩
  | .hbm, ⟨55, _⟩ => ⟨S400000x2, .f32⟩
  | .hbm, ⟨56, _⟩ => ⟨S_, .i32⟩
  | .hbm, ⟨57, _⟩ => ⟨S19600000, .i32⟩
  | .hbm, ⟨58, _⟩ => ⟨S19600000, .i1⟩
  | .hbm, ⟨59, _⟩ => ⟨S_, .i32⟩
  | .hbm, ⟨60, _⟩ => ⟨S19600000, .i32⟩
  | .hbm, ⟨61, _⟩ => ⟨S19600000, .i32⟩
  | .hbm, ⟨62, _⟩ => ⟨S19600000, .i32⟩
  | .hbm, ⟨63, _⟩ => ⟨S19600000x1, .i32⟩
  | .hbm, ⟨64, _⟩ => ⟨S19600000x2, .f32⟩
  | .hbm, ⟨65, _⟩ => ⟨S19600000x5, .f32⟩
  | .hbm, ⟨66, _⟩ => ⟨S_, .f32⟩
  | .hbm, ⟨67, _⟩ => ⟨S400000x5, .f32⟩
  | .hbm, ⟨68, _⟩ => ⟨S19600000x1, .i32⟩
  | .hbm, ⟨69, _⟩ => ⟨S400000x5, .f32⟩
  | .hbm, ⟨70, _⟩ => ⟨S400000x5, .f32⟩
  | .hbm, ⟨71, _⟩ => ⟨S400000x5, .f32⟩
  | .hbm, ⟨72, _⟩ => ⟨S400000x7, .f32⟩
  | .hbm, ⟨73, _⟩ => ⟨S1x7x128, .f32⟩
  | .hbm, ⟨74, _⟩ => ⟨S7x128, .f32⟩
  | .hbm, ⟨75, _⟩ => ⟨S400000x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S400000x128, .f32⟩
  | .hbm, ⟨80, _⟩ => ⟨S400000x128, .f32⟩
  | .hbm, ⟨81, _⟩ => ⟨S_, .f32⟩
  | .hbm, ⟨82, _⟩ => ⟨S400000x128, .f32⟩
  | .hbm, ⟨83, _⟩ => ⟨S400000x128, .f32⟩
  | .hbm, ⟨84, _⟩ => ⟨S1x128x2, .f32⟩
  | .hbm, ⟨85, _⟩ => ⟨S128x2, .f32⟩
  | .hbm, ⟨86, _⟩ => ⟨S400000x2, .f32⟩
  | .hbm, ⟨87, _⟩ => ⟨S1x2, .f32⟩
  | .hbm, ⟨88, _⟩ => ⟨S2, .f32⟩
  | .hbm, ⟨89, _⟩ => ⟨S1x2, .f32⟩
  | .hbm, ⟨90, _⟩ => ⟨S400000x2, .f32⟩
  | .hbm, ⟨91, _⟩ => ⟨S400000x2, .f32⟩
  | .hbm, ⟨92, _⟩ => ⟨S_, .i32⟩
  | .hbm, ⟨93, _⟩ => ⟨S19600000, .i32⟩
  | .hbm, ⟨94, _⟩ => ⟨S19600000, .i1⟩
  | .hbm, ⟨95, _⟩ => ⟨S_, .i32⟩
  | .hbm, ⟨96, _⟩ => ⟨S19600000, .i32⟩
  | .hbm, ⟨97, _⟩ => ⟨S19600000, .i32⟩
  | .hbm, ⟨98, _⟩ => ⟨S19600000, .i32⟩
  | .hbm, ⟨99, _⟩ => ⟨S19600000x1, .i32⟩
  | .hbm, ⟨100, _⟩ => ⟨S19600000x2, .f32⟩
  | .hbm, ⟨101, _⟩ => ⟨S_, .i32⟩
  | .hbm, ⟨102, _⟩ => ⟨S19600000, .i32⟩
  | .hbm, ⟨103, _⟩ => ⟨S19600000, .i1⟩
  | .hbm, ⟨104, _⟩ => ⟨S_, .i32⟩
  | .hbm, ⟨105, _⟩ => ⟨S19600000, .i32⟩
  | .hbm, ⟨106, _⟩ => ⟨S19600000, .i32⟩
  | .hbm, ⟨107, _⟩ => ⟨S19600000, .i32⟩
  | .hbm, ⟨108, _⟩ => ⟨S19600000x1, .i32⟩
  | .hbm, ⟨109, _⟩ => ⟨S19600000x2, .f32⟩
  | .hbm, ⟨110, _⟩ => ⟨S19600000x2, .f32⟩
  | .hbm, ⟨111, _⟩ => ⟨S19600000x2, .f32⟩
  | .hbm, ⟨112, _⟩ => ⟨S_, .f32⟩
  | .hbm, ⟨113, _⟩ => ⟨S19600000, .f32⟩
  | .hbm, ⟨114, _⟩ => ⟨S19600000x1, .f32⟩
  | _, _ => ⟨S400000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call1_cst : Ref sig .tc := ⟨.hbm, 81, rfl⟩
abbrev main_call1_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_7 : Ref sig .tc := ⟨.hbm, 92, rfl⟩
abbrev main_v72 : Ref sig .tc := ⟨.hbm, 93, rfl⟩
abbrev main_v73 : Ref sig .tc := ⟨.hbm, 94, rfl⟩
abbrev main_c_8 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_9 : Ref sig .tc := ⟨.hbm, 101, rfl⟩
abbrev main_v79 : Ref sig .tc := ⟨.hbm, 102, rfl⟩
abbrev main_v80 : Ref sig .tc := ⟨.hbm, 103, rfl⟩
abbrev main_c_10 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_11 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]

class Facts₀ : Prop where
  slices_S2x19600000_S1x19600000_0_0 : S2x19600000.Slices ![0, 0] S1x19600000
  shapeCasts_S1x19600000_S19600000 : S1x19600000.ShapeCasts S19600000
  slices_S2x19600000_S1x19600000_1_0 : S2x19600000.Slices ![1, 0] S1x19600000
  bcast_S_S19600000x1 : S_.BroadcastsInDim S19600000x1 (![] : Fin 0 → Fin S19600000x1.rank)
  bcast_S_S400000x1 : S_.BroadcastsInDim S400000x1 (![] : Fin 0 → Fin S400000x1.rank)
  bcast_S19600000_S19600000x1_0 : S19600000.BroadcastsInDim S19600000x1 (![0] : Fin 1 → Fin S19600000x1.rank)
  bcast_S_S19600000 : S_.BroadcastsInDim S19600000 (![] : Fin 0 → Fin S19600000.rank)
  concatenates_S19600000x2_S19600000x3_S19600000x5_d1 : Shape.Concatenates [S19600000x2, S19600000x3] S19600000x5 1
  bcast_S_S400000x5 : S_.BroadcastsInDim S400000x5 (![] : Fin 0 → Fin S400000x5.rank)
  bcast_S400000x1_S400000x5_0_1 : S400000x1.BroadcastsInDim S400000x5 (![0, 1] : Fin 2 → Fin S400000x5.rank)
  concatenates_S400000x2_S400000x5_S400000x7_d1 : Shape.Concatenates [S400000x2, S400000x5] S400000x7 1
  slices_S2x7x128_S1x7x128_0_0_0 : S2x7x128.Slices ![0, 0, 0] S1x7x128
  shapeCasts_S1x7x128_S7x128 : S1x7x128.ShapeCasts S7x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S2x128x2_S1x128x2_0_0_0 : S2x128x2.Slices ![0, 0, 0] S1x128x2
  shapeCasts_S1x128x2_S128x2 : S1x128x2.ShapeCasts S128x2
  slices_S2x2_S1x2_0_0 : S2x2.Slices ![0, 0] S1x2
  shapeCasts_S1x2_S2 : S1x2.ShapeCasts S2
  bcast_S2_S1x2_1 : S2.BroadcastsInDim S1x2 (![1] : Fin 1 → Fin S1x2.rank)
  bcast_S1x2_S400000x2_0_1 : S1x2.BroadcastsInDim S400000x2 (![0, 1] : Fin 2 → Fin S400000x2.rank)
  slices_S2x7x128_S1x7x128_1_0_0 : S2x7x128.Slices ![1, 0, 0] S1x7x128
  slices_S2x128_S1x128_1_0 : S2x128.Slices ![1, 0] S1x128
  slices_S2x128x2_S1x128x2_1_0_0 : S2x128x2.Slices ![1, 0, 0] S1x128x2
  slices_S2x2_S1x2_1_0 : S2x2.Slices ![1, 0] S1x2
  reducesTo_S19600000x2_S19600000_d1 : S19600000x2.ReducesTo [1] S19600000
  h_S_ : 0 < S_.numel
  scatter_S400000x1_S19600000x1_S19600000x1_1_0_0_1_wf : ScatterDims.WF S400000x1 S19600000x1 S19600000x1 [1] [0] [0] 1
  gather_S400000x2_S19600000x1_S19600000x2_1_0_n_n_0_1_12_wf : GatherDims.WF S400000x2 S19600000x1 S19600000x2 [1] [0] [] [0] [] 1 ![1, 2]
  scatter_S400000x5_S19600000x1_S19600000x5_1_0_0_1_wf : ScatterDims.WF S400000x5 S19600000x1 S19600000x5 [1] [0] [0] 1
  dot_S400000x7_S7x128_S400000x128_1_0_0_1_n_n_wf : DotDims.WF S400000x7 S7x128 S400000x128 [1] [0] [0] [1] [] []
  dot_S400000x128_S128x2_S400000x2_1_0_0_1_n_n_wf : DotDims.WF S400000x128 S128x2 S400000x2 [1] [0] [0] [1] [] []

variable [Facts₀]

def scatter_S400000x1_S19600000x1_S19600000x1_1_0_0_1 : ScatterDims S400000x1 S19600000x1 S19600000x1 where
  updateWindowDims := [1]
  insertedWindowDims := [0]
  scatterDimsToOperandDims := [0]
  indexVectorDim := 1
  wf := scatter_S400000x1_S19600000x1_S19600000x1_1_0_0_1_wf
def gather_S400000x2_S19600000x1_S19600000x2_1_0_n_n_0_1_12 : GatherDims S400000x2 S19600000x1 S19600000x2 where
  offsetDims := [1]
  collapsedSliceDims := [0]
  operandBatchingDims := []
  startIndicesBatchingDims := []
  startIndexMap := [0]
  indexVectorDim := 1
  sliceSizes := ![1, 2]
  wf := gather_S400000x2_S19600000x1_S19600000x2_1_0_n_n_0_1_12_wf
def scatter_S400000x5_S19600000x1_S19600000x5_1_0_0_1 : ScatterDims S400000x5 S19600000x1 S19600000x5 where
  updateWindowDims := [1]
  insertedWindowDims := [0]
  scatterDimsToOperandDims := [0]
  indexVectorDim := 1
  wf := scatter_S400000x5_S19600000x1_S19600000x5_1_0_0_1_wf
def dot_S400000x7_S7x128_S400000x128_1_0_0_1_n_n : DotDims S400000x7 S7x128 S400000x128 where
  lhsContracting := [1]
  rhsContracting := [0]
  lhsNonContracting := [0]
  rhsNonContracting := [1]
  lhsBatch := []
  rhsBatch := []
  wf := dot_S400000x7_S7x128_S400000x128_1_0_0_1_n_n_wf
def dot_S400000x128_S128x2_S400000x2_1_0_0_1_n_n : DotDims S400000x128 S128x2 S400000x2 where
  lhsContracting := [1]
  rhsContracting := [0]
  lhsNonContracting := [0]
  rhsNonContracting := [1]
  lhsBatch := []
  rhsBatch := []
  wf := dot_S400000x128_S128x2_S400000x2_1_0_0_1_n_n_wf

class Facts : Prop extends Facts₀ where

variable [Facts]
-- ==== Proof.K.Mlp0.lean ====
/-
  The first node-update layer as a pipeline (the program's first kernel region), at the contents `V` the region
  is entered with: a grid of 100 points, point `t` working on rows 4000·t … 4000·t + 3999 of the node arrays.
  At a point the body reads the point's blocks of the node features `x` (4000 × 2), the per-node scale (4000 × 1)
  and the aggregated edge attributes (4000 × 3), and the whole weight and bias arrays (7 × 128, 1 × 128, 128 × 2,
  1 × 2), and writes one 4000 × 2 block: relu([x, x·scale, a]·W₁ + b₁)·W₂ + b₂.
  Here: the block each window holds at a point, what the body leaves in the result's staging buffer as a function
  of the seven input blocks, the body's triple, and the pipeline's proof data with its body obligation. Nothing
  here opens the arithmetic.
-/
import proofs.«406876_j85478439125102_3_alg».proof.Proof.Gen.Kernel.Launch
import proofs.«406876_j85478439125102_3_alg».proof.Proof.Gen.Kernel.Skeleton
import proofs.«406876_j85478439125102_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (an unfetched
    window's block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (an unfetched
    window's block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (an unfetched
    window's block index has not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (an unfetched
    window's block index has not moved), for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (an unfetched
    window's block index has not moved), for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not (an unfetched
    window's block index has not moved), for any proof data over `V` whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev r0_0 : Rect S4000x2 := Rect.unit (s := S4000x2) ![0, 0] S4000x2.size inb_S4000x2_S4000x2_0_0
abbrev r0_1 : Rect S4000x1 := Rect.unit (s := S4000x1) ![0, 0] S4000x1.size inb_S4000x1_S4000x1_0_0
abbrev r0_2 : Rect S4000x3 := Rect.unit (s := S4000x3) ![0, 0] S4000x3.size inb_S4000x3_S4000x3_0_0
abbrev r0_3 : Rect S7x128 := Rect.unit (s := S7x128) ![0, 0] S7x128.size inb_S7x128_S7x128_0_0
abbrev r0_4 : Rect S1x128 := Rect.unit (s := S1x128) ![0, 0] S1x128.size inb_S1x128_S1x128_0_0
abbrev r0_5 : Rect S128x2 := Rect.unit (s := S128x2) ![0, 0] S128x2.size inb_S128x2_S128x2_0_0
abbrev r0_6 : Rect S1x2 := Rect.unit (s := S1x2) ![0, 0] S1x2.size inb_S1x2_S1x2_0_0

/-! ## What the body leaves in the result's staging buffer -/

/-- The result window's staging buffer after the body, from the seven input blocks: its one store, of the layer's
    value at the loaded blocks. -/
def out0_7 (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) : Vec F S4000x2 .f32 :=
  View.canon [⟨r0_0, k0_pay1 (View.ld x0 r0_0) (View.ld x1 r0_1) (View.ld x2 r0_2) (View.ld x3 r0_3) (View.ld x4 r0_4) (View.ld x5 r0_5) (View.ld x6 r0_6)⟩]

/-- The one store takes the whole buffer. -/
theorem cover0_7 (p0 : Vec F S4000x2 .f32) (y : S4000x2.Idx) :
    ∃ pc ∈ ([⟨r0_0, p0⟩] : List (View.Piece (Elt F) S4000x2 .f32)), y ∈ pc.1.set :=
  View.cover_of_tiled [⟨r0_0, p0⟩] S4000x2.size (by rfl) y

/-! ## The body's triple -/

set_option maxHeartbeats 4000000 in
/-- The kernel body on whole staging buffers, the inputs' at contents `x0 … x6` and the result's at anything, runs to
    its return leaving the inputs' as they were and the result's at `out0_7` of them. -/
theorem sound_kernel0 (c : Dev nD) (E : Set ℕ) (i : grid0.Coords) (arg1 : Memref sig .tc .vmem S4000x2 .f32) (harg1 : arg1.IsWhole) (arg2 : Memref sig .tc .vmem S4000x1 .f32) (harg2 : arg2.IsWhole) (arg3 : Memref sig .tc .vmem S4000x3 .f32) (harg3 : arg3.IsWhole) (arg4 : Memref sig .tc .vmem S7x128 .f32) (harg4 : arg4.IsWhole) (arg5 : Memref sig .tc .vmem S1x128 .f32) (harg5 : arg5.IsWhole) (arg6 : Memref sig .tc .vmem S128x2 .f32) (harg6 : arg6.IsWhole) (arg7 : Memref sig .tc .vmem S1x2 .f32) (harg7 : arg7.IsWhole) (arg8 : Memref sig .tc .vmem S4000x2 .f32) (harg8 : arg8.IsWhole)
    (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of this pipeline on core `c`: the arrays as the region finds them; after the body at point `t`
    each input's buffer at its block and the result's at `out0_7` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Mlp1.lean ====
/-
  The second node-update layer as a pipeline (the program's second kernel region), at the contents `V` the region
  is entered with: a grid of 100 points, point `t` working on rows 4000·t … 4000·t + 3999 of the node arrays.
  At a point the body reads the point's blocks of the node features `x` (4000 × 2), the per-node scale (4000 × 1)
  and the aggregated edge attributes (4000 × 3), and the whole weight and bias arrays (7 × 128, 1 × 128, 128 × 2,
  1 × 2), and writes one 4000 × 2 block: relu([x, x·scale, a]·W₁ + b₁)·W₂ + b₂.
  Here: the block each window holds at a point, what the body leaves in the result's staging buffer as a function
  of the seven input blocks, the body's triple, and the pipeline's proof data with its body obligation. Nothing
  here opens the arithmetic.
-/
import proofs.«406876_j85478439125102_3_alg».proof.Proof.Gen.Kernel.Launch
import proofs.«406876_j85478439125102_3_alg».proof.Proof.Gen.Kernel.Skeleton
import proofs.«406876_j85478439125102_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (an unfetched
    window's block index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (an unfetched
    window's block index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (an unfetched
    window's block index has not moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (an unfetched
    window's block index has not moved), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (an unfetched
    window's block index has not moved), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (an unfetched
    window's block index has not moved), for any proof data over `V` whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S4000x2 := Rect.unit (s := S4000x2) ![0, 0] S4000x2.size inb_S4000x2_S4000x2_0_0
abbrev r1_1 : Rect S4000x1 := Rect.unit (s := S4000x1) ![0, 0] S4000x1.size inb_S4000x1_S4000x1_0_0
abbrev r1_2 : Rect S4000x3 := Rect.unit (s := S4000x3) ![0, 0] S4000x3.size inb_S4000x3_S4000x3_0_0
abbrev r1_3 : Rect S7x128 := Rect.unit (s := S7x128) ![0, 0] S7x128.size inb_S7x128_S7x128_0_0
abbrev r1_4 : Rect S1x128 := Rect.unit (s := S1x128) ![0, 0] S1x128.size inb_S1x128_S1x128_0_0
abbrev r1_5 : Rect S128x2 := Rect.unit (s := S128x2) ![0, 0] S128x2.size inb_S128x2_S128x2_0_0
abbrev r1_6 : Rect S1x2 := Rect.unit (s := S1x2) ![0, 0] S1x2.size inb_S1x2_S1x2_0_0

/-! ## What the body leaves in the result's staging buffer -/

/-- The result window's staging buffer after the body, from the seven input blocks: its one store, of the layer's
    value at the loaded blocks. -/
def out1_7 (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) : Vec F S4000x2 .f32 :=
  View.canon [⟨r1_0, k1_pay1 (View.ld x0 r1_0) (View.ld x1 r1_1) (View.ld x2 r1_2) (View.ld x3 r1_3) (View.ld x4 r1_4) (View.ld x5 r1_5) (View.ld x6 r1_6)⟩]

/-- The one store takes the whole buffer. -/
theorem cover1_7 (p0 : Vec F S4000x2 .f32) (y : S4000x2.Idx) :
    ∃ pc ∈ ([⟨r1_0, p0⟩] : List (View.Piece (Elt F) S4000x2 .f32)), y ∈ pc.1.set :=
  View.cover_of_tiled [⟨r1_0, p0⟩] S4000x2.size (by rfl) y

/-! ## The body's triple -/

set_option maxHeartbeats 4000000 in
/-- The kernel body on whole staging buffers, the inputs' at contents `x0 … x6` and the result's at anything, runs to
    its return leaving the inputs' as they were and the result's at `out1_7` of them. -/
theorem sound_kernel1 (c : Dev nD) (E : Set ℕ) (i : grid1.Coords) (arg1 : Memref sig .tc .vmem S4000x2 .f32) (harg1 : arg1.IsWhole) (arg2 : Memref sig .tc .vmem S4000x1 .f32) (harg2 : arg2.IsWhole) (arg3 : Memref sig .tc .vmem S4000x3 .f32) (harg3 : arg3.IsWhole) (arg4 : Memref sig .tc .vmem S7x128 .f32) (harg4 : arg4.IsWhole) (arg5 : Memref sig .tc .vmem S1x128 .f32) (harg5 : arg5.IsWhole) (arg6 : Memref sig .tc .vmem S128x2 .f32) (harg6 : arg6.IsWhole) (arg7 : Memref sig .tc .vmem S1x2 .f32) (harg7 : arg7.IsWhole) (arg8 : Memref sig .tc .vmem S4000x2 .f32) (harg8 : arg8.IsWhole)
    (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of this pipeline on core `c`: the arrays as the region finds them; after the body at point `t`
    each input's buffer at its block and the result's at `out1_7` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Dist.lean ====
/-
  The per-edge squared distance as a pipeline (the program's third kernel region), at the contents `V` the region
  is entered with. The four operands and the result are 153125 × 128 arrays (one entry per edge, 128 edges to a row)
  walked in blocks of 2048 rows over a grid of 75 points; the last block overhangs the arrays by 475 rows, so its
  transfers are cut to the 1573 rows inside, and what the staging buffers hold past them is not determined.
  At a point the body reads the four blocks a0, a1, b0, b1 and writes (a0 − b0)² + (a1 − b1)², entry by entry.
  Here: each operand's block at a point (its part inside the array), the body's triple on whole staging buffers, and
  the pipeline's proof data with its body obligation, which is stated on the rows inside the arrays only: since the
  body is entry-wise, what it writes there depends on nothing past them.
-/
import proofs.«406876_j85478439125102_3_alg».proof.Proof.Gen.Kernel.Launch
import proofs.«406876_j85478439125102_3_alg».proof.Proof.Gen.Kernel.Skeleton
import proofs.«406876_j85478439125102_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The operands' blocks: the part of each inside its array -/

/-- The first coordinate row of the destination endpoints at point `t`. -/
def blkA (c : Dev nD) (t : Fin cfg2.N) : (win2_0.xblock (grid2.coords t)).Idx → Elt F .f32 :=
  (win2_0.blk t).view.read (Elt F) (V c main_v55)
/-- The second coordinate row of the destination endpoints (the windows' index maps and cuts agree: one block
    shape, by unfolding the maps). -/
def blkB (c : Dev nD) (t : Fin cfg2.N) : (win2_0.xblock (grid2.coords t)).Idx → Elt F .f32 :=
  (win2_1.blk t).view.read (Elt F) (V c main_v58)
/-- The first coordinate row of the source endpoints. -/
def blkC (c : Dev nD) (t : Fin cfg2.N) : (win2_0.xblock (grid2.coords t)).Idx → Elt F .f32 :=
  (win2_2.blk t).view.read (Elt F) (V c main_v61)
/-- The second coordinate row of the source endpoints. -/
def blkD (c : Dev nD) (t : Fin cfg2.N) : (win2_0.xblock (grid2.coords t)).Idx → Elt F .f32 :=
  (win2_3.blk t).view.read (Elt F) (V c main_v64)

/-- The squared distance of two points of the plane from their coordinates. -/
def sqd (a0 b0 a1 b1 : Elt F .f32) : Elt F .f32 :=
  FloatOps.addf (FloatOps.mulf (FloatOps.subf a0 b0) (FloatOps.subf a0 b0)) (FloatOps.mulf (FloatOps.subf a1 b1) (FloatOps.subf a1 b1))

/-- The body's arithmetic is entry-wise: at an entry it is `sqd` of the four loaded values there. -/
theorem k2_pay1_apply (X0 X2 X1 X3 : Vec F S2048x128 .f32) (j : S2048x128.Idx) :
    k2_pay1 X0 X2 X1 X3 j = sqd (X0 j) (X2 j) (X1 j) (X3 j) := by
  unfold k2_pay1
  simp only [shapeCast_self]
  rfl

/-- What the staging buffers hold after the body at point `t` on the rows inside the arrays: the four blocks and
    (the result's) their squared distance; past the arrays' end the obligation states nothing, and this filler is
    the zero word. -/
def fillA (c : Dev nD) (t : Fin cfg2.N) : S2048x128.Idx → Elt F .f32 :=
  win2_0.fill (grid2.coords t) (fun _ => Scalar.ofBits .f32 0#32) (blkA V c t)
def fillB (c : Dev nD) (t : Fin cfg2.N) : S2048x128.Idx → Elt F .f32 :=
  win2_0.fill (grid2.coords t) (fun _ => Scalar.ofBits .f32 0#32) (blkB V c t)
def fillC (c : Dev nD) (t : Fin cfg2.N) : S2048x128.Idx → Elt F .f32 :=
  win2_0.fill (grid2.coords t) (fun _ => Scalar.ofBits .f32 0#32) (blkC V c t)
def fillD (c : Dev nD) (t : Fin cfg2.N) : S2048x128.Idx → Elt F .f32 :=
  win2_0.fill (grid2.coords t) (fun _ => Scalar.ofBits .f32 0#32) (blkD V c t)
def fillO (c : Dev nD) (t : Fin cfg2.N) : S2048x128.Idx → Elt F .f32 :=
  win2_0.fill (grid2.coords t) (fun _ => Scalar.ofBits .f32 0#32)
    (fun j => sqd (blkA V c t j) (blkC V c t j) (blkB V c t j) (blkD V c t j))

/-! ## The body's accesses and its triple -/

abbrev r2_0 : Rect S2048x128 := Rect.unit (s := S2048x128) ![0, 0] S2048x128.size inb_S2048x128_S2048x128_0_0

/-- The result's staging buffer after the body, from the four input buffers' contents: its one store. -/
def out2_4 (x0 x1 x2 x3 : Vec F S2048x128 .f32) : Vec F S2048x128 .f32 :=
  View.canon [⟨r2_0, k2_pay1 (View.ld x0 r2_0) (View.ld x2 r2_0) (View.ld x1 r2_0) (View.ld x3 r2_0)⟩]

theorem cover2_4 (p0 : Vec F S2048x128 .f32) (y : S2048x128.Idx) :
    ∃ pc ∈ ([⟨r2_0, p0⟩] : List (View.Piece (Elt F) S2048x128 .f32)), y ∈ pc.1.set :=
  View.cover_of_tiled [⟨r2_0, p0⟩] S2048x128.size (by rfl) y

/-- Every access takes a whole buffer, so the store leaves the entry-wise value of the loaded contents. -/
theorem out2_4_eq (x0 x1 x2 x3 : Vec F S2048x128 .f32) : out2_4 x0 x1 x2 x3 = k2_pay1 x0 x2 x1 x3 := by
  have hz : (![0, 0] : Fin 2 → Nat) = fun _ => 0 := funext fun a => by fin_cases a <;> rfl
  unfold out2_4
  rw [View.canon_unit_zero hz]
  simp only [View.ld_unit_zero (S := S2048x128) hz]

set_option maxHeartbeats 4000000 in
/-- The kernel body on whole staging buffers, the inputs' at contents `x0 … x3` and the result's at anything, runs to
    its return leaving the inputs' as they were and the result's at `out2_4` of them. -/
theorem sound_kernel2 (c : Dev nD) (E : Set ℕ) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole)
    (x0 x1 x2 x3 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__dist_kernel i arg1 harg1 arg2 harg2 arg3 harg3 arg4 harg4 arg5 harg5) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of this pipeline on core `c`: the arrays as the region finds them; after the body at point `t` the
    five staging buffers at the filled-out blocks above; the scoped rest and the generator register untouched; nothing
    owed; full shares. -/
def dat2 (c : Dev nD) : Dat τ (Elt F) Unit ℕ (UR sig nD τ) ℕ cfg2 c where
  A w := V c (Pipeline.arrRef spec2 w)
  after w t := match w with
    | ⟨0, _⟩ => fillA V c t
    | ⟨1, _⟩ => fillB V c t
    | ⟨2, _⟩ => fillC V c t
    | ⟨3, _⟩ => fillD V c t
    | ⟨4, _⟩ => fillO V c t
  Φ _ := Pipeline.ΦA spec2 c
  q _ := fullShare
  owed _ := 0

theorem A_eq2 (c : Dev nD) (w : Fin cfg2.W) : (dat2 V c).A w = V c (Pipeline.arrRef spec2 w) := by
  dsimp only [dat2]

/-- The result's window is never fetched. -/
theorem fetch2_4 : ∀ t : Fin cfg2.N, (cfg2.win 4).fetch t = false :=
  (by decide +kernel : ∀ t : Fin grid2.N, win2_4.fetch t = false)

/-- What the body finds: each operand's buffer just fetched, the block on the rows inside the array and `d`
    elsewhere; -/
theorem before2_0 (c : Dev nD) (t : Fin cfg2.N) (d) :
    (dat2 V c).before (0 : Fin 5) t d = win2_0.fill (grid2.coords t) d (blkA V c t) := by
  unfold Dat.before; rw [if_pos (fetch2_0 t)]; rfl
theorem before2_1 (c : Dev nD) (t : Fin cfg2.N) (d) :
    (dat2 V c).before (1 : Fin 5) t d = win2_0.fill (grid2.coords t) d (blkB V c t) := by
  unfold Dat.before; rw [if_pos (fetch2_1 t)]; rfl
theorem before2_2 (c : Dev nD) (t : Fin cfg2.N) (d) :
    (dat2 V c).before (2 : Fin 5) t d = win2_0.fill (grid2.coords t) d (blkC V c t) := by
  unfold Dat.before; rw [if_pos (fetch2_2 t)]; rfl
theorem before2_3 (c : Dev nD) (t : Fin cfg2.N) (d) :
    (dat2 V c).before (3 : Fin 5) t d = win2_0.fill (grid2.coords t) d (blkD V c t) := by
  unfold Dat.before; rw [if_pos (fetch2_3 t)]; rfl
/-- the result's buffer at contents nothing names (it was written back at the point before, or never filled). -/
theorem before2_4 (c : Dev nD) (t : Fin cfg2.N) (d) : (dat2 V c).before (4 : Fin 5) t d = d := by
  unfold Dat.before
  rw [if_neg (by rw [fetch2_4 t]; exact Bool.false_ne_true)]
  by_cases h0 : t.val = 0
  · rw [if_pos h0]
  · rw [if_neg h0]; exact if_pos (flush2_4 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: each buffer stated on the rows inside the arrays only. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ d, owns (c : Thread nD τ) (st2_3 t) fullShare ((cfg2.win 3).fill (cfg2.grid.coords t) d ((cfg2.win 3).cut (cfg2.grid.coords t) ((dat2 V c).after 3 t))))
    ∗ (∃ d, owns (c : Thread nD τ) (st2_4 t) fullShare ((cfg2.win 4).fill (cfg2.grid.coords t) d ((cfg2.win 4).cut (cfg2.grid.coords t) ((dat2 V c).after 4 t)))))

/-- The entry-wise value of filled-out blocks is the filled-out entry-wise value: on a row inside the arrays it reads
    the blocks, elsewhere the fillers. -/
theorem pay_fill (i : grid2.Coords) (d0 d1 d2 d3 : S2048x128.Idx → Elt F .f32)
    (a b c' e : (win2_0.xblock i).Idx → Elt F .f32) :
    k2_pay1 (win2_0.fill i d0 a) (win2_0.fill i d2 c') (win2_0.fill i d1 b) (win2_0.fill i d3 e)
      = win2_0.fill i (k2_pay1 d0 d2 d1 d3) (fun j => sqd (a j) (c' j) (b j) (e j)) := by
  funext j
  rw [k2_pay1_apply]
  unfold Window.fill
  split
  · rfl
  · rw [k2_pay1_apply]

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  rw [before2_0 V c t d0, before2_1 V c t d1, before2_2 V c t d2, before2_3 V c t d3, before2_4 V c t d4]
  iapply (sound_kernel2 c Set.univ (grid2.coords t) _ _ _ _ _ _ _ _ _ _
    (win2_0.fill (grid2.coords t) d0 (blkA V c t)) (win2_0.fill (grid2.coords t) d1 (blkB V c t))
    (win2_0.fill (grid2.coords t) d2 (blkC V c t)) (win2_0.fill (grid2.coords t) d3 (blkD V c t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hA : win2_0.cut (grid2.coords t) (fillA V c t) = blkA V c t := win2_0.cut_fill _ _ _
  have hB : win2_0.cut (grid2.coords t) (fillB V c t) = blkB V c t := win2_0.cut_fill _ _ _
  have hC : win2_0.cut (grid2.coords t) (fillC V c t) = blkC V c t := win2_0.cut_fill _ _ _
  have hD : win2_0.cut (grid2.coords t) (fillD V c t) = blkD V c t := win2_0.cut_fill _ _ _
  have hO : win2_0.cut (grid2.coords t) (fillO V c t)
      = fun j => sqd (blkA V c t j) (blkC V c t j) (blkB V c t j) (blkD V c t j) := win2_0.cut_fill _ _ _
  isplitl [H0]
  · iexists d0
    change _ ⊢ owns (c : Thread nD τ) (st2_0 t) fullShare (win2_0.fill (grid2.coords t) d0 (win2_0.cut (grid2.coords t) (fillA V c t)))
    rw [hA]; try iexact H0
  isplitl [H1]
  · iexists d1
    change _ ⊢ owns (c : Thread nD τ) (st2_1 t) fullShare (win2_0.fill (grid2.coords t) d1 (win2_0.cut (grid2.coords t) (fillB V c t)))
    rw [hB]; try iexact H1
  isplitl [H2]
  · iexists d2
    change _ ⊢ owns (c : Thread nD τ) (st2_2 t) fullShare (win2_0.fill (grid2.coords t) d2 (win2_0.cut (grid2.coords t) (fillC V c t)))
    rw [hC]; try iexact H2
  isplitl [H3]
  · iexists d3
    change _ ⊢ owns (c : Thread nD τ) (st2_3 t) fullShare (win2_0.fill (grid2.coords t) d3 (win2_0.cut (grid2.coords t) (fillD V c t)))
    rw [hD]; try iexact H3
  · iexists k2_pay1 d0 d2 d1 d3
    change _ ⊢ owns (c : Thread nD τ) (st2_4 t) fullShare (win2_0.fill (grid2.coords t) (k2_pay1 d0 d2 d1 d3) (win2_0.cut (grid2.coords t) (fillO V c t)))
    rw [hO, ← pay_fill, ← out2_4_eq]; try iexact H4

/-- The library's body obligation, at every point: every window of this pipeline is stated loosely. -/
theorem body_obligation2 (c : Dev nD) : BodyObligationLoose (dat2 (F := F) V c) (defs₀ (F := F)) Variants.none () Set.univ := fun t => by
  rw [bigSep_W2, bigSep_W2]
  exact sound_body2 V c t

end Cert.Kernel.Fr

end
-- ==== Proof.K.Segs.lean ====
/-
  The whole run of the program: @main is four stretches of host operations around three kernel regions. The
  contents of the TensorCore's buffers are followed through the seven segments (`W0` … `W7`: a host stretch applies
  its operations; a region leaves its arrays at what its pipeline's write-backs leave and everything else untouched),
  each region is entered from and left at those contents, and the launch theorem for a list of segments gives:
  every weakly fair execution terminates, nothing faults, and every final memory holds each unscoped buffer at the
  last contents `W7`. The frame and the value of the result are both read off that.
-/
import proofs.«406876_j85478439125102_3_alg».proof.Proof.Gen.Kernel.Launch
import proofs.«406876_j85478439125102_3_alg».proof.Proof.Gen.Kernel.Skeleton
import proofs.«406876_j85478439125102_3_alg».proof.Proof.Gen.Kernel.Points
import proofs.«406876_j85478439125102_3_alg».proof.Proof.K.Mlp0
import proofs.«406876_j85478439125102_3_alg».proof.Proof.K.Mlp1
import proofs.«406876_j85478439125102_3_alg».proof.Proof.K.Dist
import proofs.«406876_j85478439125102_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the result's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the result's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at `W3`, left at `W4`. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 over the thread state: entered from every unscoped buffer at `W5`, left at `W6`. Its arrays are
    split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates, nothing faulting,
    and every final memory holds each unscoped buffer of each core at the last contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## What no segment changes -/

/-- A buffer that no host stretch writes and that is no region's array ends holding what it was launched with. -/
theorem W7_keep (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b n2
    _ = W4 m ρ c (Proc.devRef .tc b) := StableHlo.after_of_writes_sub hostOps2 _ hostOps2_writes h2
    _ = W3 m ρ c (Proc.devRef .tc b) := W4_of_ne m ρ c b n1
    _ = W2 m ρ c (Proc.devRef .tc b) := StableHlo.after_of_writes_sub hostOps1 _ hostOps1_writes h1
    _ = W1 m ρ c (Proc.devRef .tc b) := W2_of_ne m ρ c b n0
    _ = W0 m ρ c (Proc.devRef .tc b) := StableHlo.after_of_writes_sub hostOps0 _ hostOps0_writes h0
    _ = m ((c : Thread nD τ).loc b) := rfl

/-- The node features are the first region's first operand: staged, read, never written. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W7_main_arg0 m ρ c),
     (h c _ (mem_uc main_arg1 (by decide))).trans (W7_keep m ρ c main_arg1 (by decide) (by decide) (by decide) (by decide) (by decide) (by decide) (by decide)),
     (h c _ (mem_uc main_arg2 (by decide))).trans (W7_keep m ρ c main_arg2 (by decide) (by decide) (by decide) (by decide) (by decide) (by decide) (by decide)),
     (h c _ (mem_uc main_arg3 (by decide))).trans (W7_keep m ρ c main_arg3 (by decide) (by decide) (by decide) (by decide) (by decide) (by decide) (by decide)),
     (h c _ (mem_uc main_arg4 (by decide))).trans (W7_keep m ρ c main_arg4 (by decide) (by decide) (by decide) (by decide) (by decide) (by decide) (by decide)),
     (h c _ (mem_uc main_arg5 (by decide))).trans (W7_keep m ρ c main_arg5 (by decide) (by decide) (by decide) (by decide) (by decide) (by decide) (by decide)),
     (h c _ (mem_uc main_arg6 (by decide))).trans (W7_keep m ρ c main_arg6 (by decide) (by decide) (by decide) (by decide) (by decide) (by decide) (by decide))⟩)
    (run m ρ)

end Cert.Kernel.Fr

end
-- ==== Proof.KI.Mlp0.lean ====
/-
  The first node-update layer as a pipeline (the program's first kernel region), at the contents `V` the region
  is entered with: a grid of 100 points, point `t` working on rows 4000·t … 4000·t + 3999 of the node arrays.
  At a point the body reads the point's blocks of the node features `x` (4000 × 2), the per-node scale (4000 × 1)
  and the aggregated edge attributes (4000 × 3), and the whole weight and bias arrays (7 × 128, 1 × 128, 128 × 2,
  1 × 2), and writes one 4000 × 2 block: relu([x, x·scale, a]·W₁ + b₁)·W₂ + b₂.
  Here: the block each window holds at a point, what the body leaves in the result's staging buffer as a function
  of the seven input blocks, the body's triple, and the pipeline's proof data with its body obligation. Nothing
  here opens the arithmetic.
-/
import proofs.«406876_j85478439125102_3_alg».proof.Proof.Gen.KernelIdeal.Launch
import proofs.«406876_j85478439125102_3_alg».proof.Proof.Gen.KernelIdeal.Skeleton
import proofs.«406876_j85478439125102_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (an unfetched
    window's block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (an unfetched
    window's block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (an unfetched
    window's block index has not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (an unfetched
    window's block index has not moved), for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (an unfetched
    window's block index has not moved), for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not (an unfetched
    window's block index has not moved), for any proof data over `V` whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev r0_0 : Rect S4000x2 := Rect.unit (s := S4000x2) ![0, 0] S4000x2.size inb_S4000x2_S4000x2_0_0
abbrev r0_1 : Rect S4000x1 := Rect.unit (s := S4000x1) ![0, 0] S4000x1.size inb_S4000x1_S4000x1_0_0
abbrev r0_2 : Rect S4000x3 := Rect.unit (s := S4000x3) ![0, 0] S4000x3.size inb_S4000x3_S4000x3_0_0
abbrev r0_3 : Rect S7x128 := Rect.unit (s := S7x128) ![0, 0] S7x128.size inb_S7x128_S7x128_0_0
abbrev r0_4 : Rect S1x128 := Rect.unit (s := S1x128) ![0, 0] S1x128.size inb_S1x128_S1x128_0_0
abbrev r0_5 : Rect S128x2 := Rect.unit (s := S128x2) ![0, 0] S128x2.size inb_S128x2_S128x2_0_0
abbrev r0_6 : Rect S1x2 := Rect.unit (s := S1x2) ![0, 0] S1x2.size inb_S1x2_S1x2_0_0

/-! ## What the body leaves in the result's staging buffer -/

/-- The result window's staging buffer after the body, from the seven input blocks: its one store, of the layer's
    value at the loaded blocks. -/
def out0_7 (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) : Vec F S4000x2 .f32 :=
  View.canon [⟨r0_0, k0_pay1 (View.ld x0 r0_0) (View.ld x1 r0_1) (View.ld x2 r0_2) (View.ld x3 r0_3) (View.ld x4 r0_4) (View.ld x5 r0_5) (View.ld x6 r0_6)⟩]

/-- The one store takes the whole buffer. -/
theorem cover0_7 (p0 : Vec F S4000x2 .f32) (y : S4000x2.Idx) :
    ∃ pc ∈ ([⟨r0_0, p0⟩] : List (View.Piece (Elt F) S4000x2 .f32)), y ∈ pc.1.set :=
  View.cover_of_tiled [⟨r0_0, p0⟩] S4000x2.size (by rfl) y

/-! ## The body's triple -/

set_option maxHeartbeats 4000000 in
/-- The kernel body on whole staging buffers, the inputs' at contents `x0 … x6` and the result's at anything, runs to
    its return leaving the inputs' as they were and the result's at `out0_7` of them. -/
theorem sound_kernel0 (c : Dev nD) (E : Set ℕ) (i : grid0.Coords) (arg1 : Memref sig .tc .vmem S4000x2 .f32) (harg1 : arg1.IsWhole) (arg2 : Memref sig .tc .vmem S4000x1 .f32) (harg2 : arg2.IsWhole) (arg3 : Memref sig .tc .vmem S4000x3 .f32) (harg3 : arg3.IsWhole) (arg4 : Memref sig .tc .vmem S7x128 .f32) (harg4 : arg4.IsWhole) (arg5 : Memref sig .tc .vmem S1x128 .f32) (harg5 : arg5.IsWhole) (arg6 : Memref sig .tc .vmem S128x2 .f32) (harg6 : arg6.IsWhole) (arg7 : Memref sig .tc .vmem S1x2 .f32) (harg7 : arg7.IsWhole) (arg8 : Memref sig .tc .vmem S4000x2 .f32) (harg8 : arg8.IsWhole)
    (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of this pipeline on core `c`: the arrays as the region finds them; after the body at point `t`
    each input's buffer at its block and the result's at `out0_7` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Mlp1.lean ====
/-
  The second node-update layer as a pipeline (the program's second kernel region), at the contents `V` the region
  is entered with: a grid of 100 points, point `t` working on rows 4000·t … 4000·t + 3999 of the node arrays.
  At a point the body reads the point's blocks of the node features `x` (4000 × 2), the per-node scale (4000 × 1)
  and the aggregated edge attributes (4000 × 3), and the whole weight and bias arrays (7 × 128, 1 × 128, 128 × 2,
  1 × 2), and writes one 4000 × 2 block: relu([x, x·scale, a]·W₁ + b₁)·W₂ + b₂.
  Here: the block each window holds at a point, what the body leaves in the result's staging buffer as a function
  of the seven input blocks, the body's triple, and the pipeline's proof data with its body obligation. Nothing
  here opens the arithmetic.
-/
import proofs.«406876_j85478439125102_3_alg».proof.Proof.Gen.KernelIdeal.Launch
import proofs.«406876_j85478439125102_3_alg».proof.Proof.Gen.KernelIdeal.Skeleton
import proofs.«406876_j85478439125102_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (an unfetched
    window's block index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (an unfetched
    window's block index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (an unfetched
    window's block index has not moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (an unfetched
    window's block index has not moved), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (an unfetched
    window's block index has not moved), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (an unfetched
    window's block index has not moved), for any proof data over `V` whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S4000x2 := Rect.unit (s := S4000x2) ![0, 0] S4000x2.size inb_S4000x2_S4000x2_0_0
abbrev r1_1 : Rect S4000x1 := Rect.unit (s := S4000x1) ![0, 0] S4000x1.size inb_S4000x1_S4000x1_0_0
abbrev r1_2 : Rect S4000x3 := Rect.unit (s := S4000x3) ![0, 0] S4000x3.size inb_S4000x3_S4000x3_0_0
abbrev r1_3 : Rect S7x128 := Rect.unit (s := S7x128) ![0, 0] S7x128.size inb_S7x128_S7x128_0_0
abbrev r1_4 : Rect S1x128 := Rect.unit (s := S1x128) ![0, 0] S1x128.size inb_S1x128_S1x128_0_0
abbrev r1_5 : Rect S128x2 := Rect.unit (s := S128x2) ![0, 0] S128x2.size inb_S128x2_S128x2_0_0
abbrev r1_6 : Rect S1x2 := Rect.unit (s := S1x2) ![0, 0] S1x2.size inb_S1x2_S1x2_0_0

/-! ## What the body leaves in the result's staging buffer -/

/-- The result window's staging buffer after the body, from the seven input blocks: its one store, of the layer's
    value at the loaded blocks. -/
def out1_7 (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) : Vec F S4000x2 .f32 :=
  View.canon [⟨r1_0, k1_pay1 (View.ld x0 r1_0) (View.ld x1 r1_1) (View.ld x2 r1_2) (View.ld x3 r1_3) (View.ld x4 r1_4) (View.ld x5 r1_5) (View.ld x6 r1_6)⟩]

/-- The one store takes the whole buffer. -/
theorem cover1_7 (p0 : Vec F S4000x2 .f32) (y : S4000x2.Idx) :
    ∃ pc ∈ ([⟨r1_0, p0⟩] : List (View.Piece (Elt F) S4000x2 .f32)), y ∈ pc.1.set :=
  View.cover_of_tiled [⟨r1_0, p0⟩] S4000x2.size (by rfl) y

/-! ## The body's triple -/

set_option maxHeartbeats 4000000 in
/-- The kernel body on whole staging buffers, the inputs' at contents `x0 … x6` and the result's at anything, runs to
    its return leaving the inputs' as they were and the result's at `out1_7` of them. -/
theorem sound_kernel1 (c : Dev nD) (E : Set ℕ) (i : grid1.Coords) (arg1 : Memref sig .tc .vmem S4000x2 .f32) (harg1 : arg1.IsWhole) (arg2 : Memref sig .tc .vmem S4000x1 .f32) (harg2 : arg2.IsWhole) (arg3 : Memref sig .tc .vmem S4000x3 .f32) (harg3 : arg3.IsWhole) (arg4 : Memref sig .tc .vmem S7x128 .f32) (harg4 : arg4.IsWhole) (arg5 : Memref sig .tc .vmem S1x128 .f32) (harg5 : arg5.IsWhole) (arg6 : Memref sig .tc .vmem S128x2 .f32) (harg6 : arg6.IsWhole) (arg7 : Memref sig .tc .vmem S1x2 .f32) (harg7 : arg7.IsWhole) (arg8 : Memref sig .tc .vmem S4000x2 .f32) (harg8 : arg8.IsWhole)
    (x0 : Vec F S4000x2 .f32) (x1 : Vec F S4000x1 .f32) (x2 : Vec F S4000x3 .f32) (x3 : Vec F S7x128 .f32) (x4 : Vec F S1x128 .f32) (x5 : Vec F S128x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of this pipeline on core `c`: the arrays as the region finds them; after the body at point `t`
    each input's buffer at its block and the result's at `out1_7` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Dist.lean ====
/-
  The per-edge squared distance as a pipeline (the program's third kernel region), at the contents `V` the region
  is entered with. The four operands and the result are 153125 × 128 arrays (one entry per edge, 128 edges to a row)
  walked in blocks of 2048 rows over a grid of 75 points; the last block overhangs the arrays by 475 rows, so its
  transfers are cut to the 1573 rows inside, and what the staging buffers hold past them is not determined.
  At a point the body reads the four blocks a0, a1, b0, b1 and writes (a0 − b0)² + (a1 − b1)², entry by entry.
  Here: each operand's block at a point (its part inside the array), the body's triple on whole staging buffers, and
  the pipeline's proof data with its body obligation, which is stated on the rows inside the arrays only: since the
  body is entry-wise, what it writes there depends on nothing past them.
-/
import proofs.«406876_j85478439125102_3_alg».proof.Proof.Gen.KernelIdeal.Launch
import proofs.«406876_j85478439125102_3_alg».proof.Proof.Gen.KernelIdeal.Skeleton
import proofs.«406876_j85478439125102_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The operands' blocks: the part of each inside its array -/

/-- The first coordinate row of the destination endpoints at point `t`. -/
def blkA (c : Dev nD) (t : Fin cfg2.N) : (win2_0.xblock (grid2.coords t)).Idx → Elt F .f32 :=
  (win2_0.blk t).view.read (Elt F) (V c main_v55)
/-- The second coordinate row of the destination endpoints (the windows' index maps and cuts agree: one block
    shape, by unfolding the maps). -/
def blkB (c : Dev nD) (t : Fin cfg2.N) : (win2_0.xblock (grid2.coords t)).Idx → Elt F .f32 :=
  (win2_1.blk t).view.read (Elt F) (V c main_v58)
/-- The first coordinate row of the source endpoints. -/
def blkC (c : Dev nD) (t : Fin cfg2.N) : (win2_0.xblock (grid2.coords t)).Idx → Elt F .f32 :=
  (win2_2.blk t).view.read (Elt F) (V c main_v61)
/-- The second coordinate row of the source endpoints. -/
def blkD (c : Dev nD) (t : Fin cfg2.N) : (win2_0.xblock (grid2.coords t)).Idx → Elt F .f32 :=
  (win2_3.blk t).view.read (Elt F) (V c main_v64)

/-- The squared distance of two points of the plane from their coordinates. -/
def sqd (a0 b0 a1 b1 : Elt F .f32) : Elt F .f32 :=
  FloatOps.addf (FloatOps.mulf (FloatOps.subf a0 b0) (FloatOps.subf a0 b0)) (FloatOps.mulf (FloatOps.subf a1 b1) (FloatOps.subf a1 b1))

/-- The body's arithmetic is entry-wise: at an entry it is `sqd` of the four loaded values there. -/
theorem k2_pay1_apply (X0 X2 X1 X3 : Vec F S2048x128 .f32) (j : S2048x128.Idx) :
    k2_pay1 X0 X2 X1 X3 j = sqd (X0 j) (X2 j) (X1 j) (X3 j) := by
  unfold k2_pay1
  simp only [shapeCast_self]
  rfl

/-- What the staging buffers hold after the body at point `t` on the rows inside the arrays: the four blocks and
    (the result's) their squared distance; past the arrays' end the obligation states nothing, and this filler is
    the zero word. -/
def fillA (c : Dev nD) (t : Fin cfg2.N) : S2048x128.Idx → Elt F .f32 :=
  win2_0.fill (grid2.coords t) (fun _ => Scalar.ofBits .f32 0#32) (blkA V c t)
def fillB (c : Dev nD) (t : Fin cfg2.N) : S2048x128.Idx → Elt F .f32 :=
  win2_0.fill (grid2.coords t) (fun _ => Scalar.ofBits .f32 0#32) (blkB V c t)
def fillC (c : Dev nD) (t : Fin cfg2.N) : S2048x128.Idx → Elt F .f32 :=
  win2_0.fill (grid2.coords t) (fun _ => Scalar.ofBits .f32 0#32) (blkC V c t)
def fillD (c : Dev nD) (t : Fin cfg2.N) : S2048x128.Idx → Elt F .f32 :=
  win2_0.fill (grid2.coords t) (fun _ => Scalar.ofBits .f32 0#32) (blkD V c t)
def fillO (c : Dev nD) (t : Fin cfg2.N) : S2048x128.Idx → Elt F .f32 :=
  win2_0.fill (grid2.coords t) (fun _ => Scalar.ofBits .f32 0#32)
    (fun j => sqd (blkA V c t j) (blkC V c t j) (blkB V c t j) (blkD V c t j))

/-! ## The body's accesses and its triple -/

abbrev r2_0 : Rect S2048x128 := Rect.unit (s := S2048x128) ![0, 0] S2048x128.size inb_S2048x128_S2048x128_0_0

/-- The result's staging buffer after the body, from the four input buffers' contents: its one store. -/
def out2_4 (x0 x1 x2 x3 : Vec F S2048x128 .f32) : Vec F S2048x128 .f32 :=
  View.canon [⟨r2_0, k2_pay1 (View.ld x0 r2_0) (View.ld x2 r2_0) (View.ld x1 r2_0) (View.ld x3 r2_0)⟩]

theorem cover2_4 (p0 : Vec F S2048x128 .f32) (y : S2048x128.Idx) :
    ∃ pc ∈ ([⟨r2_0, p0⟩] : List (View.Piece (Elt F) S2048x128 .f32)), y ∈ pc.1.set :=
  View.cover_of_tiled [⟨r2_0, p0⟩] S2048x128.size (by rfl) y

/-- Every access takes a whole buffer, so the store leaves the entry-wise value of the loaded contents. -/
theorem out2_4_eq (x0 x1 x2 x3 : Vec F S2048x128 .f32) : out2_4 x0 x1 x2 x3 = k2_pay1 x0 x2 x1 x3 := by
  have hz : (![0, 0] : Fin 2 → Nat) = fun _ => 0 := funext fun a => by fin_cases a <;> rfl
  unfold out2_4
  rw [View.canon_unit_zero hz]
  simp only [View.ld_unit_zero (S := S2048x128) hz]

set_option maxHeartbeats 4000000 in
/-- The kernel body on whole staging buffers, the inputs' at contents `x0 … x3` and the result's at anything, runs to
    its return leaving the inputs' as they were and the result's at `out2_4` of them. -/
theorem sound_kernel2 (c : Dev nD) (E : Set ℕ) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole)
    (x0 x1 x2 x3 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__dist_kernel i arg1 harg1 arg2 harg2 arg3 harg3 arg4 harg4 arg5 harg5) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of this pipeline on core `c`: the arrays as the region finds them; after the body at point `t` the
    five staging buffers at the filled-out blocks above; the scoped rest and the generator register untouched; nothing
    owed; full shares. -/
def dat2 (c : Dev nD) : Dat τ (Elt F) Unit ℕ (UR sig nD τ) ℕ cfg2 c where
  A w := V c (Pipeline.arrRef spec2 w)
  after w t := match w with
    | ⟨0, _⟩ => fillA V c t
    | ⟨1, _⟩ => fillB V c t
    | ⟨2, _⟩ => fillC V c t
    | ⟨3, _⟩ => fillD V c t
    | ⟨4, _⟩ => fillO V c t
  Φ _ := Pipeline.ΦA spec2 c
  q _ := fullShare
  owed _ := 0

theorem A_eq2 (c : Dev nD) (w : Fin cfg2.W) : (dat2 V c).A w = V c (Pipeline.arrRef spec2 w) := by
  dsimp only [dat2]

/-- The result's window is never fetched. -/
theorem fetch2_4 : ∀ t : Fin cfg2.N, (cfg2.win 4).fetch t = false :=
  (by decide +kernel : ∀ t : Fin grid2.N, win2_4.fetch t = false)

/-- What the body finds: each operand's buffer just fetched, the block on the rows inside the array and `d`
    elsewhere; -/
theorem before2_0 (c : Dev nD) (t : Fin cfg2.N) (d) :
    (dat2 V c).before (0 : Fin 5) t d = win2_0.fill (grid2.coords t) d (blkA V c t) := by
  unfold Dat.before; rw [if_pos (fetch2_0 t)]; rfl
theorem before2_1 (c : Dev nD) (t : Fin cfg2.N) (d) :
    (dat2 V c).before (1 : Fin 5) t d = win2_0.fill (grid2.coords t) d (blkB V c t) := by
  unfold Dat.before; rw [if_pos (fetch2_1 t)]; rfl
theorem before2_2 (c : Dev nD) (t : Fin cfg2.N) (d) :
    (dat2 V c).before (2 : Fin 5) t d = win2_0.fill (grid2.coords t) d (blkC V c t) := by
  unfold Dat.before; rw [if_pos (fetch2_2 t)]; rfl
theorem before2_3 (c : Dev nD) (t : Fin cfg2.N) (d) :
    (dat2 V c).before (3 : Fin 5) t d = win2_0.fill (grid2.coords t) d (blkD V c t) := by
  unfold Dat.before; rw [if_pos (fetch2_3 t)]; rfl
/-- the result's buffer at contents nothing names (it was written back at the point before, or never filled). -/
theorem before2_4 (c : Dev nD) (t : Fin cfg2.N) (d) : (dat2 V c).before (4 : Fin 5) t d = d := by
  unfold Dat.before
  rw [if_neg (by rw [fetch2_4 t]; exact Bool.false_ne_true)]
  by_cases h0 : t.val = 0
  · rw [if_pos h0]
  · rw [if_neg h0]; exact if_pos (flush2_4 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: each buffer stated on the rows inside the arrays only. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ d, owns (c : Thread nD τ) (st2_3 t) fullShare ((cfg2.win 3).fill (cfg2.grid.coords t) d ((cfg2.win 3).cut (cfg2.grid.coords t) ((dat2 V c).after 3 t))))
    ∗ (∃ d, owns (c : Thread nD τ) (st2_4 t) fullShare ((cfg2.win 4).fill (cfg2.grid.coords t) d ((cfg2.win 4).cut (cfg2.grid.coords t) ((dat2 V c).after 4 t)))))

/-- The entry-wise value of filled-out blocks is the filled-out entry-wise value: on a row inside the arrays it reads
    the blocks, elsewhere the fillers. -/
theorem pay_fill (i : grid2.Coords) (d0 d1 d2 d3 : S2048x128.Idx → Elt F .f32)
    (a b c' e : (win2_0.xblock i).Idx → Elt F .f32) :
    k2_pay1 (win2_0.fill i d0 a) (win2_0.fill i d2 c') (win2_0.fill i d1 b) (win2_0.fill i d3 e)
      = win2_0.fill i (k2_pay1 d0 d2 d1 d3) (fun j => sqd (a j) (c' j) (b j) (e j)) := by
  funext j
  rw [k2_pay1_apply]
  unfold Window.fill
  split
  · rfl
  · rw [k2_pay1_apply]

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  rw [before2_0 V c t d0, before2_1 V c t d1, before2_2 V c t d2, before2_3 V c t d3, before2_4 V c t d4]
  iapply (sound_kernel2 c Set.univ (grid2.coords t) _ _ _ _ _ _ _ _ _ _
    (win2_0.fill (grid2.coords t) d0 (blkA V c t)) (win2_0.fill (grid2.coords t) d1 (blkB V c t))
    (win2_0.fill (grid2.coords t) d2 (blkC V c t)) (win2_0.fill (grid2.coords t) d3 (blkD V c t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hA : win2_0.cut (grid2.coords t) (fillA V c t) = blkA V c t := win2_0.cut_fill _ _ _
  have hB : win2_0.cut (grid2.coords t) (fillB V c t) = blkB V c t := win2_0.cut_fill _ _ _
  have hC : win2_0.cut (grid2.coords t) (fillC V c t) = blkC V c t := win2_0.cut_fill _ _ _
  have hD : win2_0.cut (grid2.coords t) (fillD V c t) = blkD V c t := win2_0.cut_fill _ _ _
  have hO : win2_0.cut (grid2.coords t) (fillO V c t)
      = fun j => sqd (blkA V c t j) (blkC V c t j) (blkB V c t j) (blkD V c t j) := win2_0.cut_fill _ _ _
  isplitl [H0]
  · iexists d0
    change _ ⊢ owns (c : Thread nD τ) (st2_0 t) fullShare (win2_0.fill (grid2.coords t) d0 (win2_0.cut (grid2.coords t) (fillA V c t)))
    rw [hA]; try iexact H0
  isplitl [H1]
  · iexists d1
    change _ ⊢ owns (c : Thread nD τ) (st2_1 t) fullShare (win2_0.fill (grid2.coords t) d1 (win2_0.cut (grid2.coords t) (fillB V c t)))
    rw [hB]; try iexact H1
  isplitl [H2]
  · iexists d2
    change _ ⊢ owns (c : Thread nD τ) (st2_2 t) fullShare (win2_0.fill (grid2.coords t) d2 (win2_0.cut (grid2.coords t) (fillC V c t)))
    rw [hC]; try iexact H2
  isplitl [H3]
  · iexists d3
    change _ ⊢ owns (c : Thread nD τ) (st2_3 t) fullShare (win2_0.fill (grid2.coords t) d3 (win2_0.cut (grid2.coords t) (fillD V c t)))
    rw [hD]; try iexact H3
  · iexists k2_pay1 d0 d2 d1 d3
    change _ ⊢ owns (c : Thread nD τ) (st2_4 t) fullShare (win2_0.fill (grid2.coords t) (k2_pay1 d0 d2 d1 d3) (win2_0.cut (grid2.coords t) (fillO V c t)))
    rw [hO, ← pay_fill, ← out2_4_eq]; try iexact H4

/-- The library's body obligation, at every point: every window of this pipeline is stated loosely. -/
theorem body_obligation2 (c : Dev nD) : BodyObligationLoose (dat2 (F := F) V c) (defs₀ (F := F)) Variants.none () Set.univ := fun t => by
  rw [bigSep_W2, bigSep_W2]
  exact sound_body2 V c t

end Cert.KernelIdeal.Fr

end
-- ==== Proof.KI.Segs.lean ====
/-
  The whole run of the program: @main is four stretches of host operations around three kernel regions. The
  contents of the TensorCore's buffers are followed through the seven segments (`W0` … `W7`: a host stretch applies
  its operations; a region leaves its arrays at what its pipeline's write-backs leave and everything else untouched),
  each region is entered from and left at those contents, and the launch theorem for a list of segments gives:
  every weakly fair execution terminates, nothing faults, and every final memory holds each unscoped buffer at the
  last contents `W7`. The frame and the value of the result are both read off that.
-/
import proofs.«406876_j85478439125102_3_alg».proof.Proof.Gen.KernelIdeal.Launch
import proofs.«406876_j85478439125102_3_alg».proof.Proof.Gen.KernelIdeal.Skeleton
import proofs.«406876_j85478439125102_3_alg».proof.Proof.Gen.KernelIdeal.Points
import proofs.«406876_j85478439125102_3_alg».proof.Proof.KI.Mlp0
import proofs.«406876_j85478439125102_3_alg».proof.Proof.KI.Mlp1
import proofs.«406876_j85478439125102_3_alg».proof.Proof.KI.Dist
import proofs.«406876_j85478439125102_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the result's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the result's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at `W1`, left at `W2`. Its arrays are
    split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at `W3`, left at `W4`. Its arrays are
    split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 over the thread state: entered from every unscoped buffer at `W5`, left at `W6`. Its arrays are
    split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main terminates, nothing faulting,
    and every final memory holds each unscoped buffer of each core at the last contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## What no segment changes -/

/-- A buffer that no host stretch writes and that is no region's array ends holding what it was launched with. -/
theorem W7_keep (c : Dev nD) (b : Ref sig .tc) (h0 : b ∉ hostOps0_W) (h1 : b ∉ hostOps1_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b n2
    _ = W4 m ρ c (Proc.devRef .tc b) := StableHlo.after_of_writes_sub hostOps2 _ hostOps2_writes h2
    _ = W3 m ρ c (Proc.devRef .tc b) := W4_of_ne m ρ c b n1
    _ = W2 m ρ c (Proc.devRef .tc b) := StableHlo.after_of_writes_sub hostOps1 _ hostOps1_writes h1
    _ = W1 m ρ c (Proc.devRef .tc b) := W2_of_ne m ρ c b n0
    _ = W0 m ρ c (Proc.devRef .tc b) := StableHlo.after_of_writes_sub hostOps0 _ hostOps0_writes h0
    _ = m ((c : Thread nD τ).loc b) := rfl

/-- The node features are the first region's first operand: staged, read, never written. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W7_main_arg0 m ρ c),
     (h c _ (mem_uc main_arg1 (by decide))).trans (W7_keep m ρ c main_arg1 (by decide) (by decide) (by decide) (by decide) (by decide) (by decide) (by decide)),
     (h c _ (mem_uc main_arg2 (by decide))).trans (W7_keep m ρ c main_arg2 (by decide) (by decide) (by decide) (by decide) (by decide) (by decide) (by decide)),
     (h c _ (mem_uc main_arg3 (by decide))).trans (W7_keep m ρ c main_arg3 (by decide) (by decide) (by decide) (by decide) (by decide) (by decide) (by decide)),
     (h c _ (mem_uc main_arg4 (by decide))).trans (W7_keep m ρ c main_arg4 (by decide) (by decide) (by decide) (by decide) (by decide) (by decide) (by decide)),
     (h c _ (mem_uc main_arg5 (by decide))).trans (W7_keep m ρ c main_arg5 (by decide) (by decide) (by decide) (by decide) (by decide) (by decide) (by decide)),
     (h c _ (mem_uc main_arg6 (by decide))).trans (W7_keep m ρ c main_arg6 (by decide) (by decide) (by decide) (by decide) (by decide) (by decide) (by decide))⟩)
    (run m ρ)

end Cert.KernelIdeal.Fr

end
-- ==== Proof.Spec.lean ====
/-
  What both programs compute, as functions of the argument arrays, over the extended reals.

  A graph on 400000 nodes with 19600000 edges; edge e goes from node src(e) to node dst(e), both given as 32-bit
  words. A word selects a table row as an array index does: a negative word counts from the end, and the result is
  clamped into the table (`rowOf`). An accumulation into nodes takes a word read signed and unchanged, and drops an
  edge whose word is no node: edge e is accumulated into node n exactly when src(e), read signed, is n (`into`).

  Per node: the number of edges into it (`cnt`), that number with 1 in place of 0 (`den`), their quotient
  (`scale`: 1 where there is an edge, 0 where there is none), and the mean over those edges of the edge attributes
  (`aggA`). A layer takes node features x (two per node) to relu([x, x·scale, aggA]·W₁ + b₁)·W₂ + b₂ (`layerK`);
  two layers are applied, and the result is, per edge, the squared distance between the features of its two endpoints
  (`dist`).

  The other program forms, per layer, the mean over the edges into n of x at the edge's SOURCE row. An edge into n has
  source word n, which selects row n; so every term of that sum is x at n, the sum is cnt·x, and the mean is x·scale
  (`agg_law`): a sum of k copies of a is k·a at the infinities too, and the quotient by `den`, which is at least 1,
  is the product with its inverse, so only commutativity and associativity of the product are used.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx

abbrev SX : Shape := ⟨2, ![400000, 2]⟩
abbrev SS : Shape := ⟨2, ![400000, 1]⟩
abbrev SA : Shape := ⟨2, ![400000, 3]⟩
abbrev SEI : Shape := ⟨2, ![2, 19600000]⟩
abbrev SEA : Shape := ⟨2, ![19600000, 3]⟩
abbrev SW1 : Shape := ⟨2, ![7, 128]⟩
abbrev SB1 : Shape := ⟨2, ![1, 128]⟩
abbrev SW2 : Shape := ⟨2, ![128, 2]⟩
abbrev SB2 : Shape := ⟨2, ![1, 2]⟩
abbrev SW1a : Shape := ⟨3, ![2, 7, 128]⟩
abbrev SB1a : Shape := ⟨2, ![2, 128]⟩
abbrev SW2a : Shape := ⟨3, ![2, 128, 2]⟩
abbrev SB2a : Shape := ⟨2, ![2, 2]⟩
abbrev SOut : Shape := ⟨2, ![19600000, 1]⟩

/-- The words 0.0 and 1.0. -/
abbrev zero : EReal := Ideal.ofBits .f32 0x00000000#32
abbrev one : EReal := Ideal.ofBits .f32 0x3F800000#32

/-- The table row a start word selects: a negative word counts from the end; the result is clamped into the table. -/
def rowOf (w : BitVec 32) : Fin 400000 :=
  ⟨min (Scalar.select (IntOp.cmpi .slt w 0#32) (IntOp.addi w 400000#32) w).toInt.toNat (400000 - 1), by omega⟩

/-- The edges accumulated into node `n`: those whose source word, read signed, is `n`. -/
def into (src : Fin 19600000 → BitVec 32) (n : Fin 400000) : Finset (Fin 19600000) :=
  Finset.univ.filter fun e => (src e).toInt = (n.val : ℤ)

/-- An edge into `n` has a source word that selects row `n`. -/
theorem rowOf_of_mem_into {src : Fin 19600000 → BitVec 32} {n : Fin 400000} {e : Fin 19600000} (h : e ∈ into src n) :
    rowOf (src e) = n := by
  have hn : (src e).toInt = (n.val : ℤ) := (Finset.mem_filter.mp h).2
  have hlt : ¬ (src e).slt 0#32 = true := by
    rw [BitVec.slt, decide_eq_true_eq, hn]
    simp
  unfold rowOf
  refine Fin.ext ?_
  show min (Scalar.select (IntOp.cmpi .slt (src e) 0#32) (IntOp.addi (src e) 400000#32) (src e)).toInt.toNat (400000 - 1) = n.val
  have hc : IntOp.cmpi .slt (src e) 0#32 = 0#1 := by
    unfold IntOp.cmpi
    show BitVec.ofBool ((src e).slt 0#32) = 0#1
    rw [Bool.not_eq_true] at hlt
    rw [hlt]; rfl
  have hsel : Scalar.select (IntOp.cmpi .slt (src e) 0#32) (IntOp.addi (src e) 400000#32) (src e) = src e := by
    rw [hc]; unfold Scalar.select
    exact if_neg (by decide)
  rw [hsel, hn]
  have := n.isLt
  simp only [Int.toNat_natCast]
  omega

def cnt (src : Fin 19600000 → BitVec 32) (n : Fin 400000) : EReal := zero + ∑ _e ∈ into src n, one
def den (src : Fin 19600000 → BitVec 32) (n : Fin 400000) : EReal := max (cnt src n) one

def scale (src : Fin 19600000 → BitVec 32) : SS.Idx → EReal :=
  fun i => Ideal.div (cnt src (i 0)) (den src (i 0))

def aggA (src : Fin 19600000 → BitVec 32) (EA : SEA.Idx → EReal) : SA.Idx → EReal :=
  fun i => Ideal.div (zero + ∑ e ∈ into src (i 0), EA (ix2 e (i 1))) (den src (i 0))

/-- The mean, over the edges into `n`, of one value `a` per edge is `a` times the node's scale. -/
theorem agg_law (src : Fin 19600000 → BitVec 32) (n : Fin 400000) (a : EReal) :
    Ideal.div (zero + ∑ _e ∈ into src n, a) (den src n) = a * Ideal.div (cnt src n) (den src n) := by
  have hone : one = 1 := Ideal.ofBits_one_f32
  have hzero : zero = 0 := Ideal.ofBits_zero_f32
  have hd : den src n ≠ 0 := by
    have h1 : (1 : EReal) ≤ den src n := by unfold den; rw [hone]; exact le_max_right _ _
    intro h0; rw [h0] at h1; exact absurd h1 (by norm_num)
  unfold Ideal.div
  rw [if_neg hd, if_neg hd]
  unfold cnt
  rw [hzero, zero_add, zero_add, Finset.sum_const, Finset.sum_const, hone, EReal.nsmul_eq_mul, EReal.nsmul_eq_mul, mul_one]
  rw [mul_comm ((into src n).card : EReal) a, mul_assoc]

/-- The rows of the hidden layer's input at a node: its features, its features scaled, its aggregated attributes. -/
def rowK (X : SX.Idx → EReal) (S : SS.Idx → EReal) (A : SA.Idx → EReal) (r : Fin 400000) (q : Fin 7) : EReal :=
  if h : q.val < 2 then X (ix2 r ⟨q.val, h⟩)
  else if h' : q.val < 4 then X (ix2 r ⟨q.val - 2, by omega⟩) * S (ix2 r (0 : Fin 1))
  else A (ix2 r ⟨q.val - 4, by omega⟩)

/-- One row of the two dense maps with a relu between. -/
def dense (h : Fin 7 → EReal) (W1 : SW1.Idx → EReal) (b1 : SB1.Idx → EReal) (W2 : SW2.Idx → EReal) (b2 : SB2.Idx → EReal)
    (k : Fin 2) : EReal :=
  (∑ u : Fin 128, max ((∑ q : Fin 7, h q * W1 (ix2 q u)) + b1 (ix2 (0 : Fin 1) u)) zero * W2 (ix2 u k)) + b2 (ix2 (0 : Fin 1) k)

/-- A layer on whole arrays. -/
def layerK (X : SX.Idx → EReal) (S : SS.Idx → EReal) (A : SA.Idx → EReal) (W1 : SW1.Idx → EReal) (b1 : SB1.Idx → EReal)
    (W2 : SW2.Idx → EReal) (b2 : SB2.Idx → EReal) : SX.Idx → EReal :=
  fun i => dense (rowK X S A (i 0)) W1 b1 W2 b2 (i 1)

/-- Layer `l`'s parameters out of the stacked arrays. -/
def w1 (W : SW1a.Idx → EReal) (l : Fin 2) : SW1.Idx → EReal := fun i => W (ix3 l (i 0) (i 1))
def b1 (B : SB1a.Idx → EReal) (l : Fin 2) : SB1.Idx → EReal := fun i => B (ix2 l (i 1))
def w2 (W : SW2a.Idx → EReal) (l : Fin 2) : SW2.Idx → EReal := fun i => W (ix3 l (i 0) (i 1))
def b2 (B : SB2a.Idx → EReal) (l : Fin 2) : SB2.Idx → EReal := fun i => B (ix2 l (i 1))

/-- The squared distance of two points of the plane from their coordinates. -/
def sqd (a0 b0 a1 b1 : EReal) : EReal := (a0 - b0) * (a0 - b0) + (a1 - b1) * (a1 - b1)

/-- Per edge, the squared distance between its endpoints' rows of `x`. -/
def dist (x : SX.Idx → EReal) (src dst : Fin 19600000 → BitVec 32) : SOut.Idx → EReal :=
  fun i => sqd (x (ix2 (rowOf (dst (i 0))) (0 : Fin 2))) (x (ix2 (rowOf (src (i 0))) (0 : Fin 2)))
    (x (ix2 (rowOf (dst (i 0))) (1 : Fin 2))) (x (ix2 (rowOf (src (i 0))) (1 : Fin 2)))

/-- The source and destination words of the edges. -/
def srcOf (EI : IVec SEI 32) : Fin 19600000 → BitVec 32 := fun e => EI (ix2 (1 : Fin 2) e)
def dstOf (EI : IVec SEI 32) : Fin 19600000 → BitVec 32 := fun e => EI (ix2 (0 : Fin 2) e)

/-- The node features after the two layers. -/
def feat (X : SX.Idx → EReal) (EI : IVec SEI 32) (EA : SEA.Idx → EReal) (W1 : SW1a.Idx → EReal) (B1 : SB1a.Idx → EReal)
    (W2 : SW2a.Idx → EReal) (B2 : SB2a.Idx → EReal) : SX.Idx → EReal :=
  layerK (layerK X (scale (srcOf EI)) (aggA (srcOf EI) EA) (w1 W1 0) (b1 B1 0) (w2 W2 0) (b2 B2 0))
    (scale (srcOf EI)) (aggA (srcOf EI) EA) (w1 W1 1) (b1 B1 1) (w2 W2 1) (b2 B2 1)

/-- THE RESULT: per edge, the squared distance between its endpoints after two layers. -/
def G (X : SX.Idx → EReal) (EI : IVec SEI 32) (EA : SEA.Idx → EReal) (W1 : SW1a.Idx → EReal) (B1 : SB1a.Idx → EReal)
    (W2 : SW2a.Idx → EReal) (B2 : SB2a.Idx → EReal) : SOut.Idx → EReal :=
  dist (feat X EI EA W1 B1 W2 B2) (srcOf EI) (dstOf EI)

end Cert.Spec

end
-- ==== Proof.KI.Val0.lean ====
/-
  The first node-update layer's result ARRAY after its pipeline has run, as one function of the seven operand arrays
  the region finds: relu([x, x·scale, a]·W₁ + b₁)·W₂ + b₂, row by row (`Cert.Spec.layerK`).

  First the body's stored value at row p and column k of a block (`v0_pay_apply`): the index goes through the sums,
  the maximum with zero and the spreads of the bias rows; each of the two block products into the zero block is the sum
  over its one contracted coordinate; the joined block [x, x·scale, a] is read piece by piece; the narrowing to sixteen
  bits is the identity on the extended reals. Then the blocks: point t of the grid holds rows 4000·t … 4000·t + 3999 of
  the node arrays and the whole parameter arrays, so what it writes back is block t of the layer on whole arrays
  (`v0_flushed_eq`); the hundred blocks tile the result (`v0_cover`); hence the array (`arr0`).
-/
import proofs.«406876_j85478439125102_3_alg».proof.Proof.KI.Mlp0
import proofs.«406876_j85478439125102_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

/-! ## The two block products read at an index

A block product with one contracted axis, into the zero block, is at (p, u) the sum over the contracted coordinate of
the left block at (p, ·) times the right block at (·, u). -/

theorem v0_mmA_lhs_0 (i : S4000x128.Idx) (q : dot_S4000x7_S7x128_S4000x128_1_0_0_1_n_n.contr.Idx) :
    (dot_S4000x7_S7x128_S4000x128_1_0_0_1_n_n.lhsIdx i q 0).val = (i 0).val := by
  unfold DotDims.lhsIdx
  rw [dif_neg (show ¬(0 : Fin S4000x7.rank) ∈ dot_S4000x7_S7x128_S4000x128_1_0_0_1_n_n.lhsBatch by decide), dif_pos (show (0 : Fin S4000x7.rank) ∈ dot_S4000x7_S7x128_S4000x128_1_0_0_1_n_n.lhsNonContracting by decide)]
  rfl
theorem v0_mmA_lhs_1 (i : S4000x128.Idx) (q : dot_S4000x7_S7x128_S4000x128_1_0_0_1_n_n.contr.Idx) :
    (dot_S4000x7_S7x128_S4000x128_1_0_0_1_n_n.lhsIdx i q 1).val = (q ⟨0, by decide⟩).val :=
  dot_S4000x7_S7x128_S4000x128_1_0_0_1_n_n.lhsIdx_val_of_single rfl i q
theorem v0_mmA_rhs_0 (i : S4000x128.Idx) (q : dot_S4000x7_S7x128_S4000x128_1_0_0_1_n_n.contr.Idx) :
    (dot_S4000x7_S7x128_S4000x128_1_0_0_1_n_n.rhsIdx i q 0).val = (q ⟨0, by decide⟩).val :=
  dot_S4000x7_S7x128_S4000x128_1_0_0_1_n_n.rhsIdx_val_of_single rfl i q
theorem v0_mmA_rhs_1 (i : S4000x128.Idx) (q : dot_S4000x7_S7x128_S4000x128_1_0_0_1_n_n.contr.Idx) :
    (dot_S4000x7_S7x128_S4000x128_1_0_0_1_n_n.rhsIdx i q 1).val = (i 1).val := by
  unfold DotDims.rhsIdx
  rw [dif_neg (show ¬(1 : Fin S7x128.rank) ∈ dot_S4000x7_S7x128_S4000x128_1_0_0_1_n_n.rhsBatch by decide), dif_pos (show (1 : Fin S7x128.rank) ∈ dot_S4000x7_S7x128_S4000x128_1_0_0_1_n_n.rhsNonContracting by decide)]
  rfl

/-- The first product, [4000, 7] by [7, 128], at (p, u). -/
theorem v0_mmA_apply (l : FVec Ideal S4000x7 .bf16) (r : FVec Ideal S7x128 .bf16) (p : Fin 4000) (u : Fin 128) :
    matmul dot_S4000x7_S7x128_S4000x128_1_0_0_1_n_n none l r (constant (F := Ideal) S4000x128 .f32 0x00000000#32) (ix2 p u)
      = ∑ q : Fin 7, l (ix2 p q) * r (ix2 q u) := by
  simp only [matmul]
  rw [Ideal.matmul_constant_zero_apply, ← Equiv.sum_comp (ValueIdx.contrEquiv1 dot_S4000x7_S7x128_S4000x128_1_0_0_1_n_n 7 rfl rfl).symm]
  refine Finset.sum_congr rfl fun k _ => ?_
  have hk := ValueIdx.contrEquiv1_symm_val dot_S4000x7_S7x128_S4000x128_1_0_0_1_n_n 7 rfl rfl k
  have el : dot_S4000x7_S7x128_S4000x128_1_0_0_1_n_n.lhsIdx (ix2 p u) ((ValueIdx.contrEquiv1 dot_S4000x7_S7x128_S4000x128_1_0_0_1_n_n 7 rfl rfl).symm k) = ix2 p k := funext fun a => Fin.ext (by
    match a with
    | ⟨0, _⟩ => exact v0_mmA_lhs_0 _ _
    | ⟨1, _⟩ => exact (v0_mmA_lhs_1 _ _).trans hk)
  have er : dot_S4000x7_S7x128_S4000x128_1_0_0_1_n_n.rhsIdx (ix2 p u) ((ValueIdx.contrEquiv1 dot_S4000x7_S7x128_S4000x128_1_0_0_1_n_n 7 rfl rfl).symm k) = ix2 k u := funext fun a => Fin.ext (by
    match a with
    | ⟨0, _⟩ => exact (v0_mmA_rhs_0 _ _).trans hk
    | ⟨1, _⟩ => exact v0_mmA_rhs_1 _ _)
  rw [el, er]

theorem v0_mmB_lhs_0 (i : S4000x2.Idx) (q : dot_S4000x128_S128x2_S4000x2_1_0_0_1_n_n.contr.Idx) :
    (dot_S4000x128_S128x2_S4000x2_1_0_0_1_n_n.lhsIdx i q 0).val = (i 0).val := by
  unfold DotDims.lhsIdx
  rw [dif_neg (show ¬(0 : Fin S4000x128.rank) ∈ dot_S4000x128_S128x2_S4000x2_1_0_0_1_n_n.lhsBatch by decide), dif_pos (show (0 : Fin S4000x128.rank) ∈ dot_S4000x128_S128x2_S4000x2_1_0_0_1_n_n.lhsNonContracting by decide)]
  rfl
theorem v0_mmB_lhs_1 (i : S4000x2.Idx) (q : dot_S4000x128_S128x2_S4000x2_1_0_0_1_n_n.contr.Idx) :
    (dot_S4000x128_S128x2_S4000x2_1_0_0_1_n_n.lhsIdx i q 1).val = (q ⟨0, by decide⟩).val :=
  dot_S4000x128_S128x2_S4000x2_1_0_0_1_n_n.lhsIdx_val_of_single rfl i q
theorem v0_mmB_rhs_0 (i : S4000x2.Idx) (q : dot_S4000x128_S128x2_S4000x2_1_0_0_1_n_n.contr.Idx) :
    (dot_S4000x128_S128x2_S4000x2_1_0_0_1_n_n.rhsIdx i q 0).val = (q ⟨0, by decide⟩).val :=
  dot_S4000x128_S128x2_S4000x2_1_0_0_1_n_n.rhsIdx_val_of_single rfl i q
theorem v0_mmB_rhs_1 (i : S4000x2.Idx) (q : dot_S4000x128_S128x2_S4000x2_1_0_0_1_n_n.contr.Idx) :
    (dot_S4000x128_S128x2_S4000x2_1_0_0_1_n_n.rhsIdx i q 1).val = (i 1).val := by
  unfold DotDims.rhsIdx
  rw [dif_neg (show ¬(1 : Fin S128x2.rank) ∈ dot_S4000x128_S128x2_S4000x2_1_0_0_1_n_n.rhsBatch by decide), dif_pos (show (1 : Fin S128x2.rank) ∈ dot_S4000x128_S128x2_S4000x2_1_0_0_1_n_n.rhsNonContracting by decide)]
  rfl

/-- The second product, [4000, 128] by [128, 2], at (p, k). -/
theorem v0_mmB_apply (l : FVec Ideal S4000x128 .bf16) (r : FVec Ideal S128x2 .bf16) (p : Fin 4000) (k : Fin 2) :
    matmul dot_S4000x128_S128x2_S4000x2_1_0_0_1_n_n none l r (constant (F := Ideal) S4000x2 .f32 0x00000000#32) (ix2 p k)
      = ∑ u : Fin 128, l (ix2 p u) * r (ix2 u k) := by
  simp only [matmul]
  rw [Ideal.matmul_constant_zero_apply, ← Equiv.sum_comp (ValueIdx.contrEquiv1 dot_S4000x128_S128x2_S4000x2_1_0_0_1_n_n 128 rfl rfl).symm]
  refine Finset.sum_congr rfl fun u _ => ?_
  have hu := ValueIdx.contrEquiv1_symm_val dot_S4000x128_S128x2_S4000x2_1_0_0_1_n_n 128 rfl rfl u
  have el : dot_S4000x128_S128x2_S4000x2_1_0_0_1_n_n.lhsIdx (ix2 p k) ((ValueIdx.contrEquiv1 dot_S4000x128_S128x2_S4000x2_1_0_0_1_n_n 128 rfl rfl).symm u) = ix2 p u := funext fun a => Fin.ext (by
    match a with
    | ⟨0, _⟩ => exact v0_mmB_lhs_0 _ _
    | ⟨1, _⟩ => exact (v0_mmB_lhs_1 _ _).trans hu)
  have er : dot_S4000x128_S128x2_S4000x2_1_0_0_1_n_n.rhsIdx (ix2 p k) ((ValueIdx.contrEquiv1 dot_S4000x128_S128x2_S4000x2_1_0_0_1_n_n 128 rfl rfl).symm u) = ix2 u k := funext fun a => Fin.ext (by
    match a with
    | ⟨0, _⟩ => exact (v0_mmB_rhs_0 _ _).trans hu
    | ⟨1, _⟩ => exact v0_mmB_rhs_1 _ _)
  rw [el, er]

/-! ## The layout operations read at an index -/

/-- A column [4000, 1] spread over two columns reads the column's row. -/
theorem v0_bcA_apply (v : S4000x1.Idx → EReal) (p : Fin 4000) (k : Fin 2) :
    broadcastTo S4000x2 v broadcasts_S4000x1_S4000x2 (ix2 p k) = v (ix2 p (0 : Fin 1)) :=
  broadcastTo_apply v broadcasts_S4000x1_S4000x2 (ix2 p k) (ix2 p (0 : Fin 1)) (fun a => match a with
    | ⟨0, _⟩ => by show p.val = if (4000 : Nat) = 1 then 0 else p.val; rw [if_neg (by decide)]
    | ⟨1, _⟩ => by show 0 = if (1 : Nat) = 1 then 0 else k.val; rw [if_pos rfl])

/-- A row [1, 128] spread over 4000 rows reads the row's column. -/
theorem v0_bcB_apply (v : S1x128.Idx → EReal) (p : Fin 4000) (u : Fin 128) :
    broadcastTo S4000x128 v broadcasts_S1x128_S4000x128 (ix2 p u) = v (ix2 (0 : Fin 1) u) :=
  broadcastTo_apply v broadcasts_S1x128_S4000x128 (ix2 p u) (ix2 (0 : Fin 1) u) (fun a => match a with
    | ⟨0, _⟩ => by show 0 = if (1 : Nat) = 1 then 0 else p.val; rw [if_pos rfl]
    | ⟨1, _⟩ => by show u.val = if (128 : Nat) = 1 then 0 else u.val; rw [if_neg (by decide)])

/-- A row [1, 2] spread over 4000 rows reads the row's column. -/
theorem v0_bcC_apply (v : S1x2.Idx → EReal) (p : Fin 4000) (k : Fin 2) :
    broadcastTo S4000x2 v broadcasts_S1x2_S4000x2 (ix2 p k) = v (ix2 (0 : Fin 1) k) :=
  broadcastTo_apply v broadcasts_S1x2_S4000x2 (ix2 p k) (ix2 (0 : Fin 1) k) (fun a => match a with
    | ⟨0, _⟩ => by show 0 = if (1 : Nat) = 1 then 0 else p.val; rw [if_pos rfl]
    | ⟨1, _⟩ => by show k.val = if (2 : Nat) = 1 then 0 else k.val; rw [if_neg (by decide)])

/-- The three blocks joined along the columns, [4000, 2 + 2 + 3], at (p, q): the block whose span holds q, at q less
    the columns before it. -/
theorem v0_cat_apply (a b : S4000x2.Idx → EReal) (c : S4000x3.Idx → EReal) (p : Fin 4000) (q : Fin 7) :
    concatenate S4000x7 1 [⟨S4000x2, a⟩, ⟨S4000x2, b⟩, ⟨S4000x3, c⟩] concatenates_S4000x2_S4000x2_S4000x3_S4000x7_d1 (ix2 p q)
      = if h : q.val < 2 then a (ix2 p ⟨q.val, h⟩)
        else if h' : q.val < 4 then b (ix2 p ⟨q.val - 2, by omega⟩)
        else c (ix2 p ⟨q.val - 4, by omega⟩) := by
  have hq : q.val < 7 := q.isLt
  by_cases h : q.val < 2
  · rw [dif_pos h]
    exact concatenate_apply_piece (1 : Fin S4000x7.rank) [⟨S4000x2, a⟩, ⟨S4000x2, b⟩, ⟨S4000x3, c⟩] concatenates_S4000x2_S4000x2_S4000x3_S4000x7_d1 (ix2 p q)
      0 (by show (0 : Nat) < 3; omega) S4000x2 a rfl rfl 0 rfl (ix2 p ⟨q.val, h⟩)
      (fun d hd => match d with
        | ⟨0, _⟩ => rfl
        | ⟨1, _⟩ => absurd rfl hd)
      (by show 0 + q.val = q.val; omega)
  · rw [dif_neg h]
    by_cases h' : q.val < 4
    · rw [dif_pos h']
      exact concatenate_apply_piece (1 : Fin S4000x7.rank) [⟨S4000x2, a⟩, ⟨S4000x2, b⟩, ⟨S4000x3, c⟩] concatenates_S4000x2_S4000x2_S4000x3_S4000x7_d1 (ix2 p q)
        1 (by show (1 : Nat) < 3; omega) S4000x2 b rfl rfl 2 rfl (ix2 p ⟨q.val - 2, by omega⟩)
        (fun d hd => match d with
          | ⟨0, _⟩ => rfl
          | ⟨1, _⟩ => absurd rfl hd)
        (by show 2 + (q.val - 2) = q.val; omega)
    · rw [dif_neg h']
      exact concatenate_apply_piece (1 : Fin S4000x7.rank) [⟨S4000x2, a⟩, ⟨S4000x2, b⟩, ⟨S4000x3, c⟩] concatenates_S4000x2_S4000x2_S4000x3_S4000x7_d1 (ix2 p q)
        2 (by show (2 : Nat) < 3; omega) S4000x3 c rfl rfl 4 rfl (ix2 p ⟨q.val - 4, by omega⟩)
        (fun d hd => match d with
          | ⟨0, _⟩ => rfl
          | ⟨1, _⟩ => absurd rfl hd)
        (by show 4 + (q.val - 4) = q.val; omega)

/-! ## The payload at an index -/

/-- The hidden layer's input row of a block: the features, the features scaled, the aggregated attributes. -/
def v0_row (x0 : S4000x2.Idx → EReal) (x1 : S4000x1.Idx → EReal) (x2 : S4000x3.Idx → EReal) (p : Fin 4000) (q : Fin 7) : EReal :=
  if h : q.val < 2 then x0 (ix2 p ⟨q.val, h⟩)
  else if h' : q.val < 4 then x0 (ix2 p ⟨q.val - 2, by omega⟩) * x1 (ix2 p (0 : Fin 1))
  else x2 (ix2 p ⟨q.val - 4, by omega⟩)

/-- What the body stores, at row p and column k of the block: the two dense maps with the relu between, of the row. -/
theorem v0_pay_apply (x0 : Vec Ideal S4000x2 .f32) (x1 : Vec Ideal S4000x1 .f32) (x2 : Vec Ideal S4000x3 .f32)
    (x3 : Vec Ideal S7x128 .f32) (x4 : Vec Ideal S1x128 .f32) (x5 : Vec Ideal S128x2 .f32) (x6 : Vec Ideal S1x2 .f32)
    (p : Fin 4000) (k : Fin 2) :
    k0_pay1 x0 x1 x2 x3 x4 x5 x6 (ix2 p k) = Cert.Spec.dense (v0_row x0 x1 x2 p) x3 x4 x5 x6 k := by
  unfold k0_pay1
  simp only [shapeCast_self]
  rw [addf_apply, v0_bcC_apply, v0_mmB_apply]
  unfold Cert.Spec.dense
  refine congrArg (· + x6 (ix2 (0 : Fin 1) k)) (Finset.sum_congr rfl fun u _ => ?_)
  rw [truncf_apply, truncf_apply, maximumf_apply, broadcast_apply, addf_apply, v0_bcB_apply, v0_mmA_apply]
  refine congrArg (fun s => max (s + x4 (ix2 (0 : Fin 1) u)) Cert.Spec.zero * x5 (ix2 u k)) (Finset.sum_congr rfl fun q _ => ?_)
  rw [truncf_apply, truncf_apply, v0_cat_apply]
  unfold v0_row
  simp only [mulf_apply, v0_bcA_apply, shapeCast_self]

/-! ## From the blocks to the array

Point t of the grid works on rows 4000·t … 4000·t + 3999: the three node windows' blocks and the result's block sit at
block index (t, 0), the four parameter windows are their whole arrays. So what point t writes back is block t of the
layer on whole arrays, and the blocks tile the result. -/

theorem v0_hz : (![0, 0] : Fin 2 → Nat) = fun _ => 0 :=
  funext fun a => match a with | ⟨0, _⟩ => rfl | ⟨1, _⟩ => rfl

/-- The block a row of the arrays lies in agrees with the layer on whole arrays: the payload at row p of a block whose
    rows are the arrays' rows from r - p on, with the parameters whole. -/
theorem v0_block_eq (X : Cert.Spec.SX.Idx → EReal) (S : Cert.Spec.SS.Idx → EReal) (A : Cert.Spec.SA.Idx → EReal)
    (W1 : Cert.Spec.SW1.Idx → EReal) (b1 : Cert.Spec.SB1.Idx → EReal) (W2 : Cert.Spec.SW2.Idx → EReal) (b2 : Cert.Spec.SB2.Idx → EReal)
    (x0 : Vec Ideal S4000x2 .f32) (x1 : Vec Ideal S4000x1 .f32) (x2 : Vec Ideal S4000x3 .f32)
    (x3 : Vec Ideal S7x128 .f32) (x4 : Vec Ideal S1x128 .f32) (x5 : Vec Ideal S128x2 .f32) (x6 : Vec Ideal S1x2 .f32)
    (r : Fin 400000) (p : Fin 4000) (k : Fin 2)
    (h0 : ∀ k' : Fin 2, x0 (ix2 p k') = X (ix2 r k'))
    (h1 : x1 (ix2 p (0 : Fin 1)) = S (ix2 r (0 : Fin 1)))
    (h2 : ∀ k' : Fin 3, x2 (ix2 p k') = A (ix2 r k'))
    (h3 : x3 = W1) (h4 : x4 = b1) (h5 : x5 = W2) (h6 : x6 = b2) :
    k0_pay1 x0 x1 x2 x3 x4 x5 x6 (ix2 p k) = Cert.Spec.layerK X S A W1 b1 W2 b2 (ix2 r k) := by
  rw [v0_pay_apply]
  subst h3 h4 h5 h6
  show Cert.Spec.dense (v0_row x0 x1 x2 p) x3 x4 x5 x6 k = Cert.Spec.dense (Cert.Spec.rowK X S A r) x3 x4 x5 x6 k
  refine congrArg (fun h => Cert.Spec.dense h x3 x4 x5 x6 k) (funext fun q => ?_)
  unfold v0_row Cert.Spec.rowK
  by_cases hq : q.val < 2
  · rw [dif_pos hq, dif_pos hq]; exact h0 _
  · rw [dif_neg hq, dif_neg hq]
    by_cases hq' : q.val < 4
    · rw [dif_pos hq', dif_pos hq', h0, h1]
    · rw [dif_neg hq', dif_neg hq']; exact h2 _

/-- The printed index maps, decided once over the grid: the node windows and the result move with the point along
    the rows, the parameter windows stay. -/
theorem v0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of the layer on the whole arrays as the region finds them. -/
theorem v0_flushed_eq (c : Dev nD) (t : Fin cfg0.N) :
    (dat0 (F := Ideal) V c).flushed 7 t
      = ((cfg0.win 7).blk t).view.read (Elt Ideal)
          (Cert.Spec.layerK (V c main_arg0) (V c main_v10) (V c main_v15) (V c main_v17) (V c main_v24) (V c main_v21) (V c main_v25)) := by
  show (cfg0.win 7).cut (grid0.coords t) ((dat0 (F := Ideal) V c).after 7 t) = _
  rw [after0_7]
  unfold out0_7
  rw [View.canon_unit_zero v0_hz]
  simp only [View.ld_unit_zero (S := S4000x2) v0_hz, View.ld_unit_zero (S := S4000x1) v0_hz, View.ld_unit_zero (S := S4000x3) v0_hz,
    View.ld_unit_zero (S := S7x128) v0_hz, View.ld_unit_zero (S := S1x128) v0_hz, View.ld_unit_zero (S := S128x2) v0_hz,
    View.ld_unit_zero (S := S1x2) v0_hz]
  obtain ⟨e00, e01, e10, e11, e20, e21, e30, e31, e40, e41, e50, e51, e60, e61, e70, e71⟩ := v0_idx_facts t
  have ht : t.val < 100 := t.isLt
  funext j
  have hj0 : (j 0).val < 4000 := (j 0).isLt
  have hj1 : (j 1).val < 2 := (j 1).isLt
  show k0_pay1 (iblk0 V c 0 t) (iblk0 V c 1 t) (iblk0 V c 2 t) (iblk0 V c 3 t) (iblk0 V c 4 t) (iblk0 V c 5 t) (iblk0 V c 6 t)
        ((cfg0.win 7).xinj (grid0.coords t) j)
      = Cert.Spec.layerK (V c main_arg0) (V c main_v10) (V c main_v15) (V c main_v17) (V c main_v24) (V c main_v21) (V c main_v25)
        (((cfg0.win 7).blk t).view.emb j)
  have ej : ((cfg0.win 7).xinj (grid0.coords t) j : S4000x2.Idx) = ix2 (⟨(j 0).val, hj0⟩ : Fin 4000) (⟨(j 1).val, hj1⟩ : Fin 2) :=
    funext fun a => match a with | ⟨0, _⟩ => rfl | ⟨1, _⟩ => rfl
  have er : (((cfg0.win 7).blk t).view.emb j : S400000x2.Idx)
      = ix2 (⟨t.val * 4000 + (j 0).val, by omega⟩ : Fin 400000) (⟨(j 1).val, hj1⟩ : Fin 2) := by
    funext a; apply Fin.ext
    match a with
    | ⟨0, _⟩ => show win0_7.index t (0 : Fin 2) * 4000 + 1 * (j 0).val = t.val * 4000 + (j 0).val; omega
    | ⟨1, _⟩ => show win0_7.index t (1 : Fin 2) * 2 + 1 * (j 1).val = (j 1).val; omega
  have h0 : ∀ k' : Fin 2, iblk0 V c 0 t (ix2 (⟨(j 0).val, hj0⟩ : Fin 4000) k')
      = V c main_arg0 (ix2 (⟨t.val * 4000 + (j 0).val, by omega⟩ : Fin 400000) k') := fun k' => by
    show V c main_arg0 (((cfg0.win 0).blk t).view.emb (ix2 (⟨(j 0).val, hj0⟩ : Fin 4000) k')) = _
    refine congrArg (V c main_arg0) (funext fun a => Fin.ext ?_)
    match a with
    | ⟨0, _⟩ => show win0_0.index t (0 : Fin 2) * 4000 + 1 * (j 0).val = t.val * 4000 + (j 0).val; omega
    | ⟨1, _⟩ => show win0_0.index t (1 : Fin 2) * 2 + 1 * k'.val = k'.val; omega
  have h1 : iblk0 V c 1 t (ix2 (⟨(j 0).val, hj0⟩ : Fin 4000) (0 : Fin 1))
      = V c main_v10 (ix2 (⟨t.val * 4000 + (j 0).val, by omega⟩ : Fin 400000) (0 : Fin 1)) := by
    show V c main_v10 (((cfg0.win 1).blk t).view.emb (ix2 (⟨(j 0).val, hj0⟩ : Fin 4000) (0 : Fin 1))) = _
    refine congrArg (V c main_v10) (funext fun a => Fin.ext ?_)
    match a with
    | ⟨0, _⟩ => show win0_1.index t (0 : Fin 2) * 4000 + 1 * (j 0).val = t.val * 4000 + (j 0).val; omega
    | ⟨1, _⟩ => show win0_1.index t (1 : Fin 2) * 1 + 1 * 0 = 0; omega
  have h2 : ∀ k' : Fin 3, iblk0 V c 2 t (ix2 (⟨(j 0).val, hj0⟩ : Fin 4000) k')
      = V c main_v15 (ix2 (⟨t.val * 4000 + (j 0).val, by omega⟩ : Fin 400000) k') := fun k' => by
    show V c main_v15 (((cfg0.win 2).blk t).view.emb (ix2 (⟨(j 0).val, hj0⟩ : Fin 4000) k')) = _
    refine congrArg (V c main_v15) (funext fun a => Fin.ext ?_)
    match a with
    | ⟨0, _⟩ => show win0_2.index t (0 : Fin 2) * 4000 + 1 * (j 0).val = t.val * 4000 + (j 0).val; omega
    | ⟨1, _⟩ => show win0_2.index t (1 : Fin 2) * 3 + 1 * k'.val = k'.val; omega
  have h3 : iblk0 V c 3 t = V c main_v17 := funext fun y => by
    show V c main_v17 (((cfg0.win 3).blk t).view.emb y) = V c main_v17 y
    refine congrArg (V c main_v17) (funext fun a => Fin.ext ?_)
    match a with
    | ⟨0, _⟩ => show win0_3.index t (0 : Fin 2) * 7 + 1 * (y 0).val = (y 0).val; omega
    | ⟨1, _⟩ => show win0_3.index t (1 : Fin 2) * 128 + 1 * (y 1).val = (y 1).val; omega
  have h4 : iblk0 V c 4 t = V c main_v24 := funext fun y => by
    show V c main_v24 (((cfg0.win 4).blk t).view.emb y) = V c main_v24 y
    refine congrArg (V c main_v24) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  have h5 : iblk0 V c 5 t = V c main_v21 := funext fun y => by
    show V c main_v21 (((cfg0.win 5).blk t).view.emb y) = V c main_v21 y
    refine congrArg (V c main_v21) (funext fun a => Fin.ext ?_)
    match a with
    | ⟨0, _⟩ => show win0_5.index t (0 : Fin 2) * 128 + 1 * (y 0).val = (y 0).val; omega
    | ⟨1, _⟩ => show win0_5.index t (1 : Fin 2) * 2 + 1 * (y 1).val = (y 1).val; omega
  have h6 : iblk0 V c 6 t = V c main_v25 := funext fun y => by
    show V c main_v25 (((cfg0.win 6).blk t).view.emb y) = V c main_v25 y
    refine congrArg (V c main_v25) (funext fun a => Fin.ext ?_)
    match a with
    | ⟨0, _⟩ => show win0_6.index t (0 : Fin 2) * 1 + 1 * (y 0).val = (y 0).val; omega
    | ⟨1, _⟩ => show win0_6.index t (1 : Fin 2) * 2 + 1 * (y 1).val = (y 1).val; omega
  exact (congrArg (k0_pay1 (iblk0 V c 0 t) (iblk0 V c 1 t) (iblk0 V c 2 t) (iblk0 V c 3 t) (iblk0 V c 4 t) (iblk0 V c 5 t) (iblk0 V c 6 t)) ej).trans
    ((v0_block_eq (V c main_arg0) (V c main_v10) (V c main_v15) (V c main_v17) (V c main_v24) (V c main_v21) (V c main_v25)
        (iblk0 V c 0 t) (iblk0 V c 1 t) (iblk0 V c 2 t) (iblk0 V c 3 t) (iblk0 V c 4 t) (iblk0 V c 5 t) (iblk0 V c 6 t)
        ⟨t.val * 4000 + (j 0).val, by omega⟩ ⟨(j 0).val, hj0⟩ ⟨(j 1).val, hj1⟩ h0 h1 h2 h3 h4 h5 h6).trans
      (congrArg (Cert.Spec.layerK (V c main_arg0) (V c main_v10) (V c main_v15) (V c main_v17) (V c main_v24) (V c main_v21) (V c main_v25)) er.symm))

/-- An index of the result is in point t's block iff each coordinate is in the block's range on its axis. -/
theorem v0_mem_blk (t : Fin cfg0.N) (i : S400000x2.Idx) :
    i ∈ ((cfg0.win 7).blk t).view.set ↔ ∀ a : Fin 2, win0_7.index t a * S4000x2.size a ≤ (i a).val ∧ (i a).val < win0_7.index t a * S4000x2.size a + S4000x2.size a := by
  show i ∈ ((View.whole main_v26).slice (win0_7.rect t)).set ↔ _
  rw [View.set_slice_whole, Rect.mem_set_unit]
  exact Iff.rfl

/-- Every row is in some point's block: row r in the block of point r / 4000. -/
theorem v0_cover (i : S400000x2.Idx) :
    ∃ t : Fin cfg0.N, (cfg0.win 7).flush t = true ∧ i ∈ ((cfg0.win 7).blk t).view.set := by
  have hi0 : (i 0).val < 400000 := (i 0).isLt
  have hi1 : (i 1).val < 2 := (i 1).isLt
  obtain ⟨t, ht⟩ : ∃ t : Fin cfg0.N, t.val = (i 0).val / 4000 :=
    ⟨⟨(i 0).val / 4000, by show (i 0).val / 4000 < 100; omega⟩, rfl⟩
  obtain ⟨e00, e01, e10, e11, e20, e21, e30, e31, e40, e41, e50, e51, e60, e61, e70, e71⟩ := v0_idx_facts t
  refine ⟨t, flush0_7 t, ?_⟩
  rw [v0_mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 2 ≤ (i 1).val ∧ (i 1).val < win0_7.index t (1 : Fin 2) * 2 + 2; omega

/-- THE RESULT ARRAY after the run: the layer of the seven operand arrays as the region finds them. -/
theorem arr0 (c : Dev nD) :
    (dat0 (F := Ideal) V c).arrAt 7 cfg0.N
      = Cert.Spec.layerK (V c main_arg0) (V c main_v10) (V c main_v15) (V c main_v17) (V c main_v24) (V c main_v21) (V c main_v25) :=
  (dat0 (F := Ideal) V c).arrAt_eq_of_cover 7
    (Cert.Spec.layerK (V c main_arg0) (V c main_v10) (V c main_v15) (V c main_v17) (V c main_v24) (V c main_v21) (V c main_v25))
    (fun t _ => v0_flushed_eq V c t) v0_cover

end Cert.KernelIdeal.Fr

end
-- ==== Proof.KI.Val1.lean ====
/-
  The first node-update layer's result ARRAY after its pipeline has run, as one function of the seven operand arrays
  the region finds: relu([x, x·scale, a]·W₁ + b₁)·W₂ + b₂, row by row (`Cert.Spec.layerK`).

  First the body's stored value at row p and column k of a block (`v1_pay_apply`): the index goes through the sums,
  the maximum with zero and the spreads of the bias rows; each of the two block products into the zero block is the sum
  over its one contracted coordinate; the joined block [x, x·scale, a] is read piece by piece; the narrowing to sixteen
  bits is the identity on the extended reals. Then the blocks: point t of the grid holds rows 4000·t … 4000·t + 3999 of
  the node arrays and the whole parameter arrays, so what it writes back is block t of the layer on whole arrays
  (`v1_flushed_eq`); the hundred blocks tile the result (`v1_cover`); hence the array (`arr1`).
-/
import proofs.«406876_j85478439125102_3_alg».proof.Proof.KI.Mlp1
import proofs.«406876_j85478439125102_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

/-! ## The two block products read at an index

A block product with one contracted axis, into the zero block, is at (p, u) the sum over the contracted coordinate of
the left block at (p, ·) times the right block at (·, u). -/

theorem v1_mmA_lhs_0 (i : S4000x128.Idx) (q : dot_S4000x7_S7x128_S4000x128_1_0_0_1_n_n.contr.Idx) :
    (dot_S4000x7_S7x128_S4000x128_1_0_0_1_n_n.lhsIdx i q 0).val = (i 0).val := by
  unfold DotDims.lhsIdx
  rw [dif_neg (show ¬(0 : Fin S4000x7.rank) ∈ dot_S4000x7_S7x128_S4000x128_1_0_0_1_n_n.lhsBatch by decide), dif_pos (show (0 : Fin S4000x7.rank) ∈ dot_S4000x7_S7x128_S4000x128_1_0_0_1_n_n.lhsNonContracting by decide)]
  rfl
theorem v1_mmA_lhs_1 (i : S4000x128.Idx) (q : dot_S4000x7_S7x128_S4000x128_1_0_0_1_n_n.contr.Idx) :
    (dot_S4000x7_S7x128_S4000x128_1_0_0_1_n_n.lhsIdx i q 1).val = (q ⟨0, by decide⟩).val :=
  dot_S4000x7_S7x128_S4000x128_1_0_0_1_n_n.lhsIdx_val_of_single rfl i q
theorem v1_mmA_rhs_0 (i : S4000x128.Idx) (q : dot_S4000x7_S7x128_S4000x128_1_0_0_1_n_n.contr.Idx) :
    (dot_S4000x7_S7x128_S4000x128_1_0_0_1_n_n.rhsIdx i q 0).val = (q ⟨0, by decide⟩).val :=
  dot_S4000x7_S7x128_S4000x128_1_0_0_1_n_n.rhsIdx_val_of_single rfl i q
theorem v1_mmA_rhs_1 (i : S4000x128.Idx) (q : dot_S4000x7_S7x128_S4000x128_1_0_0_1_n_n.contr.Idx) :
    (dot_S4000x7_S7x128_S4000x128_1_0_0_1_n_n.rhsIdx i q 1).val = (i 1).val := by
  unfold DotDims.rhsIdx
  rw [dif_neg (show ¬(1 : Fin S7x128.rank) ∈ dot_S4000x7_S7x128_S4000x128_1_0_0_1_n_n.rhsBatch by decide), dif_pos (show (1 : Fin S7x128.rank) ∈ dot_S4000x7_S7x128_S4000x128_1_0_0_1_n_n.rhsNonContracting by decide)]
  rfl

/-- The first product, [4000, 7] by [7, 128], at (p, u). -/
theorem v1_mmA_apply (l : FVec Ideal S4000x7 .bf16) (r : FVec Ideal S7x128 .bf16) (p : Fin 4000) (u : Fin 128) :
    matmul dot_S4000x7_S7x128_S4000x128_1_0_0_1_n_n none l r (constant (F := Ideal) S4000x128 .f32 0x00000000#32) (ix2 p u)
      = ∑ q : Fin 7, l (ix2 p q) * r (ix2 q u) := by
  simp only [matmul]
  rw [Ideal.matmul_constant_zero_apply, ← Equiv.sum_comp (ValueIdx.contrEquiv1 dot_S4000x7_S7x128_S4000x128_1_0_0_1_n_n 7 rfl rfl).symm]
  refine Finset.sum_congr rfl fun k _ => ?_
  have hk := ValueIdx.contrEquiv1_symm_val dot_S4000x7_S7x128_S4000x128_1_0_0_1_n_n 7 rfl rfl k
  have el : dot_S4000x7_S7x128_S4000x128_1_0_0_1_n_n.lhsIdx (ix2 p u) ((ValueIdx.contrEquiv1 dot_S4000x7_S7x128_S4000x128_1_0_0_1_n_n 7 rfl rfl).symm k) = ix2 p k := funext fun a => Fin.ext (by
    match a with
    | ⟨0, _⟩ => exact v1_mmA_lhs_0 _ _
    | ⟨1, _⟩ => exact (v1_mmA_lhs_1 _ _).trans hk)
  have er : dot_S4000x7_S7x128_S4000x128_1_0_0_1_n_n.rhsIdx (ix2 p u) ((ValueIdx.contrEquiv1 dot_S4000x7_S7x128_S4000x128_1_0_0_1_n_n 7 rfl rfl).symm k) = ix2 k u := funext fun a => Fin.ext (by
    match a with
    | ⟨0, _⟩ => exact (v1_mmA_rhs_0 _ _).trans hk
    | ⟨1, _⟩ => exact v1_mmA_rhs_1 _ _)
  rw [el, er]

theorem v1_mmB_lhs_0 (i : S4000x2.Idx) (q : dot_S4000x128_S128x2_S4000x2_1_0_0_1_n_n.contr.Idx) :
    (dot_S4000x128_S128x2_S4000x2_1_0_0_1_n_n.lhsIdx i q 0).val = (i 0).val := by
  unfold DotDims.lhsIdx
  rw [dif_neg (show ¬(0 : Fin S4000x128.rank) ∈ dot_S4000x128_S128x2_S4000x2_1_0_0_1_n_n.lhsBatch by decide), dif_pos (show (0 : Fin S4000x128.rank) ∈ dot_S4000x128_S128x2_S4000x2_1_0_0_1_n_n.lhsNonContracting by decide)]
  rfl
theorem v1_mmB_lhs_1 (i : S4000x2.Idx) (q : dot_S4000x128_S128x2_S4000x2_1_0_0_1_n_n.contr.Idx) :
    (dot_S4000x128_S128x2_S4000x2_1_0_0_1_n_n.lhsIdx i q 1).val = (q ⟨0, by decide⟩).val :=
  dot_S4000x128_S128x2_S4000x2_1_0_0_1_n_n.lhsIdx_val_of_single rfl i q
theorem v1_mmB_rhs_0 (i : S4000x2.Idx) (q : dot_S4000x128_S128x2_S4000x2_1_0_0_1_n_n.contr.Idx) :
    (dot_S4000x128_S128x2_S4000x2_1_0_0_1_n_n.rhsIdx i q 0).val = (q ⟨0, by decide⟩).val :=
  dot_S4000x128_S128x2_S4000x2_1_0_0_1_n_n.rhsIdx_val_of_single rfl i q
theorem v1_mmB_rhs_1 (i : S4000x2.Idx) (q : dot_S4000x128_S128x2_S4000x2_1_0_0_1_n_n.contr.Idx) :
    (dot_S4000x128_S128x2_S4000x2_1_0_0_1_n_n.rhsIdx i q 1).val = (i 1).val := by
  unfold DotDims.rhsIdx
  rw [dif_neg (show ¬(1 : Fin S128x2.rank) ∈ dot_S4000x128_S128x2_S4000x2_1_0_0_1_n_n.rhsBatch by decide), dif_pos (show (1 : Fin S128x2.rank) ∈ dot_S4000x128_S128x2_S4000x2_1_0_0_1_n_n.rhsNonContracting by decide)]
  rfl

/-- The second product, [4000, 128] by [128, 2], at (p, k). -/
theorem v1_mmB_apply (l : FVec Ideal S4000x128 .bf16) (r : FVec Ideal S128x2 .bf16) (p : Fin 4000) (k : Fin 2) :
    matmul dot_S4000x128_S128x2_S4000x2_1_0_0_1_n_n none l r (constant (F := Ideal) S4000x2 .f32 0x00000000#32) (ix2 p k)
      = ∑ u : Fin 128, l (ix2 p u) * r (ix2 u k) := by
  simp only [matmul]
  rw [Ideal.matmul_constant_zero_apply, ← Equiv.sum_comp (ValueIdx.contrEquiv1 dot_S4000x128_S128x2_S4000x2_1_0_0_1_n_n 128 rfl rfl).symm]
  refine Finset.sum_congr rfl fun u _ => ?_
  have hu := ValueIdx.contrEquiv1_symm_val dot_S4000x128_S128x2_S4000x2_1_0_0_1_n_n 128 rfl rfl u
  have el : dot_S4000x128_S128x2_S4000x2_1_0_0_1_n_n.lhsIdx (ix2 p k) ((ValueIdx.contrEquiv1 dot_S4000x128_S128x2_S4000x2_1_0_0_1_n_n 128 rfl rfl).symm u) = ix2 p u := funext fun a => Fin.ext (by
    match a with
    | ⟨0, _⟩ => exact v1_mmB_lhs_0 _ _
    | ⟨1, _⟩ => exact (v1_mmB_lhs_1 _ _).trans hu)
  have er : dot_S4000x128_S128x2_S4000x2_1_0_0_1_n_n.rhsIdx (ix2 p k) ((ValueIdx.contrEquiv1 dot_S4000x128_S128x2_S4000x2_1_0_0_1_n_n 128 rfl rfl).symm u) = ix2 u k := funext fun a => Fin.ext (by
    match a with
    | ⟨0, _⟩ => exact (v1_mmB_rhs_0 _ _).trans hu
    | ⟨1, _⟩ => exact v1_mmB_rhs_1 _ _)
  rw [el, er]

/-! ## The layout operations read at an index -/

/-- A column [4000, 1] spread over two columns reads the column's row. -/
theorem v1_bcA_apply (v : S4000x1.Idx → EReal) (p : Fin 4000) (k : Fin 2) :
    broadcastTo S4000x2 v broadcasts_S4000x1_S4000x2 (ix2 p k) = v (ix2 p (0 : Fin 1)) :=
  broadcastTo_apply v broadcasts_S4000x1_S4000x2 (ix2 p k) (ix2 p (0 : Fin 1)) (fun a => match a with
    | ⟨0, _⟩ => by show p.val = if (4000 : Nat) = 1 then 0 else p.val; rw [if_neg (by decide)]
    | ⟨1, _⟩ => by show 0 = if (1 : Nat) = 1 then 0 else k.val; rw [if_pos rfl])

/-- A row [1, 128] spread over 4000 rows reads the row's column. -/
theorem v1_bcB_apply (v : S1x128.Idx → EReal) (p : Fin 4000) (u : Fin 128) :
    broadcastTo S4000x128 v broadcasts_S1x128_S4000x128 (ix2 p u) = v (ix2 (0 : Fin 1) u) :=
  broadcastTo_apply v broadcasts_S1x128_S4000x128 (ix2 p u) (ix2 (0 : Fin 1) u) (fun a => match a with
    | ⟨0, _⟩ => by show 0 = if (1 : Nat) = 1 then 0 else p.val; rw [if_pos rfl]
    | ⟨1, _⟩ => by show u.val = if (128 : Nat) = 1 then 0 else u.val; rw [if_neg (by decide)])

/-- A row [1, 2] spread over 4000 rows reads the row's column. -/
theorem v1_bcC_apply (v : S1x2.Idx → EReal) (p : Fin 4000) (k : Fin 2) :
    broadcastTo S4000x2 v broadcasts_S1x2_S4000x2 (ix2 p k) = v (ix2 (0 : Fin 1) k) :=
  broadcastTo_apply v broadcasts_S1x2_S4000x2 (ix2 p k) (ix2 (0 : Fin 1) k) (fun a => match a with
    | ⟨0, _⟩ => by show 0 = if (1 : Nat) = 1 then 0 else p.val; rw [if_pos rfl]
    | ⟨1, _⟩ => by show k.val = if (2 : Nat) = 1 then 0 else k.val; rw [if_neg (by decide)])

/-- The three blocks joined along the columns, [4000, 2 + 2 + 3], at (p, q): the block whose span holds q, at q less
    the columns before it. -/
theorem v1_cat_apply (a b : S4000x2.Idx → EReal) (c : S4000x3.Idx → EReal) (p : Fin 4000) (q : Fin 7) :
    concatenate S4000x7 1 [⟨S4000x2, a⟩, ⟨S4000x2, b⟩, ⟨S4000x3, c⟩] concatenates_S4000x2_S4000x2_S4000x3_S4000x7_d1 (ix2 p q)
      = if h : q.val < 2 then a (ix2 p ⟨q.val, h⟩)
        else if h' : q.val < 4 then b (ix2 p ⟨q.val - 2, by omega⟩)
        else c (ix2 p ⟨q.val - 4, by omega⟩) := by
  have hq : q.val < 7 := q.isLt
  by_cases h : q.val < 2
  · rw [dif_pos h]
    exact concatenate_apply_piece (1 : Fin S4000x7.rank) [⟨S4000x2, a⟩, ⟨S4000x2, b⟩, ⟨S4000x3, c⟩] concatenates_S4000x2_S4000x2_S4000x3_S4000x7_d1 (ix2 p q)
      0 (by show (0 : Nat) < 3; omega) S4000x2 a rfl rfl 0 rfl (ix2 p ⟨q.val, h⟩)
      (fun d hd => match d with
        | ⟨0, _⟩ => rfl
        | ⟨1, _⟩ => absurd rfl hd)
      (by show 0 + q.val = q.val; omega)
  · rw [dif_neg h]
    by_cases h' : q.val < 4
    · rw [dif_pos h']
      exact concatenate_apply_piece (1 : Fin S4000x7.rank) [⟨S4000x2, a⟩, ⟨S4000x2, b⟩, ⟨S4000x3, c⟩] concatenates_S4000x2_S4000x2_S4000x3_S4000x7_d1 (ix2 p q)
        1 (by show (1 : Nat) < 3; omega) S4000x2 b rfl rfl 2 rfl (ix2 p ⟨q.val - 2, by omega⟩)
        (fun d hd => match d with
          | ⟨0, _⟩ => rfl
          | ⟨1, _⟩ => absurd rfl hd)
        (by show 2 + (q.val - 2) = q.val; omega)
    · rw [dif_neg h']
      exact concatenate_apply_piece (1 : Fin S4000x7.rank) [⟨S4000x2, a⟩, ⟨S4000x2, b⟩, ⟨S4000x3, c⟩] concatenates_S4000x2_S4000x2_S4000x3_S4000x7_d1 (ix2 p q)
        2 (by show (2 : Nat) < 3; omega) S4000x3 c rfl rfl 4 rfl (ix2 p ⟨q.val - 4, by omega⟩)
        (fun d hd => match d with
          | ⟨0, _⟩ => rfl
          | ⟨1, _⟩ => absurd rfl hd)
        (by show 4 + (q.val - 4) = q.val; omega)

/-! ## The payload at an index -/

/-- The hidden layer's input row of a block: the features, the features scaled, the aggregated attributes. -/
def v1_row (x0 : S4000x2.Idx → EReal) (x1 : S4000x1.Idx → EReal) (x2 : S4000x3.Idx → EReal) (p : Fin 4000) (q : Fin 7) : EReal :=
  if h : q.val < 2 then x0 (ix2 p ⟨q.val, h⟩)
  else if h' : q.val < 4 then x0 (ix2 p ⟨q.val - 2, by omega⟩) * x1 (ix2 p (0 : Fin 1))
  else x2 (ix2 p ⟨q.val - 4, by omega⟩)

/-- What the body stores, at row p and column k of the block: the two dense maps with the relu between, of the row. -/
theorem v1_pay_apply (x0 : Vec Ideal S4000x2 .f32) (x1 : Vec Ideal S4000x1 .f32) (x2 : Vec Ideal S4000x3 .f32)
    (x3 : Vec Ideal S7x128 .f32) (x4 : Vec Ideal S1x128 .f32) (x5 : Vec Ideal S128x2 .f32) (x6 : Vec Ideal S1x2 .f32)
    (p : Fin 4000) (k : Fin 2) :
    k1_pay1 x0 x1 x2 x3 x4 x5 x6 (ix2 p k) = Cert.Spec.dense (v1_row x0 x1 x2 p) x3 x4 x5 x6 k := by
  unfold k1_pay1
  simp only [shapeCast_self]
  rw [addf_apply, v1_bcC_apply, v1_mmB_apply]
  unfold Cert.Spec.dense
  refine congrArg (· + x6 (ix2 (0 : Fin 1) k)) (Finset.sum_congr rfl fun u _ => ?_)
  rw [truncf_apply, truncf_apply, maximumf_apply, broadcast_apply, addf_apply, v1_bcB_apply, v1_mmA_apply]
  refine congrArg (fun s => max (s + x4 (ix2 (0 : Fin 1) u)) Cert.Spec.zero * x5 (ix2 u k)) (Finset.sum_congr rfl fun q _ => ?_)
  rw [truncf_apply, truncf_apply, v1_cat_apply]
  unfold v1_row
  simp only [mulf_apply, v1_bcA_apply, shapeCast_self]

/-! ## From the blocks to the array

Point t of the grid works on rows 4000·t … 4000·t + 3999: the three node windows' blocks and the result's block sit at
block index (t, 0), the four parameter windows are their whole arrays. So what point t writes back is block t of the
layer on whole arrays, and the blocks tile the result. -/

theorem v1_hz : (![0, 0] : Fin 2 → Nat) = fun _ => 0 :=
  funext fun a => match a with | ⟨0, _⟩ => rfl | ⟨1, _⟩ => rfl

/-- The block a row of the arrays lies in agrees with the layer on whole arrays: the payload at row p of a block whose
    rows are the arrays' rows from r - p on, with the parameters whole. -/
theorem v1_block_eq (X : Cert.Spec.SX.Idx → EReal) (S : Cert.Spec.SS.Idx → EReal) (A : Cert.Spec.SA.Idx → EReal)
    (W1 : Cert.Spec.SW1.Idx → EReal) (b1 : Cert.Spec.SB1.Idx → EReal) (W2 : Cert.Spec.SW2.Idx → EReal) (b2 : Cert.Spec.SB2.Idx → EReal)
    (x0 : Vec Ideal S4000x2 .f32) (x1 : Vec Ideal S4000x1 .f32) (x2 : Vec Ideal S4000x3 .f32)
    (x3 : Vec Ideal S7x128 .f32) (x4 : Vec Ideal S1x128 .f32) (x5 : Vec Ideal S128x2 .f32) (x6 : Vec Ideal S1x2 .f32)
    (r : Fin 400000) (p : Fin 4000) (k : Fin 2)
    (h0 : ∀ k' : Fin 2, x0 (ix2 p k') = X (ix2 r k'))
    (h1 : x1 (ix2 p (0 : Fin 1)) = S (ix2 r (0 : Fin 1)))
    (h2 : ∀ k' : Fin 3, x2 (ix2 p k') = A (ix2 r k'))
    (h3 : x3 = W1) (h4 : x4 = b1) (h5 : x5 = W2) (h6 : x6 = b2) :
    k1_pay1 x0 x1 x2 x3 x4 x5 x6 (ix2 p k) = Cert.Spec.layerK X S A W1 b1 W2 b2 (ix2 r k) := by
  rw [v1_pay_apply]
  subst h3 h4 h5 h6
  show Cert.Spec.dense (v1_row x0 x1 x2 p) x3 x4 x5 x6 k = Cert.Spec.dense (Cert.Spec.rowK X S A r) x3 x4 x5 x6 k
  refine congrArg (fun h => Cert.Spec.dense h x3 x4 x5 x6 k) (funext fun q => ?_)
  unfold v1_row Cert.Spec.rowK
  by_cases hq : q.val < 2
  · rw [dif_pos hq, dif_pos hq]; exact h0 _
  · rw [dif_neg hq, dif_neg hq]
    by_cases hq' : q.val < 4
    · rw [dif_pos hq', dif_pos hq', h0, h1]
    · rw [dif_neg hq', dif_neg hq']; exact h2 _

/-- The printed index maps, decided once over the grid: the node windows and the result move with the point along
    the rows, the parameter windows stay. -/
theorem v1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of the layer on the whole arrays as the region finds them. -/
theorem v1_flushed_eq (c : Dev nD) (t : Fin cfg1.N) :
    (dat1 (F := Ideal) V c).flushed 7 t
      = ((cfg1.win 7).blk t).view.read (Elt Ideal)
          (Cert.Spec.layerK (V c main_v26) (V c main_v10) (V c main_v15) (V c main_v28) (V c main_v35) (V c main_v32) (V c main_v36)) := by
  show (cfg1.win 7).cut (grid1.coords t) ((dat1 (F := Ideal) V c).after 7 t) = _
  rw [after1_7]
  unfold out1_7
  rw [View.canon_unit_zero v1_hz]
  simp only [View.ld_unit_zero (S := S4000x2) v1_hz, View.ld_unit_zero (S := S4000x1) v1_hz, View.ld_unit_zero (S := S4000x3) v1_hz,
    View.ld_unit_zero (S := S7x128) v1_hz, View.ld_unit_zero (S := S1x128) v1_hz, View.ld_unit_zero (S := S128x2) v1_hz,
    View.ld_unit_zero (S := S1x2) v1_hz]
  obtain ⟨e00, e01, e10, e11, e20, e21, e30, e31, e40, e41, e50, e51, e60, e61, e70, e71⟩ := v1_idx_facts t
  have ht : t.val < 100 := t.isLt
  funext j
  have hj0 : (j 0).val < 4000 := (j 0).isLt
  have hj1 : (j 1).val < 2 := (j 1).isLt
  show k1_pay1 (iblk1 V c 0 t) (iblk1 V c 1 t) (iblk1 V c 2 t) (iblk1 V c 3 t) (iblk1 V c 4 t) (iblk1 V c 5 t) (iblk1 V c 6 t)
        ((cfg1.win 7).xinj (grid1.coords t) j)
      = Cert.Spec.layerK (V c main_v26) (V c main_v10) (V c main_v15) (V c main_v28) (V c main_v35) (V c main_v32) (V c main_v36)
        (((cfg1.win 7).blk t).view.emb j)
  have ej : ((cfg1.win 7).xinj (grid1.coords t) j : S4000x2.Idx) = ix2 (⟨(j 0).val, hj0⟩ : Fin 4000) (⟨(j 1).val, hj1⟩ : Fin 2) :=
    funext fun a => match a with | ⟨0, _⟩ => rfl | ⟨1, _⟩ => rfl
  have er : (((cfg1.win 7).blk t).view.emb j : S400000x2.Idx)
      = ix2 (⟨t.val * 4000 + (j 0).val, by omega⟩ : Fin 400000) (⟨(j 1).val, hj1⟩ : Fin 2) := by
    funext a; apply Fin.ext
    match a with
    | ⟨0, _⟩ => show win1_7.index t (0 : Fin 2) * 4000 + 1 * (j 0).val = t.val * 4000 + (j 0).val; omega
    | ⟨1, _⟩ => show win1_7.index t (1 : Fin 2) * 2 + 1 * (j 1).val = (j 1).val; omega
  have h0 : ∀ k' : Fin 2, iblk1 V c 0 t (ix2 (⟨(j 0).val, hj0⟩ : Fin 4000) k')
      = V c main_v26 (ix2 (⟨t.val * 4000 + (j 0).val, by omega⟩ : Fin 400000) k') := fun k' => by
    show V c main_v26 (((cfg1.win 0).blk t).view.emb (ix2 (⟨(j 0).val, hj0⟩ : Fin 4000) k')) = _
    refine congrArg (V c main_v26) (funext fun a => Fin.ext ?_)
    match a with
    | ⟨0, _⟩ => show win1_0.index t (0 : Fin 2) * 4000 + 1 * (j 0).val = t.val * 4000 + (j 0).val; omega
    | ⟨1, _⟩ => show win1_0.index t (1 : Fin 2) * 2 + 1 * k'.val = k'.val; omega
  have h1 : iblk1 V c 1 t (ix2 (⟨(j 0).val, hj0⟩ : Fin 4000) (0 : Fin 1))
      = V c main_v10 (ix2 (⟨t.val * 4000 + (j 0).val, by omega⟩ : Fin 400000) (0 : Fin 1)) := by
    show V c main_v10 (((cfg1.win 1).blk t).view.emb (ix2 (⟨(j 0).val, hj0⟩ : Fin 4000) (0 : Fin 1))) = _
    refine congrArg (V c main_v10) (funext fun a => Fin.ext ?_)
    match a with
    | ⟨0, _⟩ => show win1_1.index t (0 : Fin 2) * 4000 + 1 * (j 0).val = t.val * 4000 + (j 0).val; omega
    | ⟨1, _⟩ => show win1_1.index t (1 : Fin 2) * 1 + 1 * 0 = 0; omega
  have h2 : ∀ k' : Fin 3, iblk1 V c 2 t (ix2 (⟨(j 0).val, hj0⟩ : Fin 4000) k')
      = V c main_v15 (ix2 (⟨t.val * 4000 + (j 0).val, by omega⟩ : Fin 400000) k') := fun k' => by
    show V c main_v15 (((cfg1.win 2).blk t).view.emb (ix2 (⟨(j 0).val, hj0⟩ : Fin 4000) k')) = _
    refine congrArg (V c main_v15) (funext fun a => Fin.ext ?_)
    match a with
    | ⟨0, _⟩ => show win1_2.index t (0 : Fin 2) * 4000 + 1 * (j 0).val = t.val * 4000 + (j 0).val; omega
    | ⟨1, _⟩ => show win1_2.index t (1 : Fin 2) * 3 + 1 * k'.val = k'.val; omega
  have h3 : iblk1 V c 3 t = V c main_v28 := funext fun y => by
    show V c main_v28 (((cfg1.win 3).blk t).view.emb y) = V c main_v28 y
    refine congrArg (V c main_v28) (funext fun a => Fin.ext ?_)
    match a with
    | ⟨0, _⟩ => show win1_3.index t (0 : Fin 2) * 7 + 1 * (y 0).val = (y 0).val; omega
    | ⟨1, _⟩ => show win1_3.index t (1 : Fin 2) * 128 + 1 * (y 1).val = (y 1).val; omega
  have h4 : iblk1 V c 4 t = V c main_v35 := funext fun y => by
    show V c main_v35 (((cfg1.win 4).blk t).view.emb y) = V c main_v35 y
    refine congrArg (V c main_v35) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  have h5 : iblk1 V c 5 t = V c main_v32 := funext fun y => by
    show V c main_v32 (((cfg1.win 5).blk t).view.emb y) = V c main_v32 y
    refine congrArg (V c main_v32) (funext fun a => Fin.ext ?_)
    match a with
    | ⟨0, _⟩ => show win1_5.index t (0 : Fin 2) * 128 + 1 * (y 0).val = (y 0).val; omega
    | ⟨1, _⟩ => show win1_5.index t (1 : Fin 2) * 2 + 1 * (y 1).val = (y 1).val; omega
  have h6 : iblk1 V c 6 t = V c main_v36 := funext fun y => by
    show V c main_v36 (((cfg1.win 6).blk t).view.emb y) = V c main_v36 y
    refine congrArg (V c main_v36) (funext fun a => Fin.ext ?_)
    match a with
    | ⟨0, _⟩ => show win1_6.index t (0 : Fin 2) * 1 + 1 * (y 0).val = (y 0).val; omega
    | ⟨1, _⟩ => show win1_6.index t (1 : Fin 2) * 2 + 1 * (y 1).val = (y 1).val; omega
  exact (congrArg (k1_pay1 (iblk1 V c 0 t) (iblk1 V c 1 t) (iblk1 V c 2 t) (iblk1 V c 3 t) (iblk1 V c 4 t) (iblk1 V c 5 t) (iblk1 V c 6 t)) ej).trans
    ((v1_block_eq (V c main_v26) (V c main_v10) (V c main_v15) (V c main_v28) (V c main_v35) (V c main_v32) (V c main_v36)
        (iblk1 V c 0 t) (iblk1 V c 1 t) (iblk1 V c 2 t) (iblk1 V c 3 t) (iblk1 V c 4 t) (iblk1 V c 5 t) (iblk1 V c 6 t)
        ⟨t.val * 4000 + (j 0).val, by omega⟩ ⟨(j 0).val, hj0⟩ ⟨(j 1).val, hj1⟩ h0 h1 h2 h3 h4 h5 h6).trans
      (congrArg (Cert.Spec.layerK (V c main_v26) (V c main_v10) (V c main_v15) (V c main_v28) (V c main_v35) (V c main_v32) (V c main_v36)) er.symm))

/-- An index of the result is in point t's block iff each coordinate is in the block's range on its axis. -/
theorem v1_mem_blk (t : Fin cfg1.N) (i : S400000x2.Idx) :
    i ∈ ((cfg1.win 7).blk t).view.set ↔ ∀ a : Fin 2, win1_7.index t a * S4000x2.size a ≤ (i a).val ∧ (i a).val < win1_7.index t a * S4000x2.size a + S4000x2.size a := by
  show i ∈ ((View.whole main_v37).slice (win1_7.rect t)).set ↔ _
  rw [View.set_slice_whole, Rect.mem_set_unit]
  exact Iff.rfl

/-- Every row is in some point's block: row r in the block of point r / 4000. -/
theorem v1_cover (i : S400000x2.Idx) :
    ∃ t : Fin cfg1.N, (cfg1.win 7).flush t = true ∧ i ∈ ((cfg1.win 7).blk t).view.set := by
  have hi0 : (i 0).val < 400000 := (i 0).isLt
  have hi1 : (i 1).val < 2 := (i 1).isLt
  obtain ⟨t, ht⟩ : ∃ t : Fin cfg1.N, t.val = (i 0).val / 4000 :=
    ⟨⟨(i 0).val / 4000, by show (i 0).val / 4000 < 100; omega⟩, rfl⟩
  obtain ⟨e00, e01, e10, e11, e20, e21, e30, e31, e40, e41, e50, e51, e60, e61, e70, e71⟩ := v1_idx_facts t
  refine ⟨t, flush1_7 t, ?_⟩
  rw [v1_mem_blk]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 2 ≤ (i 1).val ∧ (i 1).val < win1_7.index t (1 : Fin 2) * 2 + 2; omega

/-- THE RESULT ARRAY after the run: the layer of the seven operand arrays as the region finds them. -/
theorem arr1 (c : Dev nD) :
    (dat1 (F := Ideal) V c).arrAt 7 cfg1.N
      = Cert.Spec.layerK (V c main_v26) (V c main_v10) (V c main_v15) (V c main_v28) (V c main_v35) (V c main_v32) (V c main_v36) :=
  (dat1 (F := Ideal) V c).arrAt_eq_of_cover 7
    (Cert.Spec.layerK (V c main_v26) (V c main_v10) (V c main_v15) (V c main_v28) (V c main_v35) (V c main_v32) (V c main_v36))
    (fun t _ => v1_flushed_eq V c t) v1_cover

end Cert.KernelIdeal.Fr

end
-- ==== Proof.KI.Val2.lean ====
/-
  What the array of squared distances holds after the third pipeline has run, as one function of its four operand
  arrays. The five 153125 × 128 arrays are walked in blocks of 2048 rows over 75 points; block t starts at row
  2048·t and spans all 128 columns; the last one, t = 74, starts at row 151552 and keeps the 1573 rows inside the
  arrays. At every point the result's block is written back, cut to those rows, and what is written back at an entry
  is (a0 − b0)² + (a1 − b1)² of the four operands' entries at the same place, because the five windows cut the same
  rectangle out of their arrays. Row r lies in the block of point r / 2048: 2048·(r / 2048) ≤ r < 2048·(r / 2048) + 2048
  below row 151552, and 151552 ≤ r < 151552 + 1573 = 153125 from there on. So the blocks cover the array, and the
  array ends holding that function everywhere.
-/
import proofs.«406876_j85478439125102_3_alg».proof.Proof.KI.Dist
import proofs.«406876_j85478439125102_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The squared distances of the four whole arrays, entry by entry. -/
def G2 (c : Dev nD) : Buf (Elt Ideal) ((c : Thread nD τ).loc main_v65) :=
  fun i => Cert.Spec.sqd (V c main_v55 i) (V c main_v61 i) (V c main_v58 i) (V c main_v64 i)

/-! ## Where the result's block at a point sits: over all 75 points at once -/

/-- Block t starts at row block t, -/
theorem idx0 : ∀ t : Fin grid2.N, win2_4.index t 0 = t.val := by decide +kernel
/-- at column block 0; -/
theorem idx1 : ∀ t : Fin grid2.N, win2_4.index t 1 = 0 := by decide +kernel
/-- it keeps 2048 rows below the last point and 1573 = 153125 − 74·2048 at the last, -/
theorem xs0 : ∀ t : Fin grid2.N, (t.val < 74 → win2_4.xsize (grid2.coords t) 0 = 2048)
    ∧ (t.val = 74 → win2_4.xsize (grid2.coords t) 0 = 1573) := by decide +kernel
/-- and all 128 columns. -/
theorem xs1 : ∀ t : Fin grid2.N, win2_4.xsize (grid2.coords t) 1 = 128 := by decide +kernel

/-! ## What a point writes back is its block of the one function -/

/-- The rows inside the array of what the body left at point t are the squared distances of the four operands' blocks,
    and those are the four arrays read through the rectangle the result's block is: the result's block of `G2`. -/
theorem flushed2 (c : Dev nD) (t : Fin cfg2.N) :
    (dat2 (F := Ideal) V c).flushed (4 : Fin 5) t = ((cfg2.win 4).blk t).view.read (Elt Ideal) (G2 V c) := by
  change win2_0.cut (grid2.coords t) (fillO V c t) = _
  rw [show win2_0.cut (grid2.coords t) (fillO V c t) = _ from win2_0.cut_fill _ _ _]
  rfl

/-! ## The blocks cover the array -/

/-- An entry of the array is in point t's block iff its row is among the block's rows inside the array (every column
    is: the blocks span the columns). -/
theorem mem_blk2 (t : Fin cfg2.N) (i : S153125x128.Idx) :
    i ∈ (win2_4.blk t).view.set ↔ win2_4.index t 0 * 2048 ≤ (i 0 : Nat)
      ∧ (i 0 : Nat) < win2_4.index t 0 * 2048 + win2_4.xsize (grid2.coords t) 0 := by
  show i ∈ ((View.whole main_v65).slice (win2_4.rect t)).set ↔ _
  rw [View.set_slice_whole, Rect.mem_set_unit]
  have h1 : (i 1 : Nat) < 128 := (i 1).isLt
  have e1 := idx1 t
  have e2 := xs1 t
  refine ⟨fun h => h 0, fun h a => ?_⟩
  match a with
  | ⟨0, _⟩ => exact h
  | ⟨1, _⟩ =>
    change win2_4.index t 1 * win2_4.size 1 ≤ (i 1 : Nat)
      ∧ (i 1 : Nat) < win2_4.index t 1 * win2_4.size 1 + win2_4.xsize (grid2.coords t) 1
    rw [e1, e2]; omega

/-- Row r is in the block of point r / 2048, which writes its block back like every point. -/
theorem cover2 (i : S153125x128.Idx) :
    ∃ t : Fin cfg2.N, (cfg2.win 4).flush t = true ∧ i ∈ ((cfg2.win 4).blk t).view.set := by
  have h0 : (i 0 : Nat) < 153125 := (i 0).isLt
  have ht : (i 0 : Nat) / 2048 < grid2.N := by rw [N_2]; omega
  refine ⟨⟨(i 0 : Nat) / 2048, ht⟩, flush2_4 _, ?_⟩
  show i ∈ (win2_4.blk ⟨(i 0 : Nat) / 2048, ht⟩).view.set
  rw [mem_blk2, idx0]
  have hx := xs0 ⟨(i 0 : Nat) / 2048, ht⟩
  show (i 0 : Nat) / 2048 * 2048 ≤ (i 0 : Nat)
    ∧ (i 0 : Nat) < (i 0 : Nat) / 2048 * 2048 + win2_4.xsize (grid2.coords ⟨(i 0 : Nat) / 2048, ht⟩) 0
  by_cases h74 : (i 0 : Nat) / 2048 < 74
  · rw [hx.1 h74]; omega
  · rw [hx.2 (by show (i 0 : Nat) / 2048 = 74; omega)]; omega

/-! ## The array after the run -/

/-- After the run the array of squared distances holds, at every entry, (a0 − b0)² + (a1 − b1)² of the four operand
    arrays' entries there. -/
theorem arr2 (c : Dev nD) :
    (dat2 (F := Ideal) V c).arrAt (4 : Fin 5) cfg2.N
      = fun i => Cert.Spec.sqd (V c main_v55 i) (V c main_v61 i) (V c main_v58 i) (V c main_v64 i) :=
  (dat2 (F := Ideal) V c).arrAt_eq_of_cover (4 : Fin 5) (G2 V c) (fun t _ => flushed2 V c t) cover2

end Cert.KernelIdeal.Fr

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.KI.Host01.lean ====
/-
  What the program's first two stretches of host operations compute, over the extended reals, as functions of the
  contents the stretch starts from.

  The first stretch cuts the edge list [2, 19600000] into its two rows (row 0 the destination words, row 1 the
  source words), counts per node the edges whose source word is the node (a scatter-add of ones into zeros), forms
  the counts over the counts with 1 in place of anything smaller (the scale, [400000, 1]), sums per node the
  attributes of those edges (a scatter-add of the [19600000, 3] attribute rows into zeros) over the same
  denominator, and cuts the first layer's four parameter arrays out of the stacked ones. The second stretch cuts
  out the second layer's four.

  A slice of one layer followed by the reshape that drops the unit axis reads the stacked array at that layer; a
  bias row goes [2, m] → [1, m] → [m] → [1, m] and reads the stacked array at (layer, column). A scatter-add by one
  word per update row adds, at (n, c), the updates' column c over the rows whose word, read signed, is n — the
  edges into n.
-/
import proofs.«406876_j85478439125102_3_alg».proof.Proof.Gen.KernelIdeal.Launch
import proofs.«406876_j85478439125102_3_alg».proof.Proof.Spec
import proofs.«406876_j85478439125102_3_alg».proof.Proof.LibRowOps
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.StableHlo Idealize.ShloMosaic.ValueIdx

variable (W : Valuation τ sig (Elt Ideal))

/-! ## Layout operations composed, read at an index -/

section Pure
variable {α : Type}

/-- A scalar broadcast to any shape is the constant function at the scalar. -/
theorem bcast_scalar_eq (t : Shape) (h : S_.BroadcastsInDim t (![] : Fin 0 → Fin t.rank)) (x : S_.Idx → α) :
    broadcastInDim t ![] h x = fun _ => x ix0 := by
  funext j
  exact broadcastInDim_apply _ h x j ix0 (fun a => a.elim0)

/-- A vector of 19600000 entries made a column: entry (e, 0) is entry e. -/
theorem bcast_col_eq (x : S19600000.Idx → α) :
    broadcastInDim S19600000x1 ![0] bcast_S19600000_S19600000x1_0 x = fun j => x (ix1 (j 0)) := by
  funext j
  exact broadcastInDim_apply _ bcast_S19600000_S19600000x1_0 x j (ix1 (j 0)) (fun a => match a with
    | ⟨0, _⟩ => by show (j 0).val = if (19600000 : Nat) = 1 then 0 else (j 0).val; rw [if_neg (by decide)])

/-- A [400000, 1] column repeated along three columns: entry (n, c) is entry (n, 0). -/
theorem bcast_rows3_eq (x : S400000x1.Idx → α) :
    broadcastInDim S400000x3 ![0, 1] bcast_S400000x1_S400000x3_0_1 x = fun j => x (ix2 (j 0) (0 : Fin 1)) := by
  funext j
  exact broadcastInDim_apply _ bcast_S400000x1_S400000x3_0_1 x j (ix2 (j 0) (0 : Fin 1)) (fun a => match a with
    | ⟨0, _⟩ => by show (j 0).val = if (400000 : Nat) = 1 then 0 else (j 0).val; rw [if_neg (by decide)]
    | ⟨1, _⟩ => by show 0 = if (1 : Nat) = 1 then 0 else (j 1).val; rw [if_pos rfl])

/-- Row `l` of a [2, 19600000] array as a vector. -/
theorem row_read (off : Fin 2 → Nat) (l : Fin 2) (h0 : off 0 = l.val) (h1 : off 1 = 0) (x : S2x19600000.Idx → α)
    (hs : S2x19600000.Slices off S1x19600000) :
    shapeCast S19600000 (extractStridedSlice S1x19600000 off x hs) shapeCasts_S1x19600000_S19600000
      = fun i => x (ix2 l (i 0)) := by
  funext i
  obtain ⟨e, rfl⟩ : ∃ e : Fin 19600000, i = ix1 e := ⟨i 0, eq_ix1 i⟩
  refine (shapeCast_apply _ shapeCasts_S1x19600000_S19600000 (ix1 e) (ix2 (0 : Fin 1) e) ?_).trans ?_
  · rewrite [Shape.rowMajor_val_two, Shape.rowMajor_val_one]
    show 0 * 19600000 + e.val = e.val
    omega
  exact extractStridedSlice_apply off x hs (ix2 (0 : Fin 1) e) (ix2 l e) (fun a => match a with
    | ⟨0, _⟩ => by show l.val = off 0 + 0; omega
    | ⟨1, _⟩ => by show e.val = off 1 + e.val; omega)

/-- Layer `l` of a [2, 7, 128] stack as a [7, 128] matrix. -/
theorem w1_read (off : Fin 3 → Nat) (l : Fin 2) (h0 : off 0 = l.val) (h1 : off 1 = 0) (h2 : off 2 = 0)
    (x : S2x7x128.Idx → α) (hs : S2x7x128.Slices off S1x7x128) :
    shapeCast S7x128 (extractStridedSlice S1x7x128 off x hs) shapeCasts_S1x7x128_S7x128
      = fun i => x (ix3 l (i 0) (i 1)) := by
  funext i
  obtain ⟨q, u, rfl⟩ : ∃ (q : Fin 7) (u : Fin 128), i = ix2 q u := ⟨i 0, i 1, eq_ix2 i⟩
  refine (shapeCast_apply _ shapeCasts_S1x7x128_S7x128 (ix2 q u) (ix3 (0 : Fin 1) q u) ?_).trans ?_
  · rewrite [Shape.rowMajor_val_three, Shape.rowMajor_val_two]
    show (0 * 7 + q.val) * 128 + u.val = q.val * 128 + u.val
    omega
  exact extractStridedSlice_apply off x hs (ix3 (0 : Fin 1) q u) (ix3 l q u) (fun a => match a with
    | ⟨0, _⟩ => by show l.val = off 0 + 0; omega
    | ⟨1, _⟩ => by show q.val = off 1 + q.val; omega
    | ⟨2, _⟩ => by show u.val = off 2 + u.val; omega)

/-- Layer `l` of a [2, 128, 2] stack as a [128, 2] matrix. -/
theorem w2_read (off : Fin 3 → Nat) (l : Fin 2) (h0 : off 0 = l.val) (h1 : off 1 = 0) (h2 : off 2 = 0)
    (x : S2x128x2.Idx → α) (hs : S2x128x2.Slices off S1x128x2) :
    shapeCast S128x2 (extractStridedSlice S1x128x2 off x hs) shapeCasts_S1x128x2_S128x2
      = fun i => x (ix3 l (i 0) (i 1)) := by
  funext i
  obtain ⟨q, u, rfl⟩ : ∃ (q : Fin 128) (u : Fin 2), i = ix2 q u := ⟨i 0, i 1, eq_ix2 i⟩
  refine (shapeCast_apply _ shapeCasts_S1x128x2_S128x2 (ix2 q u) (ix3 (0 : Fin 1) q u) ?_).trans ?_
  · rewrite [Shape.rowMajor_val_three, Shape.rowMajor_val_two]
    show (0 * 128 + q.val) * 2 + u.val = q.val * 2 + u.val
    omega
  exact extractStridedSlice_apply off x hs (ix3 (0 : Fin 1) q u) (ix3 l q u) (fun a => match a with
    | ⟨0, _⟩ => by show l.val = off 0 + 0; omega
    | ⟨1, _⟩ => by show q.val = off 1 + q.val; omega
    | ⟨2, _⟩ => by show u.val = off 2 + u.val; omega)

/-- Row `l` of a [2, 128] array, flattened and made a [1, 128] row again. -/
theorem b1_read (off : Fin 2 → Nat) (l : Fin 2) (h0 : off 0 = l.val) (h1 : off 1 = 0)
    (x : S2x128.Idx → α) (hs : S2x128.Slices off S1x128) :
    shapeCast S1x128 (shapeCast S128 (extractStridedSlice S1x128 off x hs) shapeCasts_S1x128_S128) shapeCasts_S128_S1x128
      = fun i => x (ix2 l (i 1)) := by
  funext i
  obtain ⟨z, u, rfl⟩ : ∃ (z : Fin 1) (u : Fin 128), i = ix2 z u := ⟨i 0, i 1, eq_ix2 i⟩
  refine (shapeCast_apply _ shapeCasts_S128_S1x128 (ix2 z u) (ix1 u) ?_).trans ?_
  · rewrite [Shape.rowMajor_val_two, Shape.rowMajor_val_one]
    show u.val = z.val * 128 + u.val
    have := z.isLt
    omega
  refine (shapeCast_apply _ shapeCasts_S1x128_S128 (ix1 u) (ix2 (0 : Fin 1) u) ?_).trans ?_
  · rewrite [Shape.rowMajor_val_two, Shape.rowMajor_val_one]
    show 0 * 128 + u.val = u.val
    omega
  exact extractStridedSlice_apply off x hs (ix2 (0 : Fin 1) u) (ix2 l u) (fun a => match a with
    | ⟨0, _⟩ => by show l.val = off 0 + 0; omega
    | ⟨1, _⟩ => by show u.val = off 1 + u.val; omega)

/-- Row `l` of a [2, 2] array, flattened and made a [1, 2] row again. -/
theorem b2_read (off : Fin 2 → Nat) (l : Fin 2) (h0 : off 0 = l.val) (h1 : off 1 = 0)
    (x : S2x2.Idx → α) (hs : S2x2.Slices off S1x2) :
    shapeCast S1x2 (shapeCast S2 (extractStridedSlice S1x2 off x hs) shapeCasts_S1x2_S2) shapeCasts_S2_S1x2
      = fun i => x (ix2 l (i 1)) := by
  funext i
  obtain ⟨z, u, rfl⟩ : ∃ (z : Fin 1) (u : Fin 2), i = ix2 z u := ⟨i 0, i 1, eq_ix2 i⟩
  refine (shapeCast_apply _ shapeCasts_S2_S1x2 (ix2 z u) (ix1 u) ?_).trans ?_
  · rewrite [Shape.rowMajor_val_two, Shape.rowMajor_val_one]
    show u.val = z.val * 2 + u.val
    have := z.isLt
    omega
  refine (shapeCast_apply _ shapeCasts_S1x2_S2 (ix1 u) (ix2 (0 : Fin 1) u) ?_).trans ?_
  · rewrite [Shape.rowMajor_val_two, Shape.rowMajor_val_one]
    show 0 * 2 + u.val = u.val
    omega
  exact extractStridedSlice_apply off x hs (ix2 (0 : Fin 1) u) (ix2 l u) (fun a => match a with
    | ⟨0, _⟩ => by show l.val = off 0 + 0; omega
    | ⟨1, _⟩ => by show u.val = off 1 + u.val; omega)

end Pure

/-! ## The eight parameter arrays -/

theorem h0_v17 : StableHlo.after hostOps0 W main_v17 = Cert.Spec.w1 (W main_arg3) 0 := by
  show StableHlo.after hostOps0 W (Proc.devRef .tc main_v17) = _
  after_results
  exact w1_read ![0, 0, 0] 0 rfl rfl rfl _ _

theorem h0_v24 : StableHlo.after hostOps0 W main_v24 = Cert.Spec.b1 (W main_arg4) 0 := by
  show StableHlo.after hostOps0 W (Proc.devRef .tc main_v24) = _
  after_results
  exact b1_read ![0, 0] 0 rfl rfl _ _

theorem h0_v21 : StableHlo.after hostOps0 W main_v21 = Cert.Spec.w2 (W main_arg5) 0 := by
  show StableHlo.after hostOps0 W (Proc.devRef .tc main_v21) = _
  after_results
  exact w2_read ![0, 0, 0] 0 rfl rfl rfl _ _

theorem h0_v25 : StableHlo.after hostOps0 W main_v25 = Cert.Spec.b2 (W main_arg6) 0 := by
  show StableHlo.after hostOps0 W (Proc.devRef .tc main_v25) = _
  after_results
  exact b2_read ![0, 0] 0 rfl rfl _ _

theorem h1_v28 : StableHlo.after hostOps1 W main_v28 = Cert.Spec.w1 (W main_arg3) 1 := by
  show StableHlo.after hostOps1 W (Proc.devRef .tc main_v28) = _
  after_results
  exact w1_read ![1, 0, 0] 1 rfl rfl rfl _ _

theorem h1_v35 : StableHlo.after hostOps1 W main_v35 = Cert.Spec.b1 (W main_arg4) 1 := by
  show StableHlo.after hostOps1 W (Proc.devRef .tc main_v35) = _
  after_results
  exact b1_read ![1, 0] 1 rfl rfl _ _

theorem h1_v32 : StableHlo.after hostOps1 W main_v32 = Cert.Spec.w2 (W main_arg5) 1 := by
  show StableHlo.after hostOps1 W (Proc.devRef .tc main_v32) = _
  after_results
  exact w2_read ![1, 0, 0] 1 rfl rfl rfl _ _

theorem h1_v36 : StableHlo.after hostOps1 W main_v36 = Cert.Spec.b2 (W main_arg6) 1 := by
  show StableHlo.after hostOps1 W (Proc.devRef .tc main_v36) = _
  after_results
  exact b2_read ![1, 0] 1 rfl rfl _ _

/-! ## The edges' words -/

theorem h0_v1 : StableHlo.after hostOps0 W main_v1 = fun i => Cert.Spec.dstOf (W main_arg1) (i 0) := by
  show StableHlo.after hostOps0 W (Proc.devRef .tc main_v1) = _
  after_results
  exact row_read ![0, 0] 0 rfl rfl _ _

theorem h0_v3 : StableHlo.after hostOps0 W main_v3 = fun i => Cert.Spec.srcOf (W main_arg1) (i 0) := by
  show StableHlo.after hostOps0 W (Proc.devRef .tc main_v3) = _
  after_results
  exact row_read ![1, 0] 1 rfl rfl _ _

/-! ## The counts, the scale and the aggregated attributes -/

section Sums

/-! The operations at the extended reals, read at an index. -/

theorem hostScatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl
theorem hostDivf_ideal {s : Shape} (x y : FVec Ideal s .f32) (i : s.Idx) :
    Host.divf (F := Ideal) x y i = Ideal.div (x i) (y i) := rfl
theorem maximumf_ideal {s : Shape} (x y : FVec Ideal s .f32) (i : s.Idx) :
    maximumf (F := Ideal) x y i = max (x i) (y i) := rfl
theorem constant_ideal (b : BitVec 32) (i : S_.Idx) : constant (F := Ideal) S_ .f32 b i = Ideal.ofBits .f32 b := rfl
theorem scatter1_eq : scatter_S400000x1_S19600000x1_S19600000x1_1_0_0_1
    = RowOps.rowScatter 400000 19600000 1 scatter_S400000x1_S19600000x1_S19600000x1_1_0_0_1_wf := rfl
theorem scatter3_eq : scatter_S400000x3_S19600000x1_S19600000x3_1_0_0_1
    = RowOps.rowScatter 400000 19600000 3 scatter_S400000x3_S19600000x1_S19600000x3_1_0_0_1_wf := rfl

variable {F : FTy → Type} [FloatOps F]

/-- The scatter-add of ones into zeros by a vector of words. -/
def cntV (s : IVec S19600000 32) : FVec F S400000x1 .f32 :=
  Host.scatterAdd scatter_S400000x1_S19600000x1_S19600000x1_1_0_0_1
    (broadcastInDim S400000x1 ![] bcast_S_S400000x1 (constant S_ .f32 0x00000000#32))
    (broadcastInDim S19600000x1 ![0] bcast_S19600000_S19600000x1_0 s)
    (broadcastInDim S19600000x1 ![] bcast_S_S19600000x1 (constant S_ .f32 0x3F800000#32))

/-- That, with 1 in place of anything smaller. -/
def denV (s : IVec S19600000 32) : FVec F S400000x1 .f32 :=
  maximumf (cntV s) (broadcastInDim S400000x1 ![] bcast_S_S400000x1 (constant S_ .f32 0x3F800000#32))

/-- Their quotient. -/
def scaleV (s : IVec S19600000 32) : FVec F S400000x1 .f32 := Host.divf (cntV s) (denV s)

/-- The scatter-add of rows of attributes into zeros by a vector of words, over `denV`. -/
def aggV (s : IVec S19600000 32) (EA : FVec F S19600000x3 .f32) : FVec F S400000x3 .f32 :=
  Host.divf
    (Host.scatterAdd scatter_S400000x3_S19600000x1_S19600000x3_1_0_0_1
      (broadcastInDim S400000x3 ![] bcast_S_S400000x3 (constant S_ .f32 0x00000000#32))
      (broadcastInDim S19600000x1 ![0] bcast_S19600000_S19600000x1_0 s)
      EA)
    (broadcastInDim S400000x3 ![0, 1] bcast_S400000x1_S400000x3_0_1 (denV s))

/-- The scatter-add of ones by the source words, read at node `n`: zero plus one per edge into `n`. -/
theorem cnt_read (src : Fin 19600000 → BitVec 32) (n : Fin 400000) (k : Fin 1) :
    cntV (F := Ideal) (fun i => src (i 0)) (ix2 n k) = Cert.Spec.cnt src n := by
  unfold cntV
  rw [hostScatterAdd_ideal, scatter1_eq, bcast_scalar_eq, bcast_scalar_eq, bcast_col_eq]
  refine (RowOps.rowScatterAdd_apply scatter_S400000x1_S19600000x1_S19600000x1_1_0_0_1_wf _ _ _ n k).trans ?_
  unfold Cert.Spec.cnt Cert.Spec.into
  exact congrArg₂ (· + ·) (constant_ideal _ _)
    (Finset.sum_congr (Finset.filter_congr (fun e _ => Iff.rfl)) (fun e _ => constant_ideal _ _))

theorem den_read (src : Fin 19600000 → BitVec 32) (n : Fin 400000) (k : Fin 1) :
    denV (F := Ideal) (fun i => src (i 0)) (ix2 n k) = Cert.Spec.den src n := by
  unfold denV
  rw [maximumf_ideal, cnt_read, bcast_scalar_eq]
  unfold Cert.Spec.den
  exact congrArg (max (Cert.Spec.cnt src n)) (constant_ideal _ _)

/-- The counts over the counts with 1 in place of 0: the scale. -/
theorem scale_read (src : Fin 19600000 → BitVec 32) :
    scaleV (F := Ideal) (fun i => src (i 0)) = Cert.Spec.scale src := by
  funext i
  obtain ⟨n, k, rfl⟩ : ∃ (n : Fin 400000) (k : Fin 1), i = ix2 n k := ⟨i 0, i 1, eq_ix2 i⟩
  unfold scaleV
  rw [hostDivf_ideal, cnt_read, den_read]
  rfl

/-- The scatter-add of the edge attributes by the source words over the counts with 1 in place of 0. -/
theorem agg_read (src : Fin 19600000 → BitVec 32) (EA : S19600000x3.Idx → EReal) :
    aggV (F := Ideal) (fun i => src (i 0)) EA = Cert.Spec.aggA src EA := by
  funext i
  obtain ⟨n, c, rfl⟩ : ∃ (n : Fin 400000) (c : Fin 3), i = ix2 n c := ⟨i 0, i 1, eq_ix2 i⟩
  unfold aggV
  rw [hostDivf_ideal, bcast_rows3_eq]
  show Ideal.div _ (denV (F := Ideal) (fun i => src (i 0)) (ix2 n (0 : Fin 1))) = _
  rw [den_read, hostScatterAdd_ideal, scatter3_eq, bcast_scalar_eq, bcast_col_eq]
  refine congrArg (Ideal.div · (Cert.Spec.den src n)) ?_
  refine (RowOps.rowScatterAdd_apply scatter_S400000x3_S19600000x1_S19600000x3_1_0_0_1_wf _ _ _ n c).trans ?_
  unfold Cert.Spec.into
  exact congrArg₂ (· + ·) (constant_ideal _ _)
    (Finset.sum_congr (Finset.filter_congr (fun e _ => Iff.rfl)) (fun e _ => rfl))

/-- What the first host stretch leaves in the scale's and the aggregated attributes' buffers, at any float instance. -/
theorem run_v10 (V : Valuation τ sig (Elt F)) :
    StableHlo.after hostOps0 V (Proc.devRef .tc main_v10)
      = scaleV (F := F) (shapeCast S19600000 (extractStridedSlice S1x19600000 ![1, 0] (V main_arg1) slices_S2x19600000_S1x19600000_1_0)
          shapeCasts_S1x19600000_S19600000) := by
  after_results
  rfl

set_option maxHeartbeats 1000000 in
theorem run_v15 (V : Valuation τ sig (Elt F)) :
    StableHlo.after hostOps0 V (Proc.devRef .tc main_v15)
      = aggV (F := F) (shapeCast S19600000 (extractStridedSlice S1x19600000 ![1, 0] (V main_arg1) slices_S2x19600000_S1x19600000_1_0)
          shapeCasts_S1x19600000_S19600000) (V main_arg2) := by
  after_results
  rfl

end Sums

theorem h0_v10 : StableHlo.after hostOps0 W main_v10 = Cert.Spec.scale (Cert.Spec.srcOf (W main_arg1)) := by
  refine (run_v10 W).trans ?_
  rw [row_read ![1, 0] 1 rfl rfl]
  exact scale_read (Cert.Spec.srcOf (W main_arg1))

theorem h0_v15 : StableHlo.after hostOps0 W main_v15 = Cert.Spec.aggA (Cert.Spec.srcOf (W main_arg1)) (W main_arg2) := by
  refine (run_v15 W).trans ?_
  rw [row_read ![1, 0] 1 rfl rfl]
  exact agg_read (Cert.Spec.srcOf (W main_arg1)) (W main_arg2)

end Cert.KernelIdeal.Fr
end
-- ==== Proof.KI.Host23.lean ====
/-
  What the program's last two host stretches compute, read at an index, over the extended reals.

  After the second layer the node features x are a 400000 × 2 table. Each edge e has a destination word and a source
  word; a word w selects the table row rowOf w (a negative word counts from the end, the result clamped into the table).
  The stretch before the distance region transposes the table to 2 × 400000, gathers, per endpoint, the COLUMNS the
  edges' words select (a 2 × 19600000 array: coordinate k of the endpoint of edge e), takes each of its two rows and
  lays it out as 153125 rows of 128 edges: entry (r, l) of a laid-out row is edge 128·r + l. So the four operands of the
  distance region are, at (r, l), x at (rowOf (word of edge 128·r + l), k) for the two endpoints and the two coordinates k.
  The stretch after the region lays the 153125 × 128 result out as a column: entry e is entry (e / 128, e % 128).

  First the column gather read at an index: operand [C, N], one start word per result column (start indices [E, 1]),
  result [C, E]: result element (k, e) is the operand at (k, the start word of e read signed and clamped into [0, N - 1]).
-/
import proofs.«406876_j85478439125102_3_alg».proof.Proof.Gen.KernelIdeal.Launch
import proofs.«406876_j85478439125102_3_alg».proof.Proof.Spec
import proofs.«406876_j85478439125102_3_alg».proof.Proof.LibRowOps
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Idealize.ShloMosaic.RowOps

open Idealize.ShloMosaic Idealize.ShloMosaic.ValueIdx

/-- The dimension numbers of a column gather: operand [C, N], start indices [E, 1], result [C, E]. -/
abbrev colGather (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT (k, e): the table at row k, the clamped start column of e. -/
theorem colGather_apply {α : Type} {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (k : Fin C) (e : Fin E) :
    Host.gather (colGather C N E wf) x idx (ix2 k e)
      = x (ix2 k (⟨min (idx (ix2 e (0 : Fin 1))).toInt.toNat (N - 1), by omega⟩ : Fin N)) := by
  unfold Host.gather
  congr 1
  funext a
  refine Fin.ext ?_
  match a with
  | ⟨0, _⟩ =>
    show (colGather C N E wf).start (ix2 k e) idx 0 + (colGather C N E wf).batchCoord (ix2 k e) 0
      + (colGather C N E wf).offCoord (ix2 k e) 0 = k.val
    rw [GatherDims.batchCoord_eq_zero _ _ _ List.not_mem_nil]
    unfold GatherDims.start
    rw [dif_neg (show (0 : Fin 2) ∉ ([1] : List (Fin 2)) by decide)]
    simp only [Nat.add_zero, Nat.zero_add]
    unfold GatherDims.offCoord
    rw [dif_pos ((GatherDims.mem_sKept _ _).mpr ⟨(show (0 : Fin 2) ∉ ([1] : List (Fin 2)) by decide), List.not_mem_nil⟩)]
    rfl
  | ⟨1, _⟩ =>
    show (colGather C N E wf).start (ix2 k e) idx 1 + (colGather C N E wf).batchCoord (ix2 k e) 1
      + (colGather C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGather C N E wf).startIndexMap from List.mem_singleton.mpr rfl)]
    have hsi : (colGather C N E wf).siIdx (ix2 k e) ⟨List.idxOf (1 : Fin 2) (colGather C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.RowOps

namespace Cert.KernelIdeal.Fr

open Cert.KernelIdeal Cert.KernelIdeal.Gen
open Idealize.ShloMosaic Idealize.ShloMosaic.TcCoe Idealize.ShloMosaic.StableHlo Idealize.ShloMosaic.ValueIdx

/-- The program's gather read at (k, e): the transposed table at row k, the clamped start column of e. -/
theorem gatherCols_apply {α : Type} {w : Nat} (x : S2x400000.Idx → α) (idx : IVec S19600000x1 w) (k : Fin 2) (e : Fin 19600000) :
    Host.gather gather_S2x400000_S19600000x1_S2x19600000_0_1_n_n_1_1_21 x idx (ix2 k e)
      = x (ix2 k (⟨min (idx (ix2 e (0 : Fin 1))).toInt.toNat (400000 - 1), by omega⟩ : Fin 400000)) :=
  Idealize.ShloMosaic.RowOps.colGather_apply (by decide) gather_S2x400000_S19600000x1_S2x19600000_0_1_n_n_1_1_21_wf x idx k e

/-- Entry (r, l) of the 153125 × 128 layout is edge 128·r + l. -/
def edgeOf (r : Fin 153125) (l : Fin 128) : Fin 19600000 := ⟨r.val * 128 + l.val, by omega⟩

/-! ## The stretch before the distance region -/

/-- The wrapped start words, one per edge, as the stretch forms them from the words `wd`: a negative word has
    400000 added. -/
abbrev wrapped (wd : S19600000.Idx → BitVec 32) : IVec S19600000x1 32 :=
  broadcastInDim S19600000x1 ![0] bcast_S19600000_S19600000x1_0
    (select (cmpi .slt wd (broadcastInDim S19600000 ![] bcast_S_S19600000 (constantI S_ 32 0#32)))
      (addi wd (broadcastInDim S19600000 ![] bcast_S_S19600000 (constantI S_ 32 400000#32))) wd)

/-- The wrapped start word of edge e. -/
theorem wrapped_apply (wd : S19600000.Idx → BitVec 32) (e : Fin 19600000) :
    wrapped wd (ix2 e (0 : Fin 1))
      = Scalar.select (IntOp.cmpi .slt (wd (ix1 e)) 0#32) (IntOp.addi (wd (ix1 e)) 400000#32) (wd (ix1 e)) := by
  refine (broadcastInDim_apply _ bcast_S19600000_S19600000x1_0 _ (ix2 e (0 : Fin 1)) (ix1 e) (fun a => match a with
    | ⟨0, _⟩ => by show e.val = if (19600000 : Nat) = 1 then 0 else e.val; rw [if_neg (by decide)])).trans ?_
  rfl

/-- The gathered columns of the transposed table: element (k, e) is the table at (the row the word of e selects, k). -/
theorem gathered_apply {α : Type} (x : S400000x2.Idx → α) (wd : S19600000.Idx → BitVec 32) (k : Fin 2) (e : Fin 19600000) :
    Host.gather gather_S2x400000_S19600000x1_S2x19600000_0_1_n_n_1_1_21
        (transpose S2x400000 [1, 0] x transposes_S400000x2_S2x400000_1_0) (wrapped wd) (ix2 k e)
      = x (ix2 (Cert.Spec.rowOf (wd (ix1 e))) k) := by
  refine (gatherCols_apply _ _ k e).trans ?_
  refine (transpose_apply [1, 0] x transposes_S400000x2_S2x400000_1_0 _ (ix2 (Cert.Spec.rowOf (wd (ix1 e))) k) (fun b => match b with
    | ⟨0, _⟩ => rfl
    | ⟨1, _⟩ => ?_))
  show (Cert.Spec.rowOf (wd (ix1 e))).val = min (wrapped wd (ix2 e (0 : Fin 1))).toInt.toNat (400000 - 1)
  rw [wrapped_apply]
  rfl

/-- Row k of a 2 × 19600000 array laid out as 153125 rows of 128: entry (r, l) is element (k, 128·r + l). -/
theorem laidOut_apply {α : Type} (k : Fin 2) (off : Fin 2 → Nat) (hoff0 : off 0 = k.val) (hoff1 : off 1 = 0)
    (h : S2x19600000.Slices off S1x19600000) (y : S2x19600000.Idx → α) (i : S153125x128.Idx) :
    shapeCast S153125x128 (shapeCast S19600000 (extractStridedSlice S1x19600000 off y h) shapeCasts_S1x19600000_S19600000)
        shapeCasts_S19600000_S153125x128 i
      = y (ix2 k (edgeOf (i 0) (i 1))) := by
  have h0 : (i 0).val < 153125 := (i 0).isLt
  have h1 : (i 1).val < 128 := (i 1).isLt
  refine (shapeCast_apply _ shapeCasts_S19600000_S153125x128 i (ix1 (edgeOf (i 0) (i 1))) ?_).trans ?_
  · rw [Shape.rowMajor_val_one, Shape.rowMajor_val_two]
    rfl
  refine (shapeCast_apply _ shapeCasts_S1x19600000_S19600000 (ix1 (edgeOf (i 0) (i 1)))
    (ix2 (0 : Fin 1) (edgeOf (i 0) (i 1))) ?_).trans ?_
  · rw [Shape.rowMajor_val_one, Shape.rowMajor_val_two]
    show 0 * 19600000 + (edgeOf (i 0) (i 1)).val = (edgeOf (i 0) (i 1)).val
    omega
  refine extractStridedSlice_apply off y h _ (ix2 k (edgeOf (i 0) (i 1))) (fun a => match a with
    | ⟨0, _⟩ => ?_
    | ⟨1, _⟩ => ?_)
  · show k.val = off 0 + 0
    omega
  · show (edgeOf (i 0) (i 1)).val = off 1 + (edgeOf (i 0) (i 1)).val
    omega

/-! ## The stretches' terms, for any float instance -/

section Terms
variable {F : FTy → Type} [FloatOps F]

set_option maxHeartbeats 4000000 in
/-- The stretch's term for the operand: row 0 of the columns gathered by the destination words, laid out. -/
theorem t_v55 (W : Valuation τ sig (Elt F)) :
    StableHlo.after hostOps2 W (Proc.devRef .tc main_v55)
      = shapeCast S153125x128 (shapeCast S19600000 (extractStridedSlice S1x19600000 ![0, 0]
          (Host.gather gather_S2x400000_S19600000x1_S2x19600000_0_1_n_n_1_1_21
            (transpose S2x400000 [1, 0] (W (Proc.devRef .tc main_v37)) transposes_S400000x2_S2x400000_1_0)
            (wrapped (W (Proc.devRef .tc main_v1)))) slices_S2x19600000_S1x19600000_0_0) shapeCasts_S1x19600000_S19600000)
          shapeCasts_S19600000_S153125x128 := by
  after_results
  rfl

set_option maxHeartbeats 4000000 in
/-- The stretch's term for the operand: row 1 of the columns gathered by the destination words, laid out. -/
theorem t_v58 (W : Valuation τ sig (Elt F)) :
    StableHlo.after hostOps2 W (Proc.devRef .tc main_v58)
      = shapeCast S153125x128 (shapeCast S19600000 (extractStridedSlice S1x19600000 ![1, 0]
          (Host.gather gather_S2x400000_S19600000x1_S2x19600000_0_1_n_n_1_1_21
            (transpose S2x400000 [1, 0] (W (Proc.devRef .tc main_v37)) transposes_S400000x2_S2x400000_1_0)
            (wrapped (W (Proc.devRef .tc main_v1)))) slices_S2x19600000_S1x19600000_1_0) shapeCasts_S1x19600000_S19600000)
          shapeCasts_S19600000_S153125x128 := by
  after_results
  rfl

set_option maxHeartbeats 4000000 in
/-- The stretch's term for the operand: row 0 of the columns gathered by the source words, laid out. -/
theorem t_v61 (W : Valuation τ sig (Elt F)) :
    StableHlo.after hostOps2 W (Proc.devRef .tc main_v61)
      = shapeCast S153125x128 (shapeCast S19600000 (extractStridedSlice S1x19600000 ![0, 0]
          (Host.gather gather_S2x400000_S19600000x1_S2x19600000_0_1_n_n_1_1_21
            (transpose S2x400000 [1, 0] (W (Proc.devRef .tc main_v37)) transposes_S400000x2_S2x400000_1_0)
            (wrapped (W (Proc.devRef .tc main_v3)))) slices_S2x19600000_S1x19600000_0_0) shapeCasts_S1x19600000_S19600000)
          shapeCasts_S19600000_S153125x128 := by
  after_results
  rfl

set_option maxHeartbeats 4000000 in
/-- The stretch's term for the operand: row 1 of the columns gathered by the source words, laid out. -/
theorem t_v64 (W : Valuation τ sig (Elt F)) :
    StableHlo.after hostOps2 W (Proc.devRef .tc main_v64)
      = shapeCast S153125x128 (shapeCast S19600000 (extractStridedSlice S1x19600000 ![1, 0]
          (Host.gather gather_S2x400000_S19600000x1_S2x19600000_0_1_n_n_1_1_21
            (transpose S2x400000 [1, 0] (W (Proc.devRef .tc main_v37)) transposes_S400000x2_S2x400000_1_0)
            (wrapped (W (Proc.devRef .tc main_v3)))) slices_S2x19600000_S1x19600000_1_0) shapeCasts_S1x19600000_S19600000)
          shapeCasts_S19600000_S153125x128 := by
  after_results
  rfl

/-- The last stretch's term: one reshape. -/
theorem t_v66 (W : Valuation τ sig (Elt F)) :
    StableHlo.after hostOps3 W (Proc.devRef .tc main_v66)
      = shapeCast S19600000x1 (W (Proc.devRef .tc main_v65)) shapeCasts_S153125x128_S19600000x1 := by
  after_results
  rfl

end Terms

/-! ## The stretches read at an index, over the extended reals -/

variable (W : Valuation τ sig (Elt Ideal))

/-- Coordinate 0 of the destination endpoint of each edge, laid out. -/
theorem h2_v55 :
    (StableHlo.after hostOps2 W main_v55 : S153125x128.Idx → EReal)
      = fun i => (W main_v37 : S400000x2.Idx → EReal)
          (ix2 (Cert.Spec.rowOf ((W main_v1 : S19600000.Idx → BitVec 32) (ix1 (edgeOf (i 0) (i 1))))) (0 : Fin 2)) := by
  funext i
  refine (congrFun (t_v55 W) i).trans ?_
  refine (laidOut_apply (0 : Fin 2) ![0, 0] rfl rfl slices_S2x19600000_S1x19600000_0_0 _ i).trans ?_
  exact gathered_apply _ _ (0 : Fin 2) _

/-- Coordinate 1 of the destination endpoint of each edge, laid out. -/
theorem h2_v58 :
    (StableHlo.after hostOps2 W main_v58 : S153125x128.Idx → EReal)
      = fun i => (W main_v37 : S400000x2.Idx → EReal)
          (ix2 (Cert.Spec.rowOf ((W main_v1 : S19600000.Idx → BitVec 32) (ix1 (edgeOf (i 0) (i 1))))) (1 : Fin 2)) := by
  funext i
  refine (congrFun (t_v58 W) i).trans ?_
  refine (laidOut_apply (1 : Fin 2) ![1, 0] rfl rfl slices_S2x19600000_S1x19600000_1_0 _ i).trans ?_
  exact gathered_apply _ _ (1 : Fin 2) _

/-- Coordinate 0 of the source endpoint of each edge, laid out. -/
theorem h2_v61 :
    (StableHlo.after hostOps2 W main_v61 : S153125x128.Idx → EReal)
      = fun i => (W main_v37 : S400000x2.Idx → EReal)
          (ix2 (Cert.Spec.rowOf ((W main_v3 : S19600000.Idx → BitVec 32) (ix1 (edgeOf (i 0) (i 1))))) (0 : Fin 2)) := by
  funext i
  refine (congrFun (t_v61 W) i).trans ?_
  refine (laidOut_apply (0 : Fin 2) ![0, 0] rfl rfl slices_S2x19600000_S1x19600000_0_0 _ i).trans ?_
  exact gathered_apply _ _ (0 : Fin 2) _

/-- Coordinate 1 of the source endpoint of each edge, laid out. -/
theorem h2_v64 :
    (StableHlo.after hostOps2 W main_v64 : S153125x128.Idx → EReal)
      = fun i => (W main_v37 : S400000x2.Idx → EReal)
          (ix2 (Cert.Spec.rowOf ((W main_v3 : S19600000.Idx → BitVec 32) (ix1 (edgeOf (i 0) (i 1))))) (1 : Fin 2)) := by
  funext i
  refine (congrFun (t_v64 W) i).trans ?_
  refine (laidOut_apply (1 : Fin 2) ![1, 0] rfl rfl slices_S2x19600000_S1x19600000_1_0 _ i).trans ?_
  exact gathered_apply _ _ (1 : Fin 2) _

/-- The last stretch: the 153125 × 128 result laid out as a column; entry e is entry (e / 128, e % 128). -/
theorem h3_v66 :
    (StableHlo.after hostOps3 W main_v66 : S19600000x1.Idx → EReal)
      = fun i => (W main_v65 : S153125x128.Idx → EReal)
          (ix2 (⟨(i 0).val / 128, by have h : (i 0).val < 19600000 := (i 0).isLt; omega⟩ : Fin 153125)
            (⟨(i 0).val % 128, Nat.mod_lt _ (by decide)⟩ : Fin 128)) := by
  funext i
  refine (congrFun (t_v66 W) i).trans ?_
  refine shapeCast_apply _ shapeCasts_S153125x128_S19600000x1 i _ ?_
  rw [Shape.rowMajor_val_two, Shape.rowMajor_val_two]
  have h : (i 0).val < 19600000 := (i 0).isLt
  have h1 : (i 1).val < 1 := (i 1).isLt
  show ((i 0).val / 128) * 128 + (i 0).val % 128 = (i 0).val * 1 + (i 1).val
  omega

end Cert.KernelIdeal.Fr

end
-- ==== Proof.KI.KVal.lean ====
/-
  What the idealized kernel program leaves in its result, as a function of the launch contents of its arguments:
  the specification's `G`. The buffer contents are followed through the seven segments of the run: the first host
  stretch computes the per-node scale and aggregated attributes and cuts out the first layer's parameters; the first
  region's result array is the first layer of the node features; the second stretch cuts out the second layer's
  parameters; the second region's result is the second layer; the third stretch reads its rows at the edges'
  endpoints, one coordinate at a time, laid out 128 edges to a row; the third region's result is, entry by entry,
  the squared distance; the last stretch lays the entries out one edge to a row. No stretch writes an argument or an
  earlier stretch's result that a later one reads, and a region changes only its result array.
-/
import proofs.«406876_j85478439125102_3_alg».proof.Proof.KI.Segs
import proofs.«406876_j85478439125102_3_alg».proof.Proof.KI.Val0
import proofs.«406876_j85478439125102_3_alg».proof.Proof.KI.Val1
import proofs.«406876_j85478439125102_3_alg».proof.Proof.KI.Val2
import proofs.«406876_j85478439125102_3_alg».proof.Proof.KI.Host01
import proofs.«406876_j85478439125102_3_alg».proof.Proof.KI.Host23
import proofs.«406876_j85478439125102_3_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-! ## What each boundary keeps -/

/-- The first stretch writes none of these. -/
theorem W1_keep (b : Ref sig .tc) (h0 : b ∉ hostOps0_W) : W1 m ρ c (Proc.devRef .tc b) = m ((c : Thread nD τ).loc b) :=
  (StableHlo.after_of_writes_sub hostOps0 _ hostOps0_writes h0).trans rfl
/-- The first region changes only its result array. -/
theorem W2_keep (b : Ref sig .tc) (n0 : ∀ w, Pipeline.arrRef spec0 w ≠ b) : W2 m ρ c (Proc.devRef .tc b) = W1 m ρ c (Proc.devRef .tc b) :=
  W2_of_ne m ρ c b n0
/-- An operand array of the first region is left as entered. -/
theorem W2_in (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W3_keep (b : Ref sig .tc) (h1 : b ∉ hostOps1_W) : W3 m ρ c (Proc.devRef .tc b) = W2 m ρ c (Proc.devRef .tc b) :=
  StableHlo.after_of_writes_sub hostOps1 _ hostOps1_writes h1
theorem W4_keep (b : Ref sig .tc) (n1 : ∀ w, Pipeline.arrRef spec1 w ≠ b) : W4 m ρ c (Proc.devRef .tc b) = W3 m ρ c (Proc.devRef .tc b) :=
  W4_of_ne m ρ c b n1
theorem W5_keep (b : Ref sig .tc) (h2 : b ∉ hostOps2_W) : W5 m ρ c (Proc.devRef .tc b) = W4 m ρ c (Proc.devRef .tc b) :=
  StableHlo.after_of_writes_sub hostOps2 _ hostOps2_writes h2

/-! ## The arguments, named -/

abbrev aX : Cert.Spec.SX.Idx → EReal := m ((c : Thread nD τ).loc main_arg0)
abbrev aEI : IVec Cert.Spec.SEI 32 := m ((c : Thread nD τ).loc main_arg1)
abbrev aEA : Cert.Spec.SEA.Idx → EReal := m ((c : Thread nD τ).loc main_arg2)
abbrev aW1 : Cert.Spec.SW1a.Idx → EReal := m ((c : Thread nD τ).loc main_arg3)
abbrev aB1 : Cert.Spec.SB1a.Idx → EReal := m ((c : Thread nD τ).loc main_arg4)
abbrev aW2 : Cert.Spec.SW2a.Idx → EReal := m ((c : Thread nD τ).loc main_arg5)
abbrev aB2 : Cert.Spec.SB2a.Idx → EReal := m ((c : Thread nD τ).loc main_arg6)

abbrev sc : Cert.Spec.SS.Idx → EReal := Cert.Spec.scale (Cert.Spec.srcOf (aEI m c))
abbrev ag : Cert.Spec.SA.Idx → EReal := Cert.Spec.aggA (Cert.Spec.srcOf (aEI m c)) (aEA m c)
/-- The node features after the first layer, and after the second. -/
abbrev x1 : Cert.Spec.SX.Idx → EReal :=
  Cert.Spec.layerK (aX m c) (sc m c) (ag m c) (Cert.Spec.w1 (aW1 m c) 0) (Cert.Spec.b1 (aB1 m c) 0) (Cert.Spec.w2 (aW2 m c) 0) (Cert.Spec.b2 (aB2 m c) 0)
abbrev x2 : Cert.Spec.SX.Idx → EReal :=
  Cert.Spec.layerK (x1 m c) (sc m c) (ag m c) (Cert.Spec.w1 (aW1 m c) 1) (Cert.Spec.b1 (aB1 m c) 1) (Cert.Spec.w2 (aW2 m c) 1) (Cert.Spec.b2 (aB2 m c) 1)

/-! ## The first stretch and the first region -/

theorem V1_v10 : V1 m ρ c main_v10 = sc m c := h0_v10 (W0 m ρ c)
theorem V1_v15 : V1 m ρ c main_v15 = ag m c := h0_v15 (W0 m ρ c)
theorem V1_v17 : V1 m ρ c main_v17 = Cert.Spec.w1 (aW1 m c) 0 := h0_v17 (W0 m ρ c)
theorem V1_v24 : V1 m ρ c main_v24 = Cert.Spec.b1 (aB1 m c) 0 := h0_v24 (W0 m ρ c)
theorem V1_v21 : V1 m ρ c main_v21 = Cert.Spec.w2 (aW2 m c) 0 := h0_v21 (W0 m ρ c)
theorem V1_v25 : V1 m ρ c main_v25 = Cert.Spec.b2 (aB2 m c) 0 := h0_v25 (W0 m ρ c)
theorem V1_v1 : V1 m ρ c main_v1 = fun i => Cert.Spec.dstOf (aEI m c) (i 0) := h0_v1 (W0 m ρ c)
theorem V1_v3 : V1 m ρ c main_v3 = fun i => Cert.Spec.srcOf (aEI m c) (i 0) := h0_v3 (W0 m ρ c)
theorem V1_arg0 : V1 m ρ c main_arg0 = aX m c := W1_keep m ρ c main_arg0 (by decide)

/-- The first region's result array: the first layer. -/
theorem W2_v26 : W2 m ρ c (Proc.devRef .tc main_v26) = x1 m c := by
  refine (W2_arr m ρ c 7).trans ?_
  rw [arr0 (V1 m ρ) c, V1_arg0, V1_v10, V1_v15, V1_v17, V1_v24, V1_v21, V1_v25]

/-! ## The second stretch and the second region -/

theorem V3_v26 : V3 m ρ c main_v26 = x1 m c := (W3_keep m ρ c main_v26 (by decide)).trans (W2_v26 m ρ c)
theorem V3_v10 : V3 m ρ c main_v10 = sc m c :=
  (W3_keep m ρ c main_v10 (by decide)).trans ((W2_in m ρ c 1 rfl).trans (V1_v10 m ρ c))
theorem V3_v15 : V3 m ρ c main_v15 = ag m c :=
  (W3_keep m ρ c main_v15 (by decide)).trans ((W2_in m ρ c 2 rfl).trans (V1_v15 m ρ c))
theorem W2_arg (b : Ref sig .tc) (h0 : b ∉ hostOps0_W) (n0 : ∀ w, Pipeline.arrRef spec0 w ≠ b) :
    W2 m ρ c (Proc.devRef .tc b) = m ((c : Thread nD τ).loc b) := (W2_keep m ρ c b n0).trans (W1_keep m ρ c b h0)
theorem V3_v28 : V3 m ρ c main_v28 = Cert.Spec.w1 (aW1 m c) 1 := by
  refine (h1_v28 (W2 m ρ c)).trans ?_; rw [W2_arg m ρ c main_arg3 (by decide) (by decide)]
theorem V3_v35 : V3 m ρ c main_v35 = Cert.Spec.b1 (aB1 m c) 1 := by
  refine (h1_v35 (W2 m ρ c)).trans ?_; rw [W2_arg m ρ c main_arg4 (by decide) (by decide)]
theorem V3_v32 : V3 m ρ c main_v32 = Cert.Spec.w2 (aW2 m c) 1 := by
  refine (h1_v32 (W2 m ρ c)).trans ?_; rw [W2_arg m ρ c main_arg5 (by decide) (by decide)]
theorem V3_v36 : V3 m ρ c main_v36 = Cert.Spec.b2 (aB2 m c) 1 := by
  refine (h1_v36 (W2 m ρ c)).trans ?_; rw [W2_arg m ρ c main_arg6 (by decide) (by decide)]

/-- The second region's result array: the second layer. -/
theorem W4_v37 : W4 m ρ c (Proc.devRef .tc main_v37) = x2 m c := by
  refine (W4_arr m ρ c 7).trans ?_
  rw [arr1 (V3 m ρ) c, V3_v26, V3_v10, V3_v15, V3_v28, V3_v35, V3_v32, V3_v36]

/-- The edges' words reach the third stretch as the first stretch left them. -/
theorem W4_v1 : W4 m ρ c (Proc.devRef .tc main_v1) = fun i => Cert.Spec.dstOf (aEI m c) (i 0) :=
  (W4_keep m ρ c main_v1 (by decide)).trans ((W3_keep m ρ c main_v1 (by decide)).trans ((W2_keep m ρ c main_v1 (by decide)).trans (V1_v1 m ρ c)))
theorem W4_v3 : W4 m ρ c (Proc.devRef .tc main_v3) = fun i => Cert.Spec.srcOf (aEI m c) (i 0) :=
  (W4_keep m ρ c main_v3 (by decide)).trans ((W3_keep m ρ c main_v3 (by decide)).trans ((W2_keep m ρ c main_v3 (by decide)).trans (V1_v3 m ρ c)))

/-! ## The third stretch, the third region, the last stretch -/

/-- The third stretch reads the second layer's rows at the edges' endpoints, one coordinate at a time. -/
theorem V5_v55 : V5 m ρ c main_v55
    = fun i => x2 m c (ix2 (Cert.Spec.rowOf (Cert.Spec.dstOf (aEI m c) (edgeOf (i 0) (i 1)))) (0 : Fin 2)) := by
  refine (h2_v55 (W4 m ρ c)).trans ?_
  rw [W4_v37, W4_v1]
  rfl
theorem V5_v58 : V5 m ρ c main_v58
    = fun i => x2 m c (ix2 (Cert.Spec.rowOf (Cert.Spec.dstOf (aEI m c) (edgeOf (i 0) (i 1)))) (1 : Fin 2)) := by
  refine (h2_v58 (W4 m ρ c)).trans ?_
  rw [W4_v37, W4_v1]
  rfl
theorem V5_v61 : V5 m ρ c main_v61
    = fun i => x2 m c (ix2 (Cert.Spec.rowOf (Cert.Spec.srcOf (aEI m c) (edgeOf (i 0) (i 1)))) (0 : Fin 2)) := by
  refine (h2_v61 (W4 m ρ c)).trans ?_
  rw [W4_v37, W4_v3]
  rfl
theorem V5_v64 : V5 m ρ c main_v64
    = fun i => x2 m c (ix2 (Cert.Spec.rowOf (Cert.Spec.srcOf (aEI m c) (edgeOf (i 0) (i 1)))) (1 : Fin 2)) := by
  refine (h2_v64 (W4 m ρ c)).trans ?_
  rw [W4_v37, W4_v3]
  rfl

/-- The third region's result array: per entry, the squared distance between the endpoints of the entry's edge. -/
theorem W6_v65 : W6 m ρ c (Proc.devRef .tc main_v65)
    = fun j => Cert.Spec.sqd
        (x2 m c (ix2 (Cert.Spec.rowOf (Cert.Spec.dstOf (aEI m c) (edgeOf (j 0) (j 1)))) (0 : Fin 2)))
        (x2 m c (ix2 (Cert.Spec.rowOf (Cert.Spec.srcOf (aEI m c) (edgeOf (j 0) (j 1)))) (0 : Fin 2)))
        (x2 m c (ix2 (Cert.Spec.rowOf (Cert.Spec.dstOf (aEI m c) (edgeOf (j 0) (j 1)))) (1 : Fin 2)))
        (x2 m c (ix2 (Cert.Spec.rowOf (Cert.Spec.srcOf (aEI m c) (edgeOf (j 0) (j 1)))) (1 : Fin 2))) := by
  refine (W6_arr m ρ c 4).trans ?_
  rw [arr2 (V5 m ρ) c, V5_v55, V5_v58, V5_v61, V5_v64]
  try rfl

/-- Entry (e / 128, e mod 128) of the 128-to-a-row layout is edge e. -/
theorem edgeOf_div_mod (e : Fin 19600000) :
    edgeOf (⟨e.val / 128, by have := e.isLt; omega⟩ : Fin 153125) (⟨e.val % 128, Nat.mod_lt _ (by decide)⟩ : Fin 128) = e :=
  Fin.ext (by show e.val / 128 * 128 + e.val % 128 = e.val; omega)

set_option maxRecDepth 65536 in
/-- THE RESULT of the idealized kernel program, read off the last contents. -/
theorem W7_v66 : W7 m ρ c (Proc.devRef .tc main_v66)
    = Cert.Spec.G (aX m c) (aEI m c) (aEA m c) (aW1 m c) (aB1 m c) (aW2 m c) (aB2 m c) := by
  refine (h3_v66 (W6 m ρ c)).trans ?_
  rw [W6_v65]
  funext i
  exact congrArg (fun e : Fin 19600000 => Cert.Spec.sqd
      (x2 m c (ix2 (Cert.Spec.rowOf (Cert.Spec.dstOf (aEI m c) e)) (0 : Fin 2)))
      (x2 m c (ix2 (Cert.Spec.rowOf (Cert.Spec.srcOf (aEI m c) e)) (0 : Fin 2)))
      (x2 m c (ix2 (Cert.Spec.rowOf (Cert.Spec.dstOf (aEI m c) e)) (1 : Fin 2)))
      (x2 m c (ix2 (Cert.Spec.rowOf (Cert.Spec.srcOf (aEI m c) e)) (1 : Fin 2)))) (edgeOf_div_mod (i 0))

/-- THE RUN WITH ITS VALUE: every weakly fair execution of the idealized kernel program terminates, nothing faulting,
    with its result at the specification's `G` of the launch arguments and the arguments as launched. -/
theorem runG : θ_run defs (onTc (τ := τ) (main (F := Ideal))) ⟨m, fun _ => 0, ρ⟩ (fun r => ∀ c : Dev nD,
      r.2.mem ((c.tc : Thread nD τ).loc main_v66)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v66 (by decide))).trans (W7_v66 m ρ c),
     (h c _ (mem_uc main_arg0 (by decide))).trans (W7_main_arg0 m ρ c),
     (h c _ (mem_uc main_arg1 (by decide))).trans (W7_keep m ρ c main_arg1 (by decide) (by decide) (by decide) (by decide) (by decide) (by decide) (by decide)),
     (h c _ (mem_uc main_arg2 (by decide))).trans (W7_keep m ρ c main_arg2 (by decide) (by decide) (by decide) (by decide) (by decide) (by decide) (by decide)),
     (h c _ (mem_uc main_arg3 (by decide))).trans (W7_keep m ρ c main_arg3 (by decide) (by decide) (by decide) (by decide) (by decide) (by decide) (by decide)),
     (h c _ (mem_uc main_arg4 (by decide))).trans (W7_keep m ρ c main_arg4 (by decide) (by decide) (by decide) (by decide) (by decide) (by decide) (by decide)),
     (h c _ (mem_uc main_arg5 (by decide))).trans (W7_keep m ρ c main_arg5 (by decide) (by decide) (by decide) (by decide) (by decide) (by decide) (by decide)),
     (h c _ (mem_uc main_arg6 (by decide))).trans (W7_keep m ρ c main_arg6 (by decide) (by decide) (by decide) (by decide) (by decide) (by decide) (by decide))⟩)
    (run (F := Ideal) m ρ)

end Cert.KernelIdeal.Fr

end
-- ==== Proof.Ref.RunH.lean ====
/-
  The reference program's run, by hand: @main as a list of its 108 host operations in six consecutive parts, and what
  its result buffer holds after them as the operations' composed term of the arguments' launch contents, the arguments
  unchanged. Each part has its own side conditions; the parts are joined by the list's append.
-/
import proofs.«406876_j85478439125102_3_alg».proof.Proof.Gen.ReferenceIdeal
import Idealize.ShloMosaic.Lib.StableHlo.Run
import Idealize.ShloMosaic.Lib.Pipeline.Frame

set_option Elab.async false

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 22 of 108. -/
abbrev ops_part0 : List (HloOp τ sig (Elt F)) :=
  [ unary main_arg1 main_v0 ((extractStridedSlice S1x19600000 ![0, 0] · slices_S2x19600000_S1x19600000_0_0) : (⟨S2x19600000, .i32⟩ : BufTy).Contents (Elt F) → (⟨S1x19600000, .i32⟩ : BufTy).Contents (Elt F)),
    reshape main_v0 main_v1 rfl shapeCasts_S1x19600000_S19600000,
    unary main_arg1 main_v2 ((extractStridedSlice S1x19600000 ![1, 0] · slices_S2x19600000_S1x19600000_1_0) : (⟨S2x19600000, .i32⟩ : BufTy).Contents (Elt F) → (⟨S1x19600000, .i32⟩ : BufTy).Contents (Elt F)),
    reshape main_v2 main_v3 rfl shapeCasts_S1x19600000_S19600000,
    nullary main_cst (constant S_ .f32 0x3F800000#32),
    unary main_cst main_v4 (broadcastInDim S19600000x1 ![] bcast_S_S19600000x1 : (⟨S_, .f32⟩ : BufTy).Contents (Elt F) → (⟨S19600000x1, .f32⟩ : BufTy).Contents (Elt F)),
    nullary main_cst_0 (constant S_ .f32 0x00000000#32),
    unary main_cst_0 main_v5 (broadcastInDim S400000x1 ![] bcast_S_S400000x1 : (⟨S_, .f32⟩ : BufTy).Contents (Elt F) → (⟨S400000x1, .f32⟩ : BufTy).Contents (Elt F)),
    unary main_v3 main_v6 (broadcastInDim S19600000x1 ![0] bcast_S19600000_S19600000x1_0 : (⟨S19600000, .i32⟩ : BufTy).Contents (Elt F) → (⟨S19600000x1, .i32⟩ : BufTy).Contents (Elt F)),
    ternary main_v5 main_v6 main_v4 main_v7 ((fun x i u => Host.scatterAdd scatter_S400000x1_S19600000x1_S19600000x1_1_0_0_1 x i u) : (⟨S400000x1, .f32⟩ : BufTy).Contents (Elt F) → (⟨S19600000x1, .i32⟩ : BufTy).Contents (Elt F) → (⟨S19600000x1, .f32⟩ : BufTy).Contents (Elt F) → (⟨S400000x1, .f32⟩ : BufTy).Contents (Elt F)),
    nullary main_cst_1 (constant S_ .f32 0x3F800000#32),
    unary main_cst_1 main_v8 (broadcastInDim S400000x1 ![] bcast_S_S400000x1 : (⟨S_, .f32⟩ : BufTy).Contents (Elt F) → (⟨S400000x1, .f32⟩ : BufTy).Contents (Elt F)),
    binary main_v7 main_v8 main_v9 (maximumf : (⟨S400000x1, .f32⟩ : BufTy).Contents (Elt F) → (⟨S400000x1, .f32⟩ : BufTy).Contents (Elt F) → (⟨S400000x1, .f32⟩ : BufTy).Contents (Elt F)),
    nullary main_c (constantI S_ 32 0#32),
    unary main_c main_v10 (broadcastInDim S19600000 ![] bcast_S_S19600000 : (⟨S_, .i32⟩ : BufTy).Contents (Elt F) → (⟨S19600000, .i32⟩ : BufTy).Contents (Elt F)),
    binary main_v3 main_v10 main_v11 (cmpi .slt : (⟨S19600000, .i32⟩ : BufTy).Contents (Elt F) → (⟨S19600000, .i32⟩ : BufTy).Contents (Elt F) → (⟨S19600000, .i1⟩ : BufTy).Contents (Elt F)),
    nullary main_c_2 (constantI S_ 32 400000#32),
    unary main_c_2 main_v12 (broadcastInDim S19600000 ![] bcast_S_S19600000 : (⟨S_, .i32⟩ : BufTy).Contents (Elt F) → (⟨S19600000, .i32⟩ : BufTy).Contents (Elt F)),
    binary main_v3 main_v12 main_v13 (addi : (⟨S19600000, .i32⟩ : BufTy).Contents (Elt F) → (⟨S19600000, .i32⟩ : BufTy).Contents (Elt F) → (⟨S19600000, .i32⟩ : BufTy).Contents (Elt F)),
    ternary main_v11 main_v13 main_v3 main_v14 (select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F)),
    unary main_v14 main_v15 (broadcastInDim S19600000x1 ![0] bcast_S19600000_S19600000x1_0 : (⟨S19600000, .i32⟩ : BufTy).Contents (Elt F) → (⟨S19600000x1, .i32⟩ : BufTy).Contents (Elt F)),
    binary main_arg0 main_v15 main_v16 ((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F)) ]

/-- @main's operations 23 … 29 of 108. -/
abbrev ops_part1 : List (HloOp τ sig (Elt F)) :=
  [ binary main_v16 main_arg2 main_v17 ((fun a b => concatenate S19600000x5 1 [⟨S19600000x2, a⟩, ⟨S19600000x3, b⟩] concatenates_S19600000x2_S19600000x3_S19600000x5_d1) : (⟨S19600000x2, .f32⟩ : BufTy).Contents (Elt F) → (⟨S19600000x3, .f32⟩ : BufTy).Contents (Elt F) → (⟨S19600000x5, .f32⟩ : BufTy).Contents (Elt F)),
    nullary main_cst_3 (constant S_ .f32 0x00000000#32),
    unary main_cst_3 main_v18 (broadcastInDim S400000x5 ![] bcast_S_S400000x5 : (⟨S_, .f32⟩ : BufTy).Contents (Elt F) → (⟨S400000x5, .f32⟩ : BufTy).Contents (Elt F)),
    unary main_v3 main_v19 (broadcastInDim S19600000x1 ![0] bcast_S19600000_S19600000x1_0 : (⟨S19600000, .i32⟩ : BufTy).Contents (Elt F) → (⟨S19600000x1, .i32⟩ : BufTy).Contents (Elt F)),
    ternary main_v18 main_v19 main_v17 main_v20 ((fun x i u => Host.scatterAdd scatter_S400000x5_S19600000x1_S19600000x5_1_0_0_1 x i u) : (⟨S400000x5, .f32⟩ : BufTy).Contents (Elt F) → (⟨S19600000x1, .i32⟩ : BufTy).Contents (Elt F) → (⟨S19600000x5, .f32⟩ : BufTy).Contents (Elt F) → (⟨S400000x5, .f32⟩ : BufTy).Contents (Elt F)),
    unary main_v9 main_v21 (broadcastInDim S400000x5 ![0, 1] bcast_S400000x1_S400000x5_0_1 : (⟨S400000x1, .f32⟩ : BufTy).Contents (Elt F) → (⟨S400000x5, .f32⟩ : BufTy).Contents (Elt F)),
    binary main_v20 main_v21 main_v22 (Host.divf : (⟨S400000x5, .f32⟩ : BufTy).Contents (Elt F) → (⟨S400000x5, .f32⟩ : BufTy).Contents (Elt F) → (⟨S400000x5, .f32⟩ : BufTy).Contents (Elt F)) ]

/-- @main's operations 30 … 58 of 108. -/
abbrev ops_part2 : List (HloOp τ sig (Elt F)) :=
  [ binary main_arg0 main_v22 main_v23 ((fun a b => concatenate S400000x7 1 [⟨S400000x2, a⟩, ⟨S400000x5, b⟩] concatenates_S400000x2_S400000x5_S400000x7_d1) : (⟨S400000x2, .f32⟩ : BufTy).Contents (Elt F) → (⟨S400000x5, .f32⟩ : BufTy).Contents (Elt F) → (⟨S400000x7, .f32⟩ : BufTy).Contents (Elt F)),
    unary main_arg3 main_v24 ((extractStridedSlice S1x7x128 ![0, 0, 0] · slices_S2x7x128_S1x7x128_0_0_0) : (⟨S2x7x128, .f32⟩ : BufTy).Contents (Elt F) → (⟨S1x7x128, .f32⟩ : BufTy).Contents (Elt F)),
    reshape main_v24 main_v25 rfl shapeCasts_S1x7x128_S7x128,
    binary main_v23 main_v25 main_v26 ((fun l r => Host.dotGeneral dot_S400000x7_S7x128_S400000x128_1_0_0_1_n_n none l r) : (⟨S400000x7, .f32⟩ : BufTy).Contents (Elt F) → (⟨S7x128, .f32⟩ : BufTy).Contents (Elt F) → (⟨S400000x128, .f32⟩ : BufTy).Contents (Elt F)),
    unary main_arg4 main_v27 ((extractStridedSlice S1x128 ![0, 0] · slices_S2x128_S1x128_0_0) : (⟨S2x128, .f32⟩ : BufTy).Contents (Elt F) → (⟨S1x128, .f32⟩ : BufTy).Contents (Elt F)),
    reshape main_v27 main_v28 rfl shapeCasts_S1x128_S128,
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S400000x128 ![0, 1] bcast_S1x128_S400000x128_0_1 : (⟨S1x128, .f32⟩ : BufTy).Contents (Elt F) → (⟨S400000x128, .f32⟩ : BufTy).Contents (Elt F)),
    binary main_v26 main_v30 main_v31 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v31) (TRef.of (T := ⟨S400000x128, .f32⟩) main_call0_v0) (TRef.of (T := ⟨S400000x128, .f32⟩) main_v32) maximumf,
    unary main_arg5 main_v33 ((extractStridedSlice S1x128x2 ![0, 0, 0] · slices_S2x128x2_S1x128x2_0_0_0) : (⟨S2x128x2, .f32⟩ : BufTy).Contents (Elt F) → (⟨S1x128x2, .f32⟩ : BufTy).Contents (Elt F)),
    reshape main_v33 main_v34 rfl shapeCasts_S1x128x2_S128x2,
    binary main_v32 main_v34 main_v35 ((fun l r => Host.dotGeneral dot_S400000x128_S128x2_S400000x2_1_0_0_1_n_n none l r) : (⟨S400000x128, .f32⟩ : BufTy).Contents (Elt F) → (⟨S128x2, .f32⟩ : BufTy).Contents (Elt F) → (⟨S400000x2, .f32⟩ : BufTy).Contents (Elt F)),
    unary main_arg6 main_v36 ((extractStridedSlice S1x2 ![0, 0] · slices_S2x2_S1x2_0_0) : (⟨S2x2, .f32⟩ : BufTy).Contents (Elt F) → (⟨S1x2, .f32⟩ : BufTy).Contents (Elt F)),
    reshape main_v36 main_v37 rfl shapeCasts_S1x2_S2,
    unary main_v37 main_v38 (broadcastInDim S1x2 ![1] bcast_S2_S1x2_1 : (⟨S2, .f32⟩ : BufTy).Contents (Elt F) → (⟨S1x2, .f32⟩ : BufTy).Contents (Elt F)),
    unary main_v38 main_v39 (broadcastInDim S400000x2 ![0, 1] bcast_S1x2_S400000x2_0_1 : (⟨S1x2, .f32⟩ : BufTy).Contents (Elt F) → (⟨S400000x2, .f32⟩ : BufTy).Contents (Elt F)),
    binary main_v35 main_v39 main_v40 (addf : (⟨S400000x2, .f32⟩ : BufTy).Contents (Elt F) → (⟨S400000x2, .f32⟩ : BufTy).Contents (Elt F) → (⟨S400000x2, .f32⟩ : BufTy).Contents (Elt F)),
    nullary main_c_4 (constantI S_ 32 0#32),
    unary main_c_4 main_v41 (broadcastInDim S19600000 ![] bcast_S_S19600000 : (⟨S_, .i32⟩ : BufTy).Contents (Elt F) → (⟨S19600000, .i32⟩ : BufTy).Contents (Elt F)),
    binary main_v3 main_v41 main_v42 (cmpi .slt : (⟨S19600000, .i32⟩ : BufTy).Contents (Elt F) → (⟨S19600000, .i32⟩ : BufTy).Contents (Elt F) → (⟨S19600000, .i1⟩ : BufTy).Contents (Elt F)),
    nullary main_c_5 (constantI S_ 32 400000#32),
    unary main_c_5 main_v43 (broadcastInDim S19600000 ![] bcast_S_S19600000 : (⟨S_, .i32⟩ : BufTy).Contents (Elt F) → (⟨S19600000, .i32⟩ : BufTy).Contents (Elt F)),
    binary main_v3 main_v43 main_v44 (addi : (⟨S19600000, .i32⟩ : BufTy).Contents (Elt F) → (⟨S19600000, .i32⟩ : BufTy).Contents (Elt F) → (⟨S19600000, .i32⟩ : BufTy).Contents (Elt F)),
    ternary main_v42 main_v44 main_v3 main_v45 (select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F)),
    unary main_v45 main_v46 (broadcastInDim S19600000x1 ![0] bcast_S19600000_S19600000x1_0 : (⟨S19600000, .i32⟩ : BufTy).Contents (Elt F) → (⟨S19600000x1, .i32⟩ : BufTy).Contents (Elt F)),
    binary main_v40 main_v46 main_v47 ((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F)) ]

/-- @main's operations 59 … 62 of 108. -/
abbrev ops_part3 : List (HloOp τ sig (Elt F)) :=
  [ binary main_v47 main_arg2 main_v48 ((fun a b => concatenate S19600000x5 1 [⟨S19600000x2, a⟩, ⟨S19600000x3, b⟩] concatenates_S19600000x2_S19600000x3_S19600000x5_d1) : (⟨S19600000x2, .f32⟩ : BufTy).Contents (Elt F) → (⟨S19600000x3, .f32⟩ : BufTy).Contents (Elt F) → (⟨S19600000x5, .f32⟩ : BufTy).Contents (Elt F)),
    nullary main_cst_6 (constant S_ .f32 0x00000000#32),
    unary main_cst_6 main_v49 (broadcastInDim S400000x5 ![] bcast_S_S400000x5 : (⟨S_, .f32⟩ : BufTy).Contents (Elt F) → (⟨S400000x5, .f32⟩ : BufTy).Contents (Elt F)),
    unary main_v3 main_v50 (broadcastInDim S19600000x1 ![0] bcast_S19600000_S19600000x1_0 : (⟨S19600000, .i32⟩ : BufTy).Contents (Elt F) → (⟨S19600000x1, .i32⟩ : BufTy).Contents (Elt F)) ]

/-- @main's operations 63 … 65 of 108. -/
abbrev ops_part4 : List (HloOp τ sig (Elt F)) :=
  [ ternary main_v49 main_v50 main_v48 main_v51 ((fun x i u => Host.scatterAdd scatter_S400000x5_S19600000x1_S19600000x5_1_0_0_1 x i u) : (⟨S400000x5, .f32⟩ : BufTy).Contents (Elt F) → (⟨S19600000x1, .i32⟩ : BufTy).Contents (Elt F) → (⟨S19600000x5, .f32⟩ : BufTy).Contents (Elt F) → (⟨S400000x5, .f32⟩ : BufTy).Contents (Elt F)),
    unary main_v9 main_v52 (broadcastInDim S400000x5 ![0, 1] bcast_S400000x1_S400000x5_0_1 : (⟨S400000x1, .f32⟩ : BufTy).Contents (Elt F) → (⟨S400000x5, .f32⟩ : BufTy).Contents (Elt F)),
    binary main_v51 main_v52 main_v53 (Host.divf : (⟨S400000x5, .f32⟩ : BufTy).Contents (Elt F) → (⟨S400000x5, .f32⟩ : BufTy).Contents (Elt F) → (⟨S400000x5, .f32⟩ : BufTy).Contents (Elt F)) ]

/-- @main's operations 66 … 108 of 108. -/
abbrev ops_part5 : List (HloOp τ sig (Elt F)) :=
  [ binary main_v40 main_v53 main_v54 ((fun a b => concatenate S400000x7 1 [⟨S400000x2, a⟩, ⟨S400000x5, b⟩] concatenates_S400000x2_S400000x5_S400000x7_d1) : (⟨S400000x2, .f32⟩ : BufTy).Contents (Elt F) → (⟨S400000x5, .f32⟩ : BufTy).Contents (Elt F) → (⟨S400000x7, .f32⟩ : BufTy).Contents (Elt F)),
    unary main_arg3 main_v55 ((extractStridedSlice S1x7x128 ![1, 0, 0] · slices_S2x7x128_S1x7x128_1_0_0) : (⟨S2x7x128, .f32⟩ : BufTy).Contents (Elt F) → (⟨S1x7x128, .f32⟩ : BufTy).Contents (Elt F)),
    reshape main_v55 main_v56 rfl shapeCasts_S1x7x128_S7x128,
    binary main_v54 main_v56 main_v57 ((fun l r => Host.dotGeneral dot_S400000x7_S7x128_S400000x128_1_0_0_1_n_n none l r) : (⟨S400000x7, .f32⟩ : BufTy).Contents (Elt F) → (⟨S7x128, .f32⟩ : BufTy).Contents (Elt F) → (⟨S400000x128, .f32⟩ : BufTy).Contents (Elt F)),
    unary main_arg4 main_v58 ((extractStridedSlice S1x128 ![1, 0] · slices_S2x128_S1x128_1_0) : (⟨S2x128, .f32⟩ : BufTy).Contents (Elt F) → (⟨S1x128, .f32⟩ : BufTy).Contents (Elt F)),
    reshape main_v58 main_v59 rfl shapeCasts_S1x128_S128,
    unary main_v59 main_v60 (broadcastInDim S1x128 ![1] bcast_S128_S1x128_1 : (⟨S128, .f32⟩ : BufTy).Contents (Elt F) → (⟨S1x128, .f32⟩ : BufTy).Contents (Elt F)),
    unary main_v60 main_v61 (broadcastInDim S400000x128 ![0, 1] bcast_S1x128_S400000x128_0_1 : (⟨S1x128, .f32⟩ : BufTy).Contents (Elt F) → (⟨S400000x128, .f32⟩ : BufTy).Contents (Elt F)),
    binary main_v57 main_v61 main_v62 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S400000x128, .f32⟩) main_call1_v0) (broadcastInDim S400000x128 ![] bcast_S_S400000x128),
    TRef.binary (TRef.of (T := ⟨S400000x128, .f32⟩) main_v62) (TRef.of (T := ⟨S400000x128, .f32⟩) main_call1_v0) (TRef.of (T := ⟨S400000x128, .f32⟩) main_v63) maximumf,
    unary main_arg5 main_v64 ((extractStridedSlice S1x128x2 ![1, 0, 0] · slices_S2x128x2_S1x128x2_1_0_0) : (⟨S2x128x2, .f32⟩ : BufTy).Contents (Elt F) → (⟨S1x128x2, .f32⟩ : BufTy).Contents (Elt F)),
    reshape main_v64 main_v65 rfl shapeCasts_S1x128x2_S128x2,
    binary main_v63 main_v65 main_v66 ((fun l r => Host.dotGeneral dot_S400000x128_S128x2_S400000x2_1_0_0_1_n_n none l r) : (⟨S400000x128, .f32⟩ : BufTy).Contents (Elt F) → (⟨S128x2, .f32⟩ : BufTy).Contents (Elt F) → (⟨S400000x2, .f32⟩ : BufTy).Contents (Elt F)),
    unary main_arg6 main_v67 ((extractStridedSlice S1x2 ![1, 0] · slices_S2x2_S1x2_1_0) : (⟨S2x2, .f32⟩ : BufTy).Contents (Elt F) → (⟨S1x2, .f32⟩ : BufTy).Contents (Elt F)),
    reshape main_v67 main_v68 rfl shapeCasts_S1x2_S2,
    unary main_v68 main_v69 (broadcastInDim S1x2 ![1] bcast_S2_S1x2_1 : (⟨S2, .f32⟩ : BufTy).Contents (Elt F) → (⟨S1x2, .f32⟩ : BufTy).Contents (Elt F)),
    unary main_v69 main_v70 (broadcastInDim S400000x2 ![0, 1] bcast_S1x2_S400000x2_0_1 : (⟨S1x2, .f32⟩ : BufTy).Contents (Elt F) → (⟨S400000x2, .f32⟩ : BufTy).Contents (Elt F)),
    binary main_v66 main_v70 main_v71 (addf : (⟨S400000x2, .f32⟩ : BufTy).Contents (Elt F) → (⟨S400000x2, .f32⟩ : BufTy).Contents (Elt F) → (⟨S400000x2, .f32⟩ : BufTy).Contents (Elt F)),
    nullary main_c_7 (constantI S_ 32 0#32),
    unary main_c_7 main_v72 (broadcastInDim S19600000 ![] bcast_S_S19600000 : (⟨S_, .i32⟩ : BufTy).Contents (Elt F) → (⟨S19600000, .i32⟩ : BufTy).Contents (Elt F)),
    binary main_v1 main_v72 main_v73 (cmpi .slt : (⟨S19600000, .i32⟩ : BufTy).Contents (Elt F) → (⟨S19600000, .i32⟩ : BufTy).Contents (Elt F) → (⟨S19600000, .i1⟩ : BufTy).Contents (Elt F)),
    nullary main_c_8 (constantI S_ 32 400000#32),
    unary main_c_8 main_v74 (broadcastInDim S19600000 ![] bcast_S_S19600000 : (⟨S_, .i32⟩ : BufTy).Contents (Elt F) → (⟨S19600000, .i32⟩ : BufTy).Contents (Elt F)),
    binary main_v1 main_v74 main_v75 (addi : (⟨S19600000, .i32⟩ : BufTy).Contents (Elt F) → (⟨S19600000, .i32⟩ : BufTy).Contents (Elt F) → (⟨S19600000, .i32⟩ : BufTy).Contents (Elt F)),
    ternary main_v73 main_v75 main_v1 main_v76 (select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F)),
    unary main_v76 main_v77 (broadcastInDim S19600000x1 ![0] bcast_S19600000_S19600000x1_0 : (⟨S19600000, .i32⟩ : BufTy).Contents (Elt F) → (⟨S19600000x1, .i32⟩ : BufTy).Contents (Elt F)),
    binary main_v71 main_v77 main_v78 ((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F)),
    nullary main_c_9 (constantI S_ 32 0#32),
    unary main_c_9 main_v79 (broadcastInDim S19600000 ![] bcast_S_S19600000 : (⟨S_, .i32⟩ : BufTy).Contents (Elt F) → (⟨S19600000, .i32⟩ : BufTy).Contents (Elt F)),
    binary main_v3 main_v79 main_v80 (cmpi .slt : (⟨S19600000, .i32⟩ : BufTy).Contents (Elt F) → (⟨S19600000, .i32⟩ : BufTy).Contents (Elt F) → (⟨S19600000, .i1⟩ : BufTy).Contents (Elt F)),
    nullary main_c_10 (constantI S_ 32 400000#32),
    unary main_c_10 main_v81 (broadcastInDim S19600000 ![] bcast_S_S19600000 : (⟨S_, .i32⟩ : BufTy).Contents (Elt F) → (⟨S19600000, .i32⟩ : BufTy).Contents (Elt F)),
    binary main_v3 main_v81 main_v82 (addi : (⟨S19600000, .i32⟩ : BufTy).Contents (Elt F) → (⟨S19600000, .i32⟩ : BufTy).Contents (Elt F) → (⟨S19600000, .i32⟩ : BufTy).Contents (Elt F)),
    ternary main_v80 main_v82 main_v3 main_v83 (select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F)),
    unary main_v83 main_v84 (broadcastInDim S19600000x1 ![0] bcast_S19600000_S19600000x1_0 : (⟨S19600000, .i32⟩ : BufTy).Contents (Elt F) → (⟨S19600000x1, .i32⟩ : BufTy).Contents (Elt F)),
    binary main_v71 main_v84 main_v85 ((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F)),
    binary main_v78 main_v85 main_v86 (subf : (⟨S19600000x2, .f32⟩ : BufTy).Contents (Elt F) → (⟨S19600000x2, .f32⟩ : BufTy).Contents (Elt F) → (⟨S19600000x2, .f32⟩ : BufTy).Contents (Elt F)),
    binary main_v86 main_v86 main_v87 (mulf : (⟨S19600000x2, .f32⟩ : BufTy).Contents (Elt F) → (⟨S19600000x2, .f32⟩ : BufTy).Contents (Elt F) → (⟨S19600000x2, .f32⟩ : BufTy).Contents (Elt F)),
    nullary main_cst_11 (constant S_ .f32 0x00000000#32),
    binary main_v87 main_cst_11 main_v88 ((fun x v => Host.reduceAdd x v reducesTo_S19600000x2_S19600000_d1 h_S_) : (⟨S19600000x2, .f32⟩ : BufTy).Contents (Elt F) → (⟨S_, .f32⟩ : BufTy).Contents (Elt F) → (⟨S19600000, .f32⟩ : BufTy).Contents (Elt F)),
    unary main_v88 main_v89 (broadcastInDim S19600000x1 ![0] bcast_S19600000_S19600000x1_0 : (⟨S19600000, .f32⟩ : BufTy).Contents (Elt F) → (⟨S19600000x1, .f32⟩ : BufTy).Contents (Elt F)) ]

/-- The operations of @main's first window (statements 1 … 60) and of its second (61 … 105). -/
abbrev ops_w0 : List (HloOp τ sig (Elt F)) := ops_part0 ++ (ops_part1 ++ (ops_part2 ++ ops_part3))
abbrev ops_w1 : List (HloOp τ sig (Elt F)) := ops_part4 ++ ops_part5

/-- @main's 108 operations, in order. -/
abbrev ops : List (HloOp τ sig (Elt F)) :=
  ops_part0 ++ (ops_part1 ++ (ops_part2 ++ (ops_part3 ++ (ops_part4 ++ ops_part5))))

set_option maxRecDepth 8192 in
set_option maxHeartbeats 4000000 in
theorem main_part0_eq (c : Dev nD) : main_part0 (F := F) c = seq ops_w0 := rfl
set_option maxRecDepth 8192 in
set_option maxHeartbeats 4000000 in
theorem main_part1_eq (c : Dev nD) : main_part1 (F := F) c = seq ops_w1 := rfl
set_option maxRecDepth 8192 in
theorem main_eq (c : Dev nD) : main (F := F) c = seq ops := by
  rw [show main (F := F) c = (main_part0 (F := F) c >>= fun _ => main_part1 (F := F) c) from rfl,
    main_part0_eq c, main_part1_eq c, ← seq_append]
  simp only [ops, ops_w0, ops_w1, List.append_assoc]
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops_part0_fresh : ∀ op ∈ (ops_part0 : List (HloOp τ sig (Elt F))), op.fresh = ∅ := by
  intro _ h; (repeat (cases h with | head => rfl | tail _ h => ?_)); exact nomatch h
set_option maxRecDepth 8192 in
theorem ops_part1_sub : (ops_part1 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub ..⟩
set_option maxRecDepth 8192 in
theorem ops_part1_fresh : ∀ op ∈ (ops_part1 : List (HloOp τ sig (Elt F))), op.fresh = ∅ := by
  intro _ h; (repeat (cases h with | head => rfl | tail _ h => ?_)); exact nomatch h
set_option maxRecDepth 8192 in
theorem ops_part2_sub : (ops_part2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops_part2_fresh : ∀ op ∈ (ops_part2 : List (HloOp τ sig (Elt F))), op.fresh = ∅ := by
  intro _ h; (repeat (cases h with | head => rfl | tail _ h => ?_)); exact nomatch h
set_option maxRecDepth 8192 in
theorem ops_part3_sub : (ops_part3 : List (HloOp τ sig (Elt F))).Forall fun op => op.bufs ⊆ tcRefs τ sig :=
  ⟨binary_bufs_sub .., nullary_bufs_sub .., unary_bufs_sub .., unary_bufs_sub ..⟩
set_option maxRecDepth 8192 in
theorem ops_part3_fresh : ∀ op ∈ (ops_part3 : List (HloOp τ sig (Elt F))), op.fresh = ∅ := by
  intro _ h; (repeat (cases h with | head => rfl | tail _ h => ?_)); exact nomatch h
set_option maxRecDepth 8192 in
theorem ops_part4_sub : (ops_part4 : List (HloOp τ sig (Elt F))).Forall fun op => op.bufs ⊆ tcRefs τ sig :=
  ⟨ternary_bufs_sub .., unary_bufs_sub .., binary_bufs_sub ..⟩
set_option maxRecDepth 8192 in
theorem ops_part4_fresh : ∀ op ∈ (ops_part4 : List (HloOp τ sig (Elt F))), op.fresh = ∅ := by
  intro _ h; (repeat (cases h with | head => rfl | tail _ h => ?_)); exact nomatch h
set_option maxRecDepth 8192 in
theorem ops_part5_sub : (ops_part5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩
set_option maxRecDepth 8192 in
theorem ops_part5_fresh : ∀ op ∈ (ops_part5 : List (HloOp τ sig (Elt F))), op.fresh = ∅ := by
  intro _ h; (repeat (cases h with | head => rfl | tail _ h => ?_)); exact nomatch h
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]
theorem ops_fresh : ∀ op ∈ (ops : List (HloOp τ sig (Elt F))), op.fresh = ∅ := fun op h => by
  simp only [ops, List.mem_append] at h
  rcases h with h | h | h | h | h | h
  exacts [ops_part0_fresh op h, ops_part1_fresh op h, ops_part2_fresh op h, ops_part3_fresh op h, ops_part4_fresh op h, ops_part5_fresh op h]

/-- The run with each buffer at the fold of the operations' results. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! ## The operations' results as terms of the launch contents, one per operation -/

/-- What operation 1 writes. -/
def t_main_v0 (V0 : Valuation τ sig (Elt F)) : (Proc.devRef .tc main_v0 : DevRef τ sig).ty.Contents (Elt F) :=
  (((extractStridedSlice S1x19600000 ![0, 0] · slices_S2x19600000_S1x19600000_0_0) : (⟨S2x19600000, .i32⟩ : BufTy).Contents (Elt F) → (⟨S1x19600000, .i32⟩ : BufTy).Contents (Elt F))) (V0 (Proc.devRef .tc main_arg1))

/-- What operation 2 writes. -/
def t_main_v1 (V0 : Valuation τ sig (Elt F)) : (Proc.devRef .tc main_v1 : DevRef τ sig).ty.Contents (Elt F) :=
  shapeCast _ (t_main_v0 V0) shapeCasts_S1x19600000_S19600000

/-- What operation 3 writes. -/
def t_main_v2 (V0 : Valuation τ sig (Elt F)) : (Proc.devRef .tc main_v2 : DevRef τ sig).ty.Contents (Elt F) :=
  (((extractStridedSlice S1x19600000 ![1, 0] · slices_S2x19600000_S1x19600000_1_0) : (⟨S2x19600000, .i32⟩ : BufTy).Contents (Elt F) → (⟨S1x19600000, .i32⟩ : BufTy).Contents (Elt F))) (V0 (Proc.devRef .tc main_arg1))

/-- What operation 4 writes. -/
def t_main_v3 (V0 : Valuation τ sig (Elt F)) : (Proc.devRef .tc main_v3 : DevRef τ sig).ty.Contents (Elt F) :=
  shapeCast _ (t_main_v2 V0) shapeCasts_S1x19600000_S19600000

/-- What operation 5 writes. -/
def t_main_cst (V0 : Valuation τ sig (Elt F)) : (Proc.devRef .tc main_cst : DevRef τ sig).ty.Contents (Elt F) :=
  (constant S_ .f32 0x3F800000#32)

/-- What operation 6 writes. -/
def t_main_v4 (V0 : Valuation τ sig (Elt F)) : (Proc.devRef .tc main_v4 : DevRef τ sig).ty.Contents (Elt F) :=
  ((broadcastInDim S19600000x1 ![] bcast_S_S19600000x1 : (⟨S_, .f32⟩ : BufTy).Contents (Elt F) → (⟨S19600000x1, .f32⟩ : BufTy).Contents (Elt F))) (t_main_cst V0)

/-- What operation 7 writes. -/
def t_main_cst_0 (V0 : Valuation τ sig (Elt F)) : (Proc.devRef .tc main_cst_0 : DevRef τ sig).ty.Contents (Elt F) :=
  (constant S_ .f32 0x00000000#32)

/-- What operation 8 writes. -/
def t_main_v5 (V0 : Valuation τ sig (Elt F)) : (Proc.devRef .tc main_v5 : DevRef τ sig).ty.Contents (Elt F) :=
  ((broadcastInDim S400000x1 ![] bcast_S_S400000x1 : (⟨S_, .f32⟩ : BufTy).Contents (Elt F) → (⟨S400000x1, .f32⟩ : BufTy).Contents (Elt F))) (t_main_cst_0 V0)

/-- What operation 9 writes. -/
def t_main_v6 (V0 : Valuation τ sig (Elt F)) : (Proc.devRef .tc main_v6 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v3 V0)

/-- What operation 10 writes. -/
def t_main_v7 (V0 : Valuation τ sig (Elt F)) : (Proc.devRef .tc main_v7 : DevRef τ sig).ty.Contents (Elt F) :=
  (((fun x i u => Host.scatterAdd scatter_S400000x1_S19600000x1_S19600000x1_1_0_0_1 x i u) : (⟨S400000x1, .f32⟩ : BufTy).Contents (Elt F) → (⟨S19600000x1, .i32⟩ : BufTy).Contents (Elt F) → (⟨S19600000x1, .f32⟩ : BufTy).Contents (Elt F) → (⟨S400000x1, .f32⟩ : BufTy).Contents (Elt F))) (t_main_v5 V0) (t_main_v6 V0) (t_main_v4 V0)

/-- What operation 11 writes. -/
def t_main_cst_1 (V0 : Valuation τ sig (Elt F)) : (Proc.devRef .tc main_cst_1 : DevRef τ sig).ty.Contents (Elt F) :=
  (constant S_ .f32 0x3F800000#32)

/-- What operation 12 writes. -/
def t_main_v8 (V0 : Valuation τ sig (Elt F)) : (Proc.devRef .tc main_v8 : DevRef τ sig).ty.Contents (Elt F) :=
  ((broadcastInDim S400000x1 ![] bcast_S_S400000x1 : (⟨S_, .f32⟩ : BufTy).Contents (Elt F) → (⟨S400000x1, .f32⟩ : BufTy).Contents (Elt F))) (t_main_cst_1 V0)

/-- What operation 13 writes. -/
def t_main_v9 (V0 : Valuation τ sig (Elt F)) : (Proc.devRef .tc main_v9 : DevRef τ sig).ty.Contents (Elt F) :=
  ((maximumf : (⟨S400000x1, .f32⟩ : BufTy).Contents (Elt F) → (⟨S400000x1, .f32⟩ : BufTy).Contents (Elt F) → (⟨S400000x1, .f32⟩ : BufTy).Contents (Elt F))) (t_main_v7 V0) (t_main_v8 V0)

/-- What operation 14 writes. -/
def t_main_c (V0 : Valuation τ sig (Elt F)) : (Proc.devRef .tc main_c : DevRef τ sig).ty.Contents (Elt F) :=
  (constantI S_ 32 0#32)

/-- What operation 15 writes. -/
def t_main_v10 (V0 : Valuation τ sig (Elt F)) : (Proc.devRef .tc main_v10 : DevRef τ sig).ty.Contents (Elt F) :=
  ((broadcastInDim S19600000 ![] bcast_S_S19600000 : (⟨S_, .i32⟩ : BufTy).Contents (Elt F) → (⟨S19600000, .i32⟩ : BufTy).Contents (Elt F))) (t_main_c V0)

/-- What operation 16 writes. -/
def t_main_v11 (V0 : Valuation τ sig (Elt F)) : (Proc.devRef .tc main_v11 : DevRef τ sig).ty.Contents (Elt F) :=
  ((cmpi .slt : (⟨S19600000, .i32⟩ : BufTy).Contents (Elt F) → (⟨S19600000, .i32⟩ : BufTy).Contents (Elt F) → (⟨S19600000, .i1⟩ : BufTy).Contents (Elt F))) (t_main_v3 V0) (t_main_v10 V0)

/-- What operation 17 writes. -/
def t_main_c_2 (V0 : Valuation τ sig (Elt F)) : (Proc.devRef .tc main_c_2 : DevRef τ sig).ty.Contents (Elt F) :=
  (constantI S_ 32 400000#32)

/-- What operation 18 writes. -/
def t_main_v12 (V0 : Valuation τ sig (Elt F)) : (Proc.devRef .tc main_v12 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_2 V0)

/-- What operation 19 writes. -/
def t_main_v13 (V0 : Valuation τ sig (Elt F)) : (Proc.devRef .tc main_v13 : DevRef τ sig).ty.Contents (Elt F) :=
  ((addi : (⟨S19600000, .i32⟩ : BufTy).Contents (Elt F) → (⟨S19600000, .i32⟩ : BufTy).Contents (Elt F) → (⟨S19600000, .i32⟩ : BufTy).Contents (Elt F))) (t_main_v3 V0) (t_main_v12 V0)

/-- What operation 20 writes. -/
def t_main_v14 (V0 : Valuation τ sig (Elt F)) : (Proc.devRef .tc main_v14 : DevRef τ sig).ty.Contents (Elt F) :=
  ((select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F))) (t_main_v11 V0) (t_main_v13 V0) (t_main_v3 V0)

/-- What operation 21 writes. -/
def t_main_v15 (V0 : Valuation τ sig (Elt F)) : (Proc.devRef .tc main_v15 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v14 V0)

/-- What operation 22 writes. -/
def t_main_v16 (V0 : Valuation τ sig (Elt F)) : (Proc.devRef .tc main_v16 : DevRef τ sig).ty.Contents (Elt F) :=
  (((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F))) (V0 (Proc.devRef .tc main_arg0)) (t_main_v15 V0)

/-- What operation 23 writes. -/
def t_main_v17 (V0 : Valuation τ sig (Elt F)) : (Proc.devRef .tc main_v17 : DevRef τ sig).ty.Contents (Elt F) :=
  (((fun a b => concatenate S19600000x5 1 [⟨S19600000x2, a⟩, ⟨S19600000x3, b⟩] concatenates_S19600000x2_S19600000x3_S19600000x5_d1) : (⟨S19600000x2, .f32⟩ : BufTy).Contents (Elt F) → (⟨S19600000x3, .f32⟩ : BufTy).Contents (Elt F) → (⟨S19600000x5, .f32⟩ : BufTy).Contents (Elt F))) (t_main_v16 V0) (V0 (Proc.devRef .tc main_arg2))

/-- What operation 24 writes. -/
def t_main_cst_3 (V0 : Valuation τ sig (Elt F)) : (Proc.devRef .tc main_cst_3 : DevRef τ sig).ty.Contents (Elt F) :=
  (constant S_ .f32 0x00000000#32)

/-- What operation 25 writes. -/
def t_main_v18 (V0 : Valuation τ sig (Elt F)) : (Proc.devRef .tc main_v18 : DevRef τ sig).ty.Contents (Elt F) :=
  ((broadcastInDim S400000x5 ![] bcast_S_S400000x5 : (⟨S_, .f32⟩ : BufTy).Contents (Elt F) → (⟨S400000x5, .f32⟩ : BufTy).Contents (Elt F))) (t_main_cst_3 V0)

/-- What operation 26 writes. -/
def t_main_v19 (V0 : Valuation τ sig (Elt F)) : (Proc.devRef .tc main_v19 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v3 V0)

/-- What operation 27 writes. -/
def t_main_v20 (V0 : Valuation τ sig (Elt F)) : (Proc.devRef .tc main_v20 : DevRef τ sig).ty.Contents (Elt F) :=
  (((fun x i u => Host.scatterAdd scatter_S400000x5_S19600000x1_S19600000x5_1_0_0_1 x i u) : (⟨S400000x5, .f32⟩ : BufTy).Contents (Elt F) → (⟨S19600000x1, .i32⟩ : BufTy).Contents (Elt F) → (⟨S19600000x5, .f32⟩ : BufTy).Contents (Elt F) → (⟨S400000x5, .f32⟩ : BufTy).Contents (Elt F))) (t_main_v18 V0) (t_main_v19 V0) (t_main_v17 V0)

/-- What operation 28 writes. -/
def t_main_v21 (V0 : Valuation τ sig (Elt F)) : (Proc.devRef .tc main_v21 : DevRef τ sig).ty.Contents (Elt F) :=
  ((broadcastInDim S400000x5 ![0, 1] bcast_S400000x1_S400000x5_0_1 : (⟨S400000x1, .f32⟩ : BufTy).Contents (Elt F) → (⟨S400000x5, .f32⟩ : BufTy).Contents (Elt F))) (t_main_v9 V0)

/-- What operation 29 writes. -/
def t_main_v22 (V0 : Valuation τ sig (Elt F)) : (Proc.devRef .tc main_v22 : DevRef τ sig).ty.Contents (Elt F) :=
  ((Host.divf : (⟨S400000x5, .f32⟩ : BufTy).Contents (Elt F) → (⟨S400000x5, .f32⟩ : BufTy).Contents (Elt F) → (⟨S400000x5, .f32⟩ : BufTy).Contents (Elt F))) (t_main_v20 V0) (t_main_v21 V0)

/-- What operation 30 writes. -/
def t_main_v23 (V0 : Valuation τ sig (Elt F)) : (Proc.devRef .tc main_v23 : DevRef τ sig).ty.Contents (Elt F) :=
  (((fun a b => concatenate S400000x7 1 [⟨S400000x2, a⟩, ⟨S400000x5, b⟩] concatenates_S400000x2_S400000x5_S400000x7_d1) : (⟨S400000x2, .f32⟩ : BufTy).Contents (Elt F) → (⟨S400000x5, .f32⟩ : BufTy).Contents (Elt F) → (⟨S400000x7, .f32⟩ : BufTy).Contents (Elt F))) (V0 (Proc.devRef .tc main_arg0)) (t_main_v22 V0)

/-- What operation 31 writes. -/
def t_main_v24 (V0 : Valuation τ sig (Elt F)) : (Proc.devRef .tc main_v24 : DevRef τ sig).ty.Contents (Elt F) :=
  (((extractStridedSlice S1x7x128 ![0, 0, 0] · slices_S2x7x128_S1x7x128_0_0_0) : (⟨S2x7x128, .f32⟩ : BufTy).Contents (Elt F) → (⟨S1x7x128, .f32⟩ : BufTy).Contents (Elt F))) (V0 (Proc.devRef .tc main_arg3))

/-- What operation 32 writes. -/
def t_main_v25 (V0 : Valuation τ sig (Elt F)) : (Proc.devRef .tc main_v25 : DevRef τ sig).ty.Contents (Elt F) :=
  shapeCast _ (t_main_v24 V0) shapeCasts_S1x7x128_S7x128

/-- What operation 33 writes. -/
def t_main_v26 (V0 : Valuation τ sig (Elt F)) : (Proc.devRef .tc main_v26 : DevRef τ sig).ty.Contents (Elt F) :=
  (((fun l r => Host.dotGeneral dot_S400000x7_S7x128_S400000x128_1_0_0_1_n_n none l r) : (⟨S400000x7, .f32⟩ : BufTy).Contents (Elt F) → (⟨S7x128, .f32⟩ : BufTy).Contents (Elt F) → (⟨S400000x128, .f32⟩ : BufTy).Contents (Elt F))) (t_main_v23 V0) (t_main_v25 V0)

/-- What operation 34 writes. -/
def t_main_v27 (V0 : Valuation τ sig (Elt F)) : (Proc.devRef .tc main_v27 : DevRef τ sig).ty.Contents (Elt F) :=
  (((extractStridedSlice S1x128 ![0, 0] · slices_S2x128_S1x128_0_0) : (⟨S2x128, .f32⟩ : BufTy).Contents (Elt F) → (⟨S1x128, .f32⟩ : BufTy).Contents (Elt F))) (V0 (Proc.devRef .tc main_arg4))

/-- What operation 35 writes. -/
def t_main_v28 (V0 : Valuation τ sig (Elt F)) : (Proc.devRef .tc main_v28 : DevRef τ sig).ty.Contents (Elt F) :=
  shapeCast _ (t_main_v27 V0) shapeCasts_S1x128_S128

/-- What operation 36 writes. -/
def t_main_v29 (V0 : Valuation τ sig (Elt F)) : (Proc.devRef .tc main_v29 : DevRef τ sig).ty.Contents (Elt F) :=
  ((broadcastInDim S1x128 ![1] bcast_S128_S1x128_1 : (⟨S128, .f32⟩ : BufTy).Contents (Elt F) → (⟨S1x128, .f32⟩ : BufTy).Contents (Elt F))) (t_main_v28 V0)

/-- What operation 37 writes. -/
def t_main_v30 (V0 : Valuation τ sig (Elt F)) : (Proc.devRef .tc main_v30 : DevRef τ sig).ty.Contents (Elt F) :=
  ((broadcastInDim S400000x128 ![0, 1] bcast_S1x128_S400000x128_0_1 : (⟨S1x128, .f32⟩ : BufTy).Contents (Elt F) → (⟨S400000x128, .f32⟩ : BufTy).Contents (Elt F))) (t_main_v29 V0)

/-- What operation 38 writes. -/
def t_main_v31 (V0 : Valuation τ sig (Elt F)) : (Proc.devRef .tc main_v31 : DevRef τ sig).ty.Contents (Elt F) :=
  ((addf : (⟨S400000x128, .f32⟩ : BufTy).Contents (Elt F) → (⟨S400000x128, .f32⟩ : BufTy).Contents (Elt F) → (⟨S400000x128, .f32⟩ : BufTy).Contents (Elt F))) (t_main_v26 V0) (t_main_v30 V0)

/-- What operation 39 writes. -/
def t_main_call0_cst (V0 : Valuation τ sig (Elt F)) : (Proc.devRef .tc main_call0_cst : DevRef τ sig).ty.Contents (Elt F) :=
  (constant S_ .f32 0x00000000#32)

/-- What operation 40 writes. -/
def t_main_call0_v0 (V0 : Valuation τ sig (Elt F)) : (Proc.devRef .tc main_call0_v0 : DevRef τ sig).ty.Contents (Elt F) :=
  (broadcastInDim S400000x128 ![] bcast_S_S400000x128) (t_main_call0_cst V0)

/-- What operation 41 writes. -/
def t_main_v32 (V0 : Valuation τ sig (Elt F)) : (Proc.devRef .tc main_v32 : DevRef τ sig).ty.Contents (Elt F) :=
  maximumf (t_main_v31 V0) (t_main_call0_v0 V0)

/-- What operation 42 writes. -/
def t_main_v33 (V0 : Valuation τ sig (Elt F)) : (Proc.devRef .tc main_v33 : DevRef τ sig).ty.Contents (Elt F) :=
  (((extractStridedSlice S1x128x2 ![0, 0, 0] · slices_S2x128x2_S1x128x2_0_0_0) : (⟨S2x128x2, .f32⟩ : BufTy).Contents (Elt F) → (⟨S1x128x2, .f32⟩ : BufTy).Contents (Elt F))) (V0 (Proc.devRef .tc main_arg5))

/-- What operation 43 writes. -/
def t_main_v34 (V0 : Valuation τ sig (Elt F)) : (Proc.devRef .tc main_v34 : DevRef τ sig).ty.Contents (Elt F) :=
  shapeCast _ (t_main_v33 V0) shapeCasts_S1x128x2_S128x2

/-- What operation 44 writes. -/
def t_main_v35 (V0 : Valuation τ sig (Elt F)) : (Proc.devRef .tc main_v35 : DevRef τ sig).ty.Contents (Elt F) :=
  (((fun l r => Host.dotGeneral dot_S400000x128_S128x2_S400000x2_1_0_0_1_n_n none l r) : (⟨S400000x128, .f32⟩ : BufTy).Contents (Elt F) → (⟨S128x2, .f32⟩ : BufTy).Contents (Elt F) → (⟨S400000x2, .f32⟩ : BufTy).Contents (Elt F))) (t_main_v32 V0) (t_main_v34 V0)

/-- What operation 45 writes. -/
def t_main_v36 (V0 : Valuation τ sig (Elt F)) : (Proc.devRef .tc main_v36 : DevRef τ sig).ty.Contents (Elt F) :=
  (((extractStridedSlice S1x2 ![0, 0] · slices_S2x2_S1x2_0_0) : (⟨S2x2, .f32⟩ : BufTy).Contents (Elt F) → (⟨S1x2, .f32⟩ : BufTy).Contents (Elt F))) (V0 (Proc.devRef .tc main_arg6))

/-- What operation 46 writes. -/
def t_main_v37 (V0 : Valuation τ sig (Elt F)) : (Proc.devRef .tc main_v37 : DevRef τ sig).ty.Contents (Elt F) :=
  shapeCast _ (t_main_v36 V0) shapeCasts_S1x2_S2

/-- What operation 47 writes. -/
def t_main_v38 (V0 : Valuation τ sig (Elt F)) : (Proc.devRef .tc main_v38 : DevRef τ sig).ty.Contents (Elt F) :=
  ((broadcastInDim S1x2 ![1] bcast_S2_S1x2_1 : (⟨S2, .f32⟩ : BufTy).Contents (Elt F) → (⟨S1x2, .f32⟩ : BufTy).Contents (Elt F))) (t_main_v37 V0)

/-- What operation 48 writes. -/
def t_main_v39 (V0 : Valuation τ sig (Elt F)) : (Proc.devRef .tc main_v39 : DevRef τ sig).ty.Contents (Elt F) :=
  ((broadcastInDim S400000x2 ![0, 1] bcast_S1x2_S400000x2_0_1 : (⟨S1x2, .f32⟩ : BufTy).Contents (Elt F) → (⟨S400000x2, .f32⟩ : BufTy).Contents (Elt F))) (t_main_v38 V0)

/-- What operation 49 writes. -/
def t_main_v40 (V0 : Valuation τ sig (Elt F)) : (Proc.devRef .tc main_v40 : DevRef τ sig).ty.Contents (Elt F) :=
  ((addf : (⟨S400000x2, .f32⟩ : BufTy).Contents (Elt F) → (⟨S400000x2, .f32⟩ : BufTy).Contents (Elt F) → (⟨S400000x2, .f32⟩ : BufTy).Contents (Elt F))) (t_main_v35 V0) (t_main_v39 V0)

/-- What operation 50 writes. -/
def t_main_c_4 (V0 : Valuation τ sig (Elt F)) : (Proc.devRef .tc main_c_4 : DevRef τ sig).ty.Contents (Elt F) :=
  (constantI S_ 32 0#32)

/-- What operation 51 writes. -/
def t_main_v41 (V0 : Valuation τ sig (Elt F)) : (Proc.devRef .tc main_v41 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_4 V0)

/-- What operation 52 writes. -/
def t_main_v42 (V0 : Valuation τ sig (Elt F)) : (Proc.devRef .tc main_v42 : DevRef τ sig).ty.Contents (Elt F) :=
  ((cmpi .slt : (⟨S19600000, .i32⟩ : BufTy).Contents (Elt F) → (⟨S19600000, .i32⟩ : BufTy).Contents (Elt F) → (⟨S19600000, .i1⟩ : BufTy).Contents (Elt F))) (t_main_v3 V0) (t_main_v41 V0)

/-- What operation 53 writes. -/
def t_main_c_5 (V0 : Valuation τ sig (Elt F)) : (Proc.devRef .tc main_c_5 : DevRef τ sig).ty.Contents (Elt F) :=
  (constantI S_ 32 400000#32)

/-- What operation 54 writes. -/
def t_main_v43 (V0 : Valuation τ sig (Elt F)) : (Proc.devRef .tc main_v43 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_5 V0)

/-- What operation 55 writes. -/
def t_main_v44 (V0 : Valuation τ sig (Elt F)) : (Proc.devRef .tc main_v44 : DevRef τ sig).ty.Contents (Elt F) :=
  ((addi : (⟨S19600000, .i32⟩ : BufTy).Contents (Elt F) → (⟨S19600000, .i32⟩ : BufTy).Contents (Elt F) → (⟨S19600000, .i32⟩ : BufTy).Contents (Elt F))) (t_main_v3 V0) (t_main_v43 V0)

/-- What operation 56 writes. -/
def t_main_v45 (V0 : Valuation τ sig (Elt F)) : (Proc.devRef .tc main_v45 : DevRef τ sig).ty.Contents (Elt F) :=
  ((select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F))) (t_main_v42 V0) (t_main_v44 V0) (t_main_v3 V0)

/-- What operation 57 writes. -/
def t_main_v46 (V0 : Valuation τ sig (Elt F)) : (Proc.devRef .tc main_v46 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v45 V0)

/-- What operation 58 writes. -/
def t_main_v47 (V0 : Valuation τ sig (Elt F)) : (Proc.devRef .tc main_v47 : DevRef τ sig).ty.Contents (Elt F) :=
  (((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F))) (t_main_v40 V0) (t_main_v46 V0)

/-- What operation 59 writes. -/
def t_main_v48 (V0 : Valuation τ sig (Elt F)) : (Proc.devRef .tc main_v48 : DevRef τ sig).ty.Contents (Elt F) :=
  (((fun a b => concatenate S19600000x5 1 [⟨S19600000x2, a⟩, ⟨S19600000x3, b⟩] concatenates_S19600000x2_S19600000x3_S19600000x5_d1) : (⟨S19600000x2, .f32⟩ : BufTy).Contents (Elt F) → (⟨S19600000x3, .f32⟩ : BufTy).Contents (Elt F) → (⟨S19600000x5, .f32⟩ : BufTy).Contents (Elt F))) (t_main_v47 V0) (V0 (Proc.devRef .tc main_arg2))

/-- What operation 60 writes. -/
def t_main_cst_6 (V0 : Valuation τ sig (Elt F)) : (Proc.devRef .tc main_cst_6 : DevRef τ sig).ty.Contents (Elt F) :=
  (constant S_ .f32 0x00000000#32)

/-- What operation 61 writes. -/
def t_main_v49 (V0 : Valuation τ sig (Elt F)) : (Proc.devRef .tc main_v49 : DevRef τ sig).ty.Contents (Elt F) :=
  ((broadcastInDim S400000x5 ![] bcast_S_S400000x5 : (⟨S_, .f32⟩ : BufTy).Contents (Elt F) → (⟨S400000x5, .f32⟩ : BufTy).Contents (Elt F))) (t_main_cst_6 V0)

/-- What operation 62 writes. -/
def t_main_v50 (V0 : Valuation τ sig (Elt F)) : (Proc.devRef .tc main_v50 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v3 V0)

/-- What operation 63 writes. -/
def t_main_v51 (V0 : Valuation τ sig (Elt F)) : (Proc.devRef .tc main_v51 : DevRef τ sig).ty.Contents (Elt F) :=
  (((fun x i u => Host.scatterAdd scatter_S400000x5_S19600000x1_S19600000x5_1_0_0_1 x i u) : (⟨S400000x5, .f32⟩ : BufTy).Contents (Elt F) → (⟨S19600000x1, .i32⟩ : BufTy).Contents (Elt F) → (⟨S19600000x5, .f32⟩ : BufTy).Contents (Elt F) → (⟨S400000x5, .f32⟩ : BufTy).Contents (Elt F))) (t_main_v49 V0) (t_main_v50 V0) (t_main_v48 V0)

/-- What operation 64 writes. -/
def t_main_v52 (V0 : Valuation τ sig (Elt F)) : (Proc.devRef .tc main_v52 : DevRef τ sig).ty.Contents (Elt F) :=
  ((broadcastInDim S400000x5 ![0, 1] bcast_S400000x1_S400000x5_0_1 : (⟨S400000x1, .f32⟩ : BufTy).Contents (Elt F) → (⟨S400000x5, .f32⟩ : BufTy).Contents (Elt F))) (t_main_v9 V0)

/-- What operation 65 writes. -/
def t_main_v53 (V0 : Valuation τ sig (Elt F)) : (Proc.devRef .tc main_v53 : DevRef τ sig).ty.Contents (Elt F) :=
  ((Host.divf : (⟨S400000x5, .f32⟩ : BufTy).Contents (Elt F) → (⟨S400000x5, .f32⟩ : BufTy).Contents (Elt F) → (⟨S400000x5, .f32⟩ : BufTy).Contents (Elt F))) (t_main_v51 V0) (t_main_v52 V0)

/-- What operation 66 writes. -/
def t_main_v54 (V0 : Valuation τ sig (Elt F)) : (Proc.devRef .tc main_v54 : DevRef τ sig).ty.Contents (Elt F) :=
  (((fun a b => concatenate S400000x7 1 [⟨S400000x2, a⟩, ⟨S400000x5, b⟩] concatenates_S400000x2_S400000x5_S400000x7_d1) : (⟨S400000x2, .f32⟩ : BufTy).Contents (Elt F) → (⟨S400000x5, .f32⟩ : BufTy).Contents (Elt F) → (⟨S400000x7, .f32⟩ : BufTy).Contents (Elt F))) (t_main_v40 V0) (t_main_v53 V0)

/-- What operation 67 writes. -/
def t_main_v55 (V0 : Valuation τ sig (Elt F)) : (Proc.devRef .tc main_v55 : DevRef τ sig).ty.Contents (Elt F) :=
  (((extractStridedSlice S1x7x128 ![1, 0, 0] · slices_S2x7x128_S1x7x128_1_0_0) : (⟨S2x7x128, .f32⟩ : BufTy).Contents (Elt F) → (⟨S1x7x128, .f32⟩ : BufTy).Contents (Elt F))) (V0 (Proc.devRef .tc main_arg3))

/-- What operation 68 writes. -/
def t_main_v56 (V0 : Valuation τ sig (Elt F)) : (Proc.devRef .tc main_v56 : DevRef τ sig).ty.Contents (Elt F) :=
  shapeCast _ (t_main_v55 V0) shapeCasts_S1x7x128_S7x128

/-- What operation 69 writes. -/
def t_main_v57 (V0 : Valuation τ sig (Elt F)) : (Proc.devRef .tc main_v57 : DevRef τ sig).ty.Contents (Elt F) :=
  (((fun l r => Host.dotGeneral dot_S400000x7_S7x128_S400000x128_1_0_0_1_n_n none l r) : (⟨S400000x7, .f32⟩ : BufTy).Contents (Elt F) → (⟨S7x128, .f32⟩ : BufTy).Contents (Elt F) → (⟨S400000x128, .f32⟩ : BufTy).Contents (Elt F))) (t_main_v54 V0) (t_main_v56 V0)

/-- What operation 70 writes. -/
def t_main_v58 (V0 : Valuation τ sig (Elt F)) : (Proc.devRef .tc main_v58 : DevRef τ sig).ty.Contents (Elt F) :=
  (((extractStridedSlice S1x128 ![1, 0] · slices_S2x128_S1x128_1_0) : (⟨S2x128, .f32⟩ : BufTy).Contents (Elt F) → (⟨S1x128, .f32⟩ : BufTy).Contents (Elt F))) (V0 (Proc.devRef .tc main_arg4))

/-- What operation 71 writes. -/
def t_main_v59 (V0 : Valuation τ sig (Elt F)) : (Proc.devRef .tc main_v59 : DevRef τ sig).ty.Contents (Elt F) :=
  shapeCast _ (t_main_v58 V0) shapeCasts_S1x128_S128

/-- What operation 72 writes. -/
def t_main_v60 (V0 : Valuation τ sig (Elt F)) : (Proc.devRef .tc main_v60 : DevRef τ sig).ty.Contents (Elt F) :=
  ((broadcastInDim S1x128 ![1] bcast_S128_S1x128_1 : (⟨S128, .f32⟩ : BufTy).Contents (Elt F) → (⟨S1x128, .f32⟩ : BufTy).Contents (Elt F))) (t_main_v59 V0)

/-- What operation 73 writes. -/
def t_main_v61 (V0 : Valuation τ sig (Elt F)) : (Proc.devRef .tc main_v61 : DevRef τ sig).ty.Contents (Elt F) :=
  ((broadcastInDim S400000x128 ![0, 1] bcast_S1x128_S400000x128_0_1 : (⟨S1x128, .f32⟩ : BufTy).Contents (Elt F) → (⟨S400000x128, .f32⟩ : BufTy).Contents (Elt F))) (t_main_v60 V0)

/-- What operation 74 writes. -/
def t_main_v62 (V0 : Valuation τ sig (Elt F)) : (Proc.devRef .tc main_v62 : DevRef τ sig).ty.Contents (Elt F) :=
  ((addf : (⟨S400000x128, .f32⟩ : BufTy).Contents (Elt F) → (⟨S400000x128, .f32⟩ : BufTy).Contents (Elt F) → (⟨S400000x128, .f32⟩ : BufTy).Contents (Elt F))) (t_main_v57 V0) (t_main_v61 V0)

/-- What operation 75 writes. -/
def t_main_call1_cst (V0 : Valuation τ sig (Elt F)) : (Proc.devRef .tc main_call1_cst : DevRef τ sig).ty.Contents (Elt F) :=
  (constant S_ .f32 0x00000000#32)

/-- What operation 76 writes. -/
def t_main_call1_v0 (V0 : Valuation τ sig (Elt F)) : (Proc.devRef .tc main_call1_v0 : DevRef τ sig).ty.Contents (Elt F) :=
  (broadcastInDim S400000x128 ![] bcast_S_S400000x128) (t_main_call1_cst V0)

/-- What operation 77 writes. -/
def t_main_v63 (V0 : Valuation τ sig (Elt F)) : (Proc.devRef .tc main_v63 : DevRef τ sig).ty.Contents (Elt F) :=
  maximumf (t_main_v62 V0) (t_main_call1_v0 V0)

/-- What operation 78 writes. -/
def t_main_v64 (V0 : Valuation τ sig (Elt F)) : (Proc.devRef .tc main_v64 : DevRef τ sig).ty.Contents (Elt F) :=
  (((extractStridedSlice S1x128x2 ![1, 0, 0] · slices_S2x128x2_S1x128x2_1_0_0) : (⟨S2x128x2, .f32⟩ : BufTy).Contents (Elt F) → (⟨S1x128x2, .f32⟩ : BufTy).Contents (Elt F))) (V0 (Proc.devRef .tc main_arg5))

/-- What operation 79 writes. -/
def t_main_v65 (V0 : Valuation τ sig (Elt F)) : (Proc.devRef .tc main_v65 : DevRef τ sig).ty.Contents (Elt F) :=
  shapeCast _ (t_main_v64 V0) shapeCasts_S1x128x2_S128x2

/-- What operation 80 writes. -/
def t_main_v66 (V0 : Valuation τ sig (Elt F)) : (Proc.devRef .tc main_v66 : DevRef τ sig).ty.Contents (Elt F) :=
  (((fun l r => Host.dotGeneral dot_S400000x128_S128x2_S400000x2_1_0_0_1_n_n none l r) : (⟨S400000x128, .f32⟩ : BufTy).Contents (Elt F) → (⟨S128x2, .f32⟩ : BufTy).Contents (Elt F) → (⟨S400000x2, .f32⟩ : BufTy).Contents (Elt F))) (t_main_v63 V0) (t_main_v65 V0)

/-- What operation 81 writes. -/
def t_main_v67 (V0 : Valuation τ sig (Elt F)) : (Proc.devRef .tc main_v67 : DevRef τ sig).ty.Contents (Elt F) :=
  (((extractStridedSlice S1x2 ![1, 0] · slices_S2x2_S1x2_1_0) : (⟨S2x2, .f32⟩ : BufTy).Contents (Elt F) → (⟨S1x2, .f32⟩ : BufTy).Contents (Elt F))) (V0 (Proc.devRef .tc main_arg6))

/-- What operation 82 writes. -/
def t_main_v68 (V0 : Valuation τ sig (Elt F)) : (Proc.devRef .tc main_v68 : DevRef τ sig).ty.Contents (Elt F) :=
  shapeCast _ (t_main_v67 V0) shapeCasts_S1x2_S2

/-- What operation 83 writes. -/
def t_main_v69 (V0 : Valuation τ sig (Elt F)) : (Proc.devRef .tc main_v69 : DevRef τ sig).ty.Contents (Elt F) :=
  ((broadcastInDim S1x2 ![1] bcast_S2_S1x2_1 : (⟨S2, .f32⟩ : BufTy).Contents (Elt F) → (⟨S1x2, .f32⟩ : BufTy).Contents (Elt F))) (t_main_v68 V0)

/-- What operation 84 writes. -/
def t_main_v70 (V0 : Valuation τ sig (Elt F)) : (Proc.devRef .tc main_v70 : DevRef τ sig).ty.Contents (Elt F) :=
  ((broadcastInDim S400000x2 ![0, 1] bcast_S1x2_S400000x2_0_1 : (⟨S1x2, .f32⟩ : BufTy).Contents (Elt F) → (⟨S400000x2, .f32⟩ : BufTy).Contents (Elt F))) (t_main_v69 V0)

/-- What operation 85 writes. -/
def t_main_v71 (V0 : Valuation τ sig (Elt F)) : (Proc.devRef .tc main_v71 : DevRef τ sig).ty.Contents (Elt F) :=
  ((addf : (⟨S400000x2, .f32⟩ : BufTy).Contents (Elt F) → (⟨S400000x2, .f32⟩ : BufTy).Contents (Elt F) → (⟨S400000x2, .f32⟩ : BufTy).Contents (Elt F))) (t_main_v66 V0) (t_main_v70 V0)

/-- What operation 86 writes. -/
def t_main_c_7 (V0 : Valuation τ sig (Elt F)) : (Proc.devRef .tc main_c_7 : DevRef τ sig).ty.Contents (Elt F) :=
  (constantI S_ 32 0#32)

/-- What operation 87 writes. -/
def t_main_v72 (V0 : Valuation τ sig (Elt F)) : (Proc.devRef .tc main_v72 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_7 V0)

/-- What operation 88 writes. -/
def t_main_v73 (V0 : Valuation τ sig (Elt F)) : (Proc.devRef .tc main_v73 : DevRef τ sig).ty.Contents (Elt F) :=
  ((cmpi .slt : (⟨S19600000, .i32⟩ : BufTy).Contents (Elt F) → (⟨S19600000, .i32⟩ : BufTy).Contents (Elt F) → (⟨S19600000, .i1⟩ : BufTy).Contents (Elt F))) (t_main_v1 V0) (t_main_v72 V0)

/-- What operation 89 writes. -/
def t_main_c_8 (V0 : Valuation τ sig (Elt F)) : (Proc.devRef .tc main_c_8 : DevRef τ sig).ty.Contents (Elt F) :=
  (constantI S_ 32 400000#32)

/-- What operation 90 writes. -/
def t_main_v74 (V0 : Valuation τ sig (Elt F)) : (Proc.devRef .tc main_v74 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_8 V0)

/-- What operation 91 writes. -/
def t_main_v75 (V0 : Valuation τ sig (Elt F)) : (Proc.devRef .tc main_v75 : DevRef τ sig).ty.Contents (Elt F) :=
  ((addi : (⟨S19600000, .i32⟩ : BufTy).Contents (Elt F) → (⟨S19600000, .i32⟩ : BufTy).Contents (Elt F) → (⟨S19600000, .i32⟩ : BufTy).Contents (Elt F))) (t_main_v1 V0) (t_main_v74 V0)

/-- What operation 92 writes. -/
def t_main_v76 (V0 : Valuation τ sig (Elt F)) : (Proc.devRef .tc main_v76 : DevRef τ sig).ty.Contents (Elt F) :=
  ((select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F))) (t_main_v73 V0) (t_main_v75 V0) (t_main_v1 V0)

/-- What operation 93 writes. -/
def t_main_v77 (V0 : Valuation τ sig (Elt F)) : (Proc.devRef .tc main_v77 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v76 V0)

/-- What operation 94 writes. -/
def t_main_v78 (V0 : Valuation τ sig (Elt F)) : (Proc.devRef .tc main_v78 : DevRef τ sig).ty.Contents (Elt F) :=
  (((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F))) (t_main_v71 V0) (t_main_v77 V0)

/-- What operation 95 writes. -/
def t_main_c_9 (V0 : Valuation τ sig (Elt F)) : (Proc.devRef .tc main_c_9 : DevRef τ sig).ty.Contents (Elt F) :=
  (constantI S_ 32 0#32)

/-- What operation 96 writes. -/
def t_main_v79 (V0 : Valuation τ sig (Elt F)) : (Proc.devRef .tc main_v79 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_9 V0)

/-- What operation 97 writes. -/
def t_main_v80 (V0 : Valuation τ sig (Elt F)) : (Proc.devRef .tc main_v80 : DevRef τ sig).ty.Contents (Elt F) :=
  ((cmpi .slt : (⟨S19600000, .i32⟩ : BufTy).Contents (Elt F) → (⟨S19600000, .i32⟩ : BufTy).Contents (Elt F) → (⟨S19600000, .i1⟩ : BufTy).Contents (Elt F))) (t_main_v3 V0) (t_main_v79 V0)

/-- What operation 98 writes. -/
def t_main_c_10 (V0 : Valuation τ sig (Elt F)) : (Proc.devRef .tc main_c_10 : DevRef τ sig).ty.Contents (Elt F) :=
  (constantI S_ 32 400000#32)

/-- What operation 99 writes. -/
def t_main_v81 (V0 : Valuation τ sig (Elt F)) : (Proc.devRef .tc main_v81 : DevRef τ sig).ty.Contents (Elt F) :=
  ((broadcastInDim S19600000 ![] bcast_S_S19600000 : (⟨S_, .i32⟩ : BufTy).Contents (Elt F) → (⟨S19600000, .i32⟩ : BufTy).Contents (Elt F))) (t_main_c_10 V0)

/-- What operation 100 writes. -/
def t_main_v82 (V0 : Valuation τ sig (Elt F)) : (Proc.devRef .tc main_v82 : DevRef τ sig).ty.Contents (Elt F) :=
  ((addi : (⟨S19600000, .i32⟩ : BufTy).Contents (Elt F) → (⟨S19600000, .i32⟩ : BufTy).Contents (Elt F) → (⟨S19600000, .i32⟩ : BufTy).Contents (Elt F))) (t_main_v3 V0) (t_main_v81 V0)

/-- What operation 101 writes. -/
def t_main_v83 (V0 : Valuation τ sig (Elt F)) : (Proc.devRef .tc main_v83 : DevRef τ sig).ty.Contents (Elt F) :=
  ((select : (⟨S19600000, .i1⟩ : BufTy).Contents (Elt F) → (⟨S19600000, .i32⟩ : BufTy).Contents (Elt F) → (⟨S19600000, .i32⟩ : BufTy).Contents (Elt F) → (⟨S19600000, .i32⟩ : BufTy).Contents (Elt F))) (t_main_v80 V0) (t_main_v82 V0) (t_main_v3 V0)

/-- What operation 102 writes. -/
def t_main_v84 (V0 : Valuation τ sig (Elt F)) : (Proc.devRef .tc main_v84 : DevRef τ sig).ty.Contents (Elt F) :=
  ((broadcastInDim S19600000x1 ![0] bcast_S19600000_S19600000x1_0 : (⟨S19600000, .i32⟩ : BufTy).Contents (Elt F) → (⟨S19600000x1, .i32⟩ : BufTy).Contents (Elt F))) (t_main_v83 V0)

/-- What operation 103 writes. -/
def t_main_v85 (V0 : Valuation τ sig (Elt F)) : (Proc.devRef .tc main_v85 : DevRef τ sig).ty.Contents (Elt F) :=
  (((fun x i => Host.gather gather_S400000x2_S19600000x1_S19600000x2_1_0_n_n_0_1_12 x i) : (⟨S400000x2, .f32⟩ : BufTy).Contents (Elt F) → (⟨S19600000x1, .i32⟩ : BufTy).Contents (Elt F) → (⟨S19600000x2, .f32⟩ : BufTy).Contents (Elt F))) (t_main_v71 V0) (t_main_v84 V0)

/-- What operation 104 writes. -/
def t_main_v86 (V0 : Valuation τ sig (Elt F)) : (Proc.devRef .tc main_v86 : DevRef τ sig).ty.Contents (Elt F) :=
  ((subf : (⟨S19600000x2, .f32⟩ : BufTy).Contents (Elt F) → (⟨S19600000x2, .f32⟩ : BufTy).Contents (Elt F) → (⟨S19600000x2, .f32⟩ : BufTy).Contents (Elt F))) (t_main_v78 V0) (t_main_v85 V0)

/-- What operation 105 writes. -/
def t_main_v87 (V0 : Valuation τ sig (Elt F)) : (Proc.devRef .tc main_v87 : DevRef τ sig).ty.Contents (Elt F) :=
  ((mulf : (⟨S19600000x2, .f32⟩ : BufTy).Contents (Elt F) → (⟨S19600000x2, .f32⟩ : BufTy).Contents (Elt F) → (⟨S19600000x2, .f32⟩ : BufTy).Contents (Elt F))) (t_main_v86 V0) (t_main_v86 V0)

/-- What operation 106 writes. -/
def t_main_cst_11 (V0 : Valuation τ sig (Elt F)) : (Proc.devRef .tc main_cst_11 : DevRef τ sig).ty.Contents (Elt F) :=
  (constant S_ .f32 0x00000000#32)

/-- What operation 107 writes. -/
def t_main_v88 (V0 : Valuation τ sig (Elt F)) : (Proc.devRef .tc main_v88 : DevRef τ sig).ty.Contents (Elt F) :=
  (((fun x v => Host.reduceAdd x v reducesTo_S19600000x2_S19600000_d1 h_S_) : (⟨S19600000x2, .f32⟩ : BufTy).Contents (Elt F) → (⟨S_, .f32⟩ : BufTy).Contents (Elt F) → (⟨S19600000, .f32⟩ : BufTy).Contents (Elt F))) (t_main_v87 V0) (t_main_cst_11 V0)

/-- What operation 108 writes. -/
def t_main_v89 (V0 : Valuation τ sig (Elt F)) : (Proc.devRef .tc main_v89 : DevRef τ sig).ty.Contents (Elt F) :=
  ((broadcastInDim S19600000x1 ![0] bcast_S19600000_S19600000x1_0 : (⟨S19600000, .f32⟩ : BufTy).Contents (Elt F) → (⟨S19600000x1, .f32⟩ : BufTy).Contents (Elt F))) (t_main_v88 V0)

/-! ## The buffers after each part -/

/-- The device's buffer contents before @main's first part. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-- The device's buffer contents after @main's first 1 part. -/
def val1 (V0 : Valuation τ sig (Elt F)) : Valuation τ sig (Elt F) := after ops_part0 (val0 V0)
/-- The buffers that part 0's operations write. -/
abbrev ops_part0_W : List (Ref sig .tc) := [main_v0, main_v1, main_v2, main_v3, main_cst, main_v4, main_cst_0, main_v5, main_v6, main_v7, main_cst_1, main_v8, main_v9, main_c, main_v10, main_v11, main_c_2, main_v12, main_v13, main_v14, main_v15, main_v16]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 0 does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
set_option maxRecDepth 8192 in
set_option maxHeartbeats 400000 in
theorem val1_main_v1 (V0 : Valuation τ sig (Elt F)) : val1 V0 (no_index (Proc.devRef .tc main_v1)) = t_main_v1 V0 := by
  unfold val1
  simp only [ops_part0]
  after_results_simp
  try simp only [TRef.ofBuf, TRef.toBuf, cast_eq]
  repeat (first | rw [val0_main_arg0] | rw [val0_main_arg1] | rw [val0_main_arg2] | rw [val0_main_arg3] | rw [val0_main_arg4] | rw [val0_main_arg5] | rw [val0_main_arg6])
  try (with_reducible rfl)
  try rfl
set_option maxRecDepth 8192 in
set_option maxHeartbeats 400000 in
theorem val1_main_v3 (V0 : Valuation τ sig (Elt F)) : val1 V0 (no_index (Proc.devRef .tc main_v3)) = t_main_v3 V0 := by
  unfold val1
  simp only [ops_part0]
  after_results_simp
  try simp only [TRef.ofBuf, TRef.toBuf, cast_eq]
  repeat (first | rw [val0_main_arg0] | rw [val0_main_arg1] | rw [val0_main_arg2] | rw [val0_main_arg3] | rw [val0_main_arg4] | rw [val0_main_arg5] | rw [val0_main_arg6])
  try (with_reducible rfl)
  try rfl
set_option maxRecDepth 8192 in
set_option maxHeartbeats 400000 in
theorem val1_main_v9 (V0 : Valuation τ sig (Elt F)) : val1 V0 (no_index (Proc.devRef .tc main_v9)) = t_main_v9 V0 := by
  unfold val1
  simp only [ops_part0]
  after_results_simp
  try simp only [TRef.ofBuf, TRef.toBuf, cast_eq]
  repeat (first | rw [val0_main_arg0] | rw [val0_main_arg1] | rw [val0_main_arg2] | rw [val0_main_arg3] | rw [val0_main_arg4] | rw [val0_main_arg5] | rw [val0_main_arg6])
  try (with_reducible rfl)
  try rfl
set_option maxRecDepth 8192 in
set_option maxHeartbeats 400000 in
theorem val1_main_v16 (V0 : Valuation τ sig (Elt F)) : val1 V0 (no_index (Proc.devRef .tc main_v16)) = t_main_v16 V0 := by
  unfold val1
  simp only [ops_part0]
  after_results_simp
  try simp only [TRef.ofBuf, TRef.toBuf, cast_eq]
  repeat (first | rw [val0_main_arg0] | rw [val0_main_arg1] | rw [val0_main_arg2] | rw [val0_main_arg3] | rw [val0_main_arg4] | rw [val0_main_arg5] | rw [val0_main_arg6])
  try (with_reducible rfl)
  try rfl

/-- The device's buffer contents after @main's first 2 parts. -/
def val2 (V0 : Valuation τ sig (Elt F)) : Valuation τ sig (Elt F) := after ops_part1 (val1 V0)
/-- The buffers that part 1's operations write. -/
abbrev ops_part1_W : List (Ref sig .tc) := [main_v17, main_cst_3, main_v18, main_v19, main_v20, main_v21, main_v22]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_v1 (V0 : Valuation τ sig (Elt F)) : val2 V0 (no_index (Proc.devRef .tc main_v1)) = t_main_v1 V0 :=
  (val2_keep V0 main_v1 (by decide)).trans (val1_main_v1 V0)
theorem val2_main_v3 (V0 : Valuation τ sig (Elt F)) : val2 V0 (no_index (Proc.devRef .tc main_v3)) = t_main_v3 V0 :=
  (val2_keep V0 main_v3 (by decide)).trans (val1_main_v3 V0)
theorem val2_main_v9 (V0 : Valuation τ sig (Elt F)) : val2 V0 (no_index (Proc.devRef .tc main_v9)) = t_main_v9 V0 :=
  (val2_keep V0 main_v9 (by decide)).trans (val1_main_v9 V0)
set_option maxRecDepth 8192 in
set_option maxHeartbeats 400000 in
theorem val2_main_v22 (V0 : Valuation τ sig (Elt F)) : val2 V0 (no_index (Proc.devRef .tc main_v22)) = t_main_v22 V0 := by
  unfold val2
  simp only [ops_part1]
  after_results_simp
  try simp only [TRef.ofBuf, TRef.toBuf, cast_eq]
  repeat (first | rw [val1_main_arg0] | rw [val1_main_arg1] | rw [val1_main_arg2] | rw [val1_main_arg3] | rw [val1_main_arg4] | rw [val1_main_arg5] | rw [val1_main_arg6] | rw [val1_main_v1] | rw [val1_main_v3] | rw [val1_main_v9] | rw [val1_main_v16])
  try (with_reducible rfl)
  try rfl

/-- The device's buffer contents after @main's first 3 parts. -/
def val3 (V0 : Valuation τ sig (Elt F)) : Valuation τ sig (Elt F) := after ops_part2 (val2 V0)
/-- The buffers that part 2's operations write. -/
abbrev ops_part2_W : List (Ref sig .tc) := [main_v23, main_v24, main_v25, main_v26, main_v27, main_v28, main_v29, main_v30, main_v31, main_call0_cst, main_call0_v0, main_v32, main_v33, main_v34, main_v35, main_v36, main_v37, main_v38, main_v39, main_v40, main_c_4, main_v41, main_v42, main_c_5, main_v43, main_v44, main_v45, main_v46, main_v47]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_v1 (V0 : Valuation τ sig (Elt F)) : val3 V0 (no_index (Proc.devRef .tc main_v1)) = t_main_v1 V0 :=
  (val3_keep V0 main_v1 (by decide)).trans (val2_main_v1 V0)
theorem val3_main_v3 (V0 : Valuation τ sig (Elt F)) : val3 V0 (no_index (Proc.devRef .tc main_v3)) = t_main_v3 V0 :=
  (val3_keep V0 main_v3 (by decide)).trans (val2_main_v3 V0)
theorem val3_main_v9 (V0 : Valuation τ sig (Elt F)) : val3 V0 (no_index (Proc.devRef .tc main_v9)) = t_main_v9 V0 :=
  (val3_keep V0 main_v9 (by decide)).trans (val2_main_v9 V0)
set_option maxRecDepth 8192 in
set_option maxHeartbeats 400000 in
theorem val3_main_v40 (V0 : Valuation τ sig (Elt F)) : val3 V0 (no_index (Proc.devRef .tc main_v40)) = t_main_v40 V0 := by
  unfold val3
  simp only [ops_part2]
  after_results_simp
  try simp only [TRef.ofBuf, TRef.toBuf, cast_eq]
  repeat (first | rw [val2_main_arg0] | rw [val2_main_arg1] | rw [val2_main_arg2] | rw [val2_main_arg3] | rw [val2_main_arg4] | rw [val2_main_arg5] | rw [val2_main_arg6] | rw [val2_main_v1] | rw [val2_main_v3] | rw [val2_main_v9] | rw [val2_main_v22])
  try (with_reducible rfl)
  try rfl
set_option maxRecDepth 8192 in
set_option maxHeartbeats 400000 in
theorem val3_main_v47 (V0 : Valuation τ sig (Elt F)) : val3 V0 (no_index (Proc.devRef .tc main_v47)) = t_main_v47 V0 := by
  unfold val3
  simp only [ops_part2]
  after_results_simp
  try simp only [TRef.ofBuf, TRef.toBuf, cast_eq]
  repeat (first | rw [val2_main_arg0] | rw [val2_main_arg1] | rw [val2_main_arg2] | rw [val2_main_arg3] | rw [val2_main_arg4] | rw [val2_main_arg5] | rw [val2_main_arg6] | rw [val2_main_v1] | rw [val2_main_v3] | rw [val2_main_v9] | rw [val2_main_v22])
  try (with_reducible rfl)
  try rfl

/-- The device's buffer contents after @main's first 4 parts. -/
def val4 (V0 : Valuation τ sig (Elt F)) : Valuation τ sig (Elt F) := after ops_part3 (val3 V0)
/-- The buffers that part 3's operations write. -/
abbrev ops_part3_W : List (Ref sig .tc) := [main_v48, main_cst_6, main_v49, main_v50]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_v1 (V0 : Valuation τ sig (Elt F)) : val4 V0 (no_index (Proc.devRef .tc main_v1)) = t_main_v1 V0 :=
  (val4_keep V0 main_v1 (by decide)).trans (val3_main_v1 V0)
theorem val4_main_v3 (V0 : Valuation τ sig (Elt F)) : val4 V0 (no_index (Proc.devRef .tc main_v3)) = t_main_v3 V0 :=
  (val4_keep V0 main_v3 (by decide)).trans (val3_main_v3 V0)
theorem val4_main_v9 (V0 : Valuation τ sig (Elt F)) : val4 V0 (no_index (Proc.devRef .tc main_v9)) = t_main_v9 V0 :=
  (val4_keep V0 main_v9 (by decide)).trans (val3_main_v9 V0)
theorem val4_main_v40 (V0 : Valuation τ sig (Elt F)) : val4 V0 (no_index (Proc.devRef .tc main_v40)) = t_main_v40 V0 :=
  (val4_keep V0 main_v40 (by decide)).trans (val3_main_v40 V0)
set_option maxRecDepth 8192 in
set_option maxHeartbeats 400000 in
theorem val4_main_v48 (V0 : Valuation τ sig (Elt F)) : val4 V0 (no_index (Proc.devRef .tc main_v48)) = t_main_v48 V0 := by
  unfold val4
  simp only [ops_part3]
  after_results_simp
  try simp only [TRef.ofBuf, TRef.toBuf, cast_eq]
  repeat (first | rw [val3_main_arg0] | rw [val3_main_arg1] | rw [val3_main_arg2] | rw [val3_main_arg3] | rw [val3_main_arg4] | rw [val3_main_arg5] | rw [val3_main_arg6] | rw [val3_main_v1] | rw [val3_main_v3] | rw [val3_main_v9] | rw [val3_main_v40] | rw [val3_main_v47])
  try (with_reducible rfl)
  try rfl
set_option maxRecDepth 8192 in
set_option maxHeartbeats 400000 in
theorem val4_main_v49 (V0 : Valuation τ sig (Elt F)) : val4 V0 (no_index (Proc.devRef .tc main_v49)) = t_main_v49 V0 := by
  unfold val4
  simp only [ops_part3]
  after_results_simp
  try simp only [TRef.ofBuf, TRef.toBuf, cast_eq]
  repeat (first | rw [val3_main_arg0] | rw [val3_main_arg1] | rw [val3_main_arg2] | rw [val3_main_arg3] | rw [val3_main_arg4] | rw [val3_main_arg5] | rw [val3_main_arg6] | rw [val3_main_v1] | rw [val3_main_v3] | rw [val3_main_v9] | rw [val3_main_v40] | rw [val3_main_v47])
  try (with_reducible rfl)
  try rfl
set_option maxRecDepth 8192 in
set_option maxHeartbeats 400000 in
theorem val4_main_v50 (V0 : Valuation τ sig (Elt F)) : val4 V0 (no_index (Proc.devRef .tc main_v50)) = t_main_v50 V0 := by
  unfold val4
  simp only [ops_part3]
  after_results_simp
  try simp only [TRef.ofBuf, TRef.toBuf, cast_eq]
  repeat (first | rw [val3_main_arg0] | rw [val3_main_arg1] | rw [val3_main_arg2] | rw [val3_main_arg3] | rw [val3_main_arg4] | rw [val3_main_arg5] | rw [val3_main_arg6] | rw [val3_main_v1] | rw [val3_main_v3] | rw [val3_main_v9] | rw [val3_main_v40] | rw [val3_main_v47])
  try (with_reducible rfl)
  try rfl

/-- The device's buffer contents after @main's first 5 parts. -/
def val5 (V0 : Valuation τ sig (Elt F)) : Valuation τ sig (Elt F) := after ops_part4 (val4 V0)
/-- The buffers that part 4's operations write. -/
abbrev ops_part4_W : List (Ref sig .tc) := [main_v51, main_v52, main_v53]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 4 does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_v1 (V0 : Valuation τ sig (Elt F)) : val5 V0 (no_index (Proc.devRef .tc main_v1)) = t_main_v1 V0 :=
  (val5_keep V0 main_v1 (by decide)).trans (val4_main_v1 V0)
theorem val5_main_v3 (V0 : Valuation τ sig (Elt F)) : val5 V0 (no_index (Proc.devRef .tc main_v3)) = t_main_v3 V0 :=
  (val5_keep V0 main_v3 (by decide)).trans (val4_main_v3 V0)
theorem val5_main_v40 (V0 : Valuation τ sig (Elt F)) : val5 V0 (no_index (Proc.devRef .tc main_v40)) = t_main_v40 V0 :=
  (val5_keep V0 main_v40 (by decide)).trans (val4_main_v40 V0)
set_option maxRecDepth 8192 in
set_option maxHeartbeats 400000 in
theorem val5_main_v53 (V0 : Valuation τ sig (Elt F)) : val5 V0 (no_index (Proc.devRef .tc main_v53)) = t_main_v53 V0 := by
  unfold val5
  simp only [ops_part4]
  after_results_simp
  try simp only [TRef.ofBuf, TRef.toBuf, cast_eq]
  repeat (first | rw [val4_main_arg0] | rw [val4_main_arg1] | rw [val4_main_arg2] | rw [val4_main_arg3] | rw [val4_main_arg4] | rw [val4_main_arg5] | rw [val4_main_arg6] | rw [val4_main_v1] | rw [val4_main_v3] | rw [val4_main_v9] | rw [val4_main_v40] | rw [val4_main_v48] | rw [val4_main_v49] | rw [val4_main_v50])
  try (with_reducible rfl)
  try rfl

/-- The device's buffer contents after @main's first 6 parts. -/
def val6 (V0 : Valuation τ sig (Elt F)) : Valuation τ sig (Elt F) := after ops_part5 (val5 V0)
/-- The buffers that part 5's operations write. -/
abbrev ops_part5_W : List (Ref sig .tc) := [main_v54, main_v55, main_v56, main_v57, main_v58, main_v59, main_v60, main_v61, main_v62, main_call1_cst, main_call1_v0, main_v63, main_v64, main_v65, main_v66, main_v67, main_v68, main_v69, main_v70, main_v71, main_c_7, main_v72, main_v73, main_c_8, main_v74, main_v75, main_v76, main_v77, main_v78, main_c_9, main_v79, main_v80, main_c_10, main_v81, main_v82, main_v83, main_v84, main_v85, main_v86, main_v87, main_cst_11, main_v88, main_v89]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 5 does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
set_option maxRecDepth 8192 in
set_option maxHeartbeats 400000 in
theorem val6_main_v89 (V0 : Valuation τ sig (Elt F)) : val6 V0 (no_index (Proc.devRef .tc main_v89)) = t_main_v89 V0 := by
  unfold val6
  simp only [ops_part5]
  after_results_simp
  try simp only [TRef.ofBuf, TRef.toBuf, cast_eq]
  repeat (first | rw [val5_main_arg0] | rw [val5_main_arg1] | rw [val5_main_arg2] | rw [val5_main_arg3] | rw [val5_main_arg4] | rw [val5_main_arg5] | rw [val5_main_arg6] | rw [val5_main_v1] | rw [val5_main_v3] | rw [val5_main_v40] | rw [val5_main_v53])
  try (with_reducible rfl)
  try rfl

theorem after_ops (V0 : Valuation τ sig (Elt F)) : after ops V0 = val6 V0 := by
  simp only [ops, after_append]
  rfl

set_option maxRecDepth 8192 in
/-- `main_v89`'s composed term of the arguments (named: it is long). -/
def res_main_v89 (m : (ℓ : Loc nD τ sig) → Buf (Elt F) ℓ) (c : Dev nD) : Buf (Elt F) ((c.tc : Thread nD τ).loc main_v89) :=
  broadcastInDim S19600000x1 ![0] bcast_S19600000_S19600000x1_0 (Host.reduceAdd (mulf (subf (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2))))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2)))) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![1, 0, 0] (m ((c.tc : Thread nD τ).loc main_arg3)) slices_S2x7x128_S1x7x128_1_0_0) shapeCasts_S1x7x128_S7x128)) (broadcastInDim S400000x128 ![0, 1] bcast_S1x128_S400000x128_0_1 (broadcastInDim S1x128 ![1] bcast_S128_S1x128_1 (shapeCast _ (extractStridedSlice S1x128 ![1, 0] (m ((c.tc : Thread nD τ).loc main_arg4)) slices_S2x128_S1x128_1_0) shapeCasts_S1x128_S128)))) (broadcastInDim S400000x128 ![] bcast_S_S400000x128 (constant S_ .f32 0x00000000#32))) (shapeCast _ (extractStridedSlice S1x128x2 ![1, 0, 0] (m ((c.tc : Thread nD τ).loc main_arg5)) slices_S2x128x2_S1x128x2_1_0_0) shapeCasts_S1x128x2_S128x2)) (broadcastInDim S400000x2 ![0, 1] bcast_S1x2_S400000x2_0_1 (broadcastInDim S1x2 ![1] bcast_S2_S1x2_1 (shapeCast _ (extractStridedSlice S1x2 ![1, 0] (m ((c.tc : Thread nD τ).loc main_arg6)) slices_S2x2_S1x2_1_0) shapeCasts_S1x2_S2)))) (broadcastInDim S19600000x1 ![0] bcast_S19600000_S19600000x1_0 (select (cmpi .slt (shapeCast _ (extractStridedSlice S1x19600000 ![0, 0] (m ((c.tc : Thread nD τ).loc main_arg1)) slices_S2x19600000_S1x19600000_0_0) shapeCasts_S1x19600000_S19600000) (broadcastInDim S19600000 ![] bcast_S_S19600000 (constantI S_ 32 0#32))) (addi (shapeCast _ (extractStridedSlice S1x19600000 ![0, 0] (m ((c.tc : Thread nD τ).loc main_arg1)) slices_S2x19600000_S1x19600000_0_0) shapeCasts_S1x19600000_S19600000) (broadcastInDim S19600000 ![] bcast_S_S19600000 (constantI S_ 32 400000#32))) (shapeCast _ (extractStridedSlice S1x19600000 ![0, 0] (m ((c.tc : Thread nD τ).loc main_arg1)) slices_S2x19600000_S1x19600000_0_0) shapeCasts_S1x19600000_S19600000)))) (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2))))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2)))) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![1, 0, 0] (m ((c.tc : Thread nD τ).loc main_arg3)) slices_S2x7x128_S1x7x128_1_0_0) shapeCasts_S1x7x128_S7x128)) (broadcastInDim S400000x128 ![0, 1] bcast_S1x128_S400000x128_0_1 (broadcastInDim S1x128 ![1] bcast_S128_S1x128_1 (shapeCast _ (extractStridedSlice S1x128 ![1, 0] (m ((c.tc : Thread nD τ).loc main_arg4)) slices_S2x128_S1x128_1_0) shapeCasts_S1x128_S128)))) (broadcastInDim S400000x128 ![] bcast_S_S400000x128 (constant S_ .f32 0x00000000#32))) (shapeCast _ (extractStridedSlice S1x128x2 ![1, 0, 0] (m ((c.tc : Thread nD τ).loc main_arg5)) slices_S2x128x2_S1x128x2_1_0_0) shapeCasts_S1x128x2_S128x2)) (broadcastInDim S400000x2 ![0, 1] bcast_S1x2_S400000x2_0_1 (broadcastInDim S1x2 ![1] bcast_S2_S1x2_1 (shapeCast _ (extractStridedSlice S1x2 ![1, 0] (m ((c.tc : Thread nD τ).loc main_arg6)) slices_S2x2_S1x2_1_0) shapeCasts_S1x2_S2)))) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))) (subf (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2))))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2)))) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![1, 0, 0] (m ((c.tc : Thread nD τ).loc main_arg3)) slices_S2x7x128_S1x7x128_1_0_0) shapeCasts_S1x7x128_S7x128)) (broadcastInDim S400000x128 ![0, 1] bcast_S1x128_S400000x128_0_1 (broadcastInDim S1x128 ![1] bcast_S128_S1x128_1 (shapeCast _ (extractStridedSlice S1x128 ![1, 0] (m ((c.tc : Thread nD τ).loc main_arg4)) slices_S2x128_S1x128_1_0) shapeCasts_S1x128_S128)))) (broadcastInDim S400000x128 ![] bcast_S_S400000x128 (constant S_ .f32 0x00000000#32))) (shapeCast _ (extractStridedSlice S1x128x2 ![1, 0, 0] (m ((c.tc : Thread nD τ).loc main_arg5)) slices_S2x128x2_S1x128x2_1_0_0) shapeCasts_S1x128x2_S128x2)) (broadcastInDim S400000x2 ![0, 1] bcast_S1x2_S400000x2_0_1 (broadcastInDim S1x2 ![1] bcast_S2_S1x2_1 (shapeCast _ (extractStridedSlice S1x2 ![1, 0] (m ((c.tc : Thread nD τ).loc main_arg6)) slices_S2x2_S1x2_1_0) shapeCasts_S1x2_S2)))) (broadcastInDim S19600000x1 ![0] bcast_S19600000_S19600000x1_0 (select (cmpi .slt (shapeCast _ (extractStridedSlice S1x19600000 ![0, 0] (m ((c.tc : Thread nD τ).loc main_arg1)) slices_S2x19600000_S1x19600000_0_0) shapeCasts_S1x19600000_S19600000) (broadcastInDim S19600000 ![] bcast_S_S19600000 (constantI S_ 32 0#32))) (addi (shapeCast _ (extractStridedSlice S1x19600000 ![0, 0] (m ((c.tc : Thread nD τ).loc main_arg1)) slices_S2x19600000_S1x19600000_0_0) shapeCasts_S1x19600000_S19600000) (broadcastInDim S19600000 ![] bcast_S_S19600000 (constantI S_ 32 400000#32))) (shapeCast _ (extractStridedSlice S1x19600000 ![0, 0] (m ((c.tc : Thread nD τ).loc main_arg1)) slices_S2x19600000_S1x19600000_0_0) shapeCasts_S1x19600000_S19600000)))) (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2))))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (addf (Host.dotGeneral dot_S400000x128_S128x2_S400000x2_1_0_0_1_n_n none (maximumf (addf (Host.dotGeneral dot_S400000x7_S7x128_S400000x128_1_0_0_1_n_n none (concatenate S400000x7 1 [⟨S400000x2, (m ((c.tc : Thread nD τ).loc main_arg0))⟩, ⟨S400000x5, (Host.divf (Host.scatterAdd scatter_S400000x5_S19600000x1_S19600000x5_1_0_0_1 (broadcastInDim S400000x5 ![] bcast_S_S400000x5 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (concatenate S19600000x5 1 [⟨S19600000x2, (Host.gather gather_S400000x2_S19600000x1_S19600000x2_1_0_n_n_0_1_12 (m ((c.tc : Thread nD τ).loc main_arg0)) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![0, 0, 0] (m ((c.tc : Thread nD τ).loc main_arg3)) slices_S2x7x128_S1x7x128_0_0_0) shapeCasts_S1x7x128_S7x128)) (broadcastInDim S400000x128 ![0, 1] bcast_S1x128_S400000x128_0_1 (broadcastInDim S1x128 ![1] bcast_S128_S1x128_1 (shapeCast _ (extractStridedSlice S1x128 ![0, 0] (m ((c.tc : Thread nD τ).loc main_arg4)) slices_S2x128_S1x128_0_0) shapeCasts_S1x128_S128)))) (broadcastInDim S400000x128 ![] bcast_S_S400000x128 (constant S_ .f32 0x00000000#32))) (shapeCast _ (extractStridedSlice S1x128x2 ![0, 0, 0] (m ((c.tc : Thread nD τ).loc main_arg5)) slices_S2x128x2_S1x128x2_0_0_0) shapeCasts_S1x128x2_S128x2)) (broadcastInDim S400000x2 ![0, 1] bcast_S1x2_S400000x2_0_1 (broadcastInDim S1x2 ![1] bcast_S2_S1x2_1 (shapeCast _ (extractStridedSlice S1x2 ![0, 0] (m ((c.tc : Thread nD τ).loc main_arg6)) slices_S2x2_S1x2_0_0) shapeCasts_S1x2_S2)))) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000))))⟩, ⟨S19600000x3, (m ((c.tc : Thread nD τ).loc main_arg2))⟩] concatenates_S19600000x2_S19600000x3_S19600000x5_d1)) (broadcastInDim S400000x5 ![0, 1] bcast_S400000x1_S400000x5_0_1 (maximumf (Host.scatterAdd scatter_S400000x1_S19600000x1_S19600000x1_1_0_0_1 (broadcastInDim S400000x1 ![] bcast_S_S400000x1 (constant S_ .f32 0x00000000#32)) (broadcastInDim S19600000x1 ![0] bcast_S19600000_S19600000x1_0 (shapeCast _ (extractStridedSlice S1x19600000 ![1, 0] (m ((c.tc : Thread nD τ).loc main_arg1)) slices_S2x19600000_S1x19600000_1_0) shapeCasts_S1x19600000_S19600000)) (broadcastInDim S19600000x1 ![] bcast_S_S19600000x1 (constant S_ .f32 0x3F800000#32))) (broadcastInDim S400000x1 ![] bcast_S_S400000x1 (constant S_ .f32 0x3F800000#32)))))⟩] concatenates_S400000x2_S400000x5_S400000x7_d1) (shapeCast _ (extractStridedSlice S1x7x128 ![1, 0, 0] (m ((c.tc : Thread nD τ).loc main_arg3)) slices_S2x7x128_S1x7x128_1_0_0) shapeCasts_S1x7x128_S7x128)) (broadcastInDim S400000x128 ![0, 1] bcast_S1x128_S400000x128_0_1 (broadcastInDim S1x128 ![1] bcast_S128_S1x128_1 (shapeCast _ (extractStridedSlice S1x128 ![1, 0] (m ((c.tc : Thread nD τ).loc main_arg4)) slices_S2x128_S1x128_1_0) shapeCasts_S1x128_S128)))) (broadcastInDim S400000x128 ![] bcast_S_S400000x128 (constant S_ .f32 0x00000000#32))) (shapeCast _ (extractStridedSlice S1x128x2 ![1, 0, 0] (m ((c.tc : Thread nD τ).loc main_arg5)) slices_S2x128x2_S1x128x2_1_0_0) shapeCasts_S1x128x2_S128x2)) (broadcastInDim S400000x2 ![0, 1] bcast_S1x2_S400000x2_0_1 (broadcastInDim S1x2 ![1] bcast_S2_S1x2_1 (shapeCast _ (extractStridedSlice S1x2 ![1, 0] (m ((c.tc : Thread nD τ).loc main_arg6)) slices_S2x2_S1x2_1_0) shapeCasts_S1x2_S2)))) (broadcastInDim S19600000x1 ![0] bcast_S19600000_S19600000x1_0 (select (cmpi .slt (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 0#32))) (addi (shapeCast _ (extractStridedSlice S1x19600000 ![1, 0] (m ((c.tc : Thread nD τ).loc main_arg1)) slices_S2x19600000_S1x19600000_1_0) shapeCasts_S1x19600000_S19600000) (broadcastInDim S19600000 ![] bcast_S_S19600000 (constantI S_ 32 400000#32))) (shapeCast _ (extractStridedSlice S1x19600000 ![1, 0] (m ((c.tc : Thread nD τ).loc main_arg1)) slices_S2x19600000_S1x19600000_1_0) shapeCasts_S1x19600000_S19600000)))))) (constant S_ .f32 0x00000000#32) reducesTo_S19600000x2_S19600000_d1 h_S_)

/-- The same term by its position among the values @main returns, counting from 0. -/
abbrev res_out0 (m : (ℓ : Loc nD τ sig) → Buf (Elt F) ℓ) (c : Dev nD) : Buf (Elt F) ((c.tc : Thread nD τ).loc main_v89) := res_main_v89 m c

set_option maxRecDepth 8192 in
set_option maxHeartbeats 4000000 in
/-- The last operation's term, with every operation's term in place, is the composed term. -/
theorem t_main_v89_eq (m : (ℓ : Loc nD τ sig) → Buf (Elt F) ℓ) (c : Dev nD) :
    t_main_v89 (launchContents m c) = res_main_v89 m c := rfl

set_option maxRecDepth 8192 in
/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = res_main_v89 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v89).trans (by simp only [after_ops]; exact (val6_main_v89 (launchContents m c)).trans (t_main_v89_eq m c)),
      (h c main_arg0).trans (by simp only [after_ops]; exact val6_main_arg0 (launchContents m c)),
      (h c main_arg1).trans (by simp only [after_ops]; exact val6_main_arg1 (launchContents m c)),
      (h c main_arg2).trans (by simp only [after_ops]; exact val6_main_arg2 (launchContents m c)),
      (h c main_arg3).trans (by simp only [after_ops]; exact val6_main_arg3 (launchContents m c)),
      (h c main_arg4).trans (by simp only [after_ops]; exact val6_main_arg4 (launchContents m c)),
      (h c main_arg5).trans (by simp only [after_ops]; exact val6_main_arg5 (launchContents m c)),
      (h c main_arg6).trans (by simp only [after_ops]; exact val6_main_arg6 (launchContents m c))⟩)
    (run_after m ρ)

end Cert.ReferenceIdeal.ValueH

end
-- ==== Proof.Ref.Layer.lean ====
/-
  One layer of the reference program as a function of its operands, and that it is the layer of the specification.

  The reference gathers the node features at each edge's source row, joins them with the edge attributes, accumulates
  the joined rows into the edges' source nodes, divides by the nodes' denominators, joins the result to the node
  features, and applies the two dense maps with a relu between. An edge accumulated into node n has a source word that
  selects row n (Spec.rowOf_of_mem_into), so the accumulated features are a sum of copies of x at n, which the
  specification's law (Spec.agg_law) turns into x times the node's scale.
-/
import proofs.«406876_j85478439125102_3_alg».proof.Proof.Gen.ReferenceIdeal
import proofs.«406876_j85478439125102_3_alg».proof.Proof.Spec
import proofs.«406876_j85478439125102_3_alg».proof.Proof.LibRowOps
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- One layer of the reference, as the host operations compose: `x` the node features, `iw` the edges' source words
    wrapped for the gather, `is_` the edges' source words as the accumulation takes them, `ea` the edge attributes,
    `z5` the accumulation's starting value, `den5` the denominators spread over the five aggregated columns, `W1`,
    `b1b` (the first bias spread over the rows), `zr` (the relu's zero), `W2`, `b2b` (the second bias spread over
    the rows). -/
def layerOps (x : FVec Ideal S400000x2 .f32) (iw is_ : IVec S19600000x1 32) (ea : FVec Ideal S19600000x3 .f32)
    (z5 den5 : FVec Ideal S400000x5 .f32) (W1 : FVec Ideal S7x128 .f32) (b1b zr : FVec Ideal S400000x128 .f32)
    (W2 : FVec Ideal S128x2 .f32) (b2b : FVec Ideal S400000x2 .f32) : FVec Ideal S400000x2 .f32 :=
  addf (Host.dotGeneral dot_S400000x128_S128x2_S400000x2_1_0_0_1_n_n none
    (maximumf (addf (Host.dotGeneral dot_S400000x7_S7x128_S400000x128_1_0_0_1_n_n none
      (concatenate S400000x7 1 [⟨S400000x2, x⟩, ⟨S400000x5,
        (Host.divf (Host.scatterAdd scatter_S400000x5_S19600000x1_S19600000x5_1_0_0_1 z5 is_
          (concatenate S19600000x5 1 [⟨S19600000x2, (Host.gather gather_S400000x2_S19600000x1_S19600000x2_1_0_n_n_0_1_12 x iw)⟩, ⟨S19600000x3, ea⟩] concatenates_S19600000x2_S19600000x3_S19600000x5_d1)) den5)⟩]
        concatenates_S400000x2_S400000x5_S400000x7_d1) W1) b1b) zr) W2) b2b

/-- The first dense map read at a node and a hidden unit: the sum over the seven input columns. -/
theorem dot1_apply (y : FVec Ideal S400000x7 .f32) (W : FVec Ideal S7x128 .f32) (n : Fin 400000) (u : Fin 128) :
    Host.dotGeneral dot_S400000x7_S7x128_S400000x128_1_0_0_1_n_n none y W (ix2 n u)
      = ∑ q : Fin 7, y (ix2 n q) * W (ix2 q u) := by
  simp only [Host.dotGeneral]
  rw [Ideal.dotGeneral_apply, ← Equiv.sum_comp (ValueIdx.contrEquiv1 dot_S400000x7_S7x128_S400000x128_1_0_0_1_n_n 7 rfl rfl).symm]
  refine Finset.sum_congr rfl fun k _ => ?_
  have hk := ValueIdx.contrEquiv1_symm_val dot_S400000x7_S7x128_S400000x128_1_0_0_1_n_n 7 rfl rfl k
  have l0 : ∀ (i : S400000x128.Idx) (q : dot_S400000x7_S7x128_S400000x128_1_0_0_1_n_n.contr.Idx),
      (dot_S400000x7_S7x128_S400000x128_1_0_0_1_n_n.lhsIdx i q 0).val = (i 0).val := by
    intro i q
    unfold DotDims.lhsIdx
    rw [dif_neg (show ¬(0 : Fin S400000x7.rank) ∈ dot_S400000x7_S7x128_S400000x128_1_0_0_1_n_n.lhsBatch by decide), dif_pos (show (0 : Fin S400000x7.rank) ∈ dot_S400000x7_S7x128_S400000x128_1_0_0_1_n_n.lhsNonContracting by decide)]
    rfl
  have l1 : ∀ (i : S400000x128.Idx) (q : dot_S400000x7_S7x128_S400000x128_1_0_0_1_n_n.contr.Idx),
      (dot_S400000x7_S7x128_S400000x128_1_0_0_1_n_n.lhsIdx i q 1).val = (q ⟨0, by decide⟩).val :=
    fun i q => dot_S400000x7_S7x128_S400000x128_1_0_0_1_n_n.lhsIdx_val_of_single rfl i q
  have r0 : ∀ (i : S400000x128.Idx) (q : dot_S400000x7_S7x128_S400000x128_1_0_0_1_n_n.contr.Idx),
      (dot_S400000x7_S7x128_S400000x128_1_0_0_1_n_n.rhsIdx i q 0).val = (q ⟨0, by decide⟩).val :=
    fun i q => dot_S400000x7_S7x128_S400000x128_1_0_0_1_n_n.rhsIdx_val_of_single rfl i q
  have r1 : ∀ (i : S400000x128.Idx) (q : dot_S400000x7_S7x128_S400000x128_1_0_0_1_n_n.contr.Idx),
      (dot_S400000x7_S7x128_S400000x128_1_0_0_1_n_n.rhsIdx i q 1).val = (i 1).val := by
    intro i q
    unfold DotDims.rhsIdx
    rw [dif_neg (show ¬(1 : Fin S7x128.rank) ∈ dot_S400000x7_S7x128_S400000x128_1_0_0_1_n_n.rhsBatch by decide), dif_pos (show (1 : Fin S7x128.rank) ∈ dot_S400000x7_S7x128_S400000x128_1_0_0_1_n_n.rhsNonContracting by decide)]
    rfl
  have el : dot_S400000x7_S7x128_S400000x128_1_0_0_1_n_n.lhsIdx (ix2 n u) ((ValueIdx.contrEquiv1 dot_S400000x7_S7x128_S400000x128_1_0_0_1_n_n 7 rfl rfl).symm k) = ix2 n k := funext fun a => Fin.ext (by
    match a with
    | ⟨0, _⟩ => exact l0 _ _
    | ⟨1, _⟩ => exact (l1 _ _).trans hk)
  have er : dot_S400000x7_S7x128_S400000x128_1_0_0_1_n_n.rhsIdx (ix2 n u) ((ValueIdx.contrEquiv1 dot_S400000x7_S7x128_S400000x128_1_0_0_1_n_n 7 rfl rfl).symm k) = ix2 k u := funext fun a => Fin.ext (by
    match a with
    | ⟨0, _⟩ => exact (r0 _ _).trans hk
    | ⟨1, _⟩ => exact r1 _ _)
  rw [el, er]

/-- The second dense map read at a node and an output column: the sum over the 128 hidden units. -/
theorem dot2_apply (y : FVec Ideal S400000x128 .f32) (W : FVec Ideal S128x2 .f32) (n : Fin 400000) (c : Fin 2) :
    Host.dotGeneral dot_S400000x128_S128x2_S400000x2_1_0_0_1_n_n none y W (ix2 n c)
      = ∑ u : Fin 128, y (ix2 n u) * W (ix2 u c) := by
  simp only [Host.dotGeneral]
  rw [Ideal.dotGeneral_apply, ← Equiv.sum_comp (ValueIdx.contrEquiv1 dot_S400000x128_S128x2_S400000x2_1_0_0_1_n_n 128 rfl rfl).symm]
  refine Finset.sum_congr rfl fun k _ => ?_
  have hk := ValueIdx.contrEquiv1_symm_val dot_S400000x128_S128x2_S400000x2_1_0_0_1_n_n 128 rfl rfl k
  have l0 : ∀ (i : S400000x2.Idx) (q : dot_S400000x128_S128x2_S400000x2_1_0_0_1_n_n.contr.Idx),
      (dot_S400000x128_S128x2_S400000x2_1_0_0_1_n_n.lhsIdx i q 0).val = (i 0).val := by
    intro i q
    unfold DotDims.lhsIdx
    rw [dif_neg (show ¬(0 : Fin S400000x128.rank) ∈ dot_S400000x128_S128x2_S400000x2_1_0_0_1_n_n.lhsBatch by decide), dif_pos (show (0 : Fin S400000x128.rank) ∈ dot_S400000x128_S128x2_S400000x2_1_0_0_1_n_n.lhsNonContracting by decide)]
    rfl
  have l1 : ∀ (i : S400000x2.Idx) (q : dot_S400000x128_S128x2_S400000x2_1_0_0_1_n_n.contr.Idx),
      (dot_S400000x128_S128x2_S400000x2_1_0_0_1_n_n.lhsIdx i q 1).val = (q ⟨0, by decide⟩).val :=
    fun i q => dot_S400000x128_S128x2_S400000x2_1_0_0_1_n_n.lhsIdx_val_of_single rfl i q
  have r0 : ∀ (i : S400000x2.Idx) (q : dot_S400000x128_S128x2_S400000x2_1_0_0_1_n_n.contr.Idx),
      (dot_S400000x128_S128x2_S400000x2_1_0_0_1_n_n.rhsIdx i q 0).val = (q ⟨0, by decide⟩).val :=
    fun i q => dot_S400000x128_S128x2_S400000x2_1_0_0_1_n_n.rhsIdx_val_of_single rfl i q
  have r1 : ∀ (i : S400000x2.Idx) (q : dot_S400000x128_S128x2_S400000x2_1_0_0_1_n_n.contr.Idx),
      (dot_S400000x128_S128x2_S400000x2_1_0_0_1_n_n.rhsIdx i q 1).val = (i 1).val := by
    intro i q
    unfold DotDims.rhsIdx
    rw [dif_neg (show ¬(1 : Fin S128x2.rank) ∈ dot_S400000x128_S128x2_S400000x2_1_0_0_1_n_n.rhsBatch by decide), dif_pos (show (1 : Fin S128x2.rank) ∈ dot_S400000x128_S128x2_S400000x2_1_0_0_1_n_n.rhsNonContracting by decide)]
    rfl
  have el : dot_S400000x128_S128x2_S400000x2_1_0_0_1_n_n.lhsIdx (ix2 n c) ((ValueIdx.contrEquiv1 dot_S400000x128_S128x2_S400000x2_1_0_0_1_n_n 128 rfl rfl).symm k) = ix2 n k := funext fun a => Fin.ext (by
    match a with
    | ⟨0, _⟩ => exact l0 _ _
    | ⟨1, _⟩ => exact (l1 _ _).trans hk)
  have er : dot_S400000x128_S128x2_S400000x2_1_0_0_1_n_n.rhsIdx (ix2 n c) ((ValueIdx.contrEquiv1 dot_S400000x128_S128x2_S400000x2_1_0_0_1_n_n 128 rfl rfl).symm k) = ix2 k c := funext fun a => Fin.ext (by
    match a with
    | ⟨0, _⟩ => exact (r0 _ _).trans hk
    | ⟨1, _⟩ => exact r1 _ _)
  rw [el, er]

/-- The node features joined to the five aggregated columns, read at a node and a column: below column 2 the
    features, from column 2 on the aggregate at the column less 2. -/
theorem cat7_apply (x : FVec Ideal S400000x2 .f32) (g : FVec Ideal S400000x5 .f32) (n : Fin 400000) (q : Fin 7) :
    concatenate S400000x7 1 [⟨S400000x2, x⟩, ⟨S400000x5, g⟩] concatenates_S400000x2_S400000x5_S400000x7_d1 (ix2 n q)
      = if h : q.val < 2 then x (ix2 n ⟨q.val, h⟩) else g (ix2 n ⟨q.val - 2, by omega⟩) := by
  split
  · rename_i h
    exact concatenate_pair_apply_left (1 : Fin S400000x7.rank) x g concatenates_S400000x2_S400000x5_S400000x7_d1
      (ix2 n q) rfl (ix2 n ⟨q.val, h⟩) (fun b => match b with
        | ⟨0, _⟩ => rfl
        | ⟨1, _⟩ => rfl)
  · rename_i h
    exact concatenate_pair_apply_right (1 : Fin S400000x7.rank) x g concatenates_S400000x2_S400000x5_S400000x7_d1
      (ix2 n q) rfl rfl (ix2 n ⟨q.val - 2, by omega⟩) (fun b => match b with
        | ⟨0, _⟩ => fun _ => rfl
        | ⟨1, _⟩ => fun hb => absurd rfl hb)
      (by show q.val - 2 + 2 = q.val; omega)

/-- The gathered features joined to the edge attributes, read at an edge and a column: below column 2 the gathered
    features, from column 2 on the attributes at the column less 2. -/
theorem cat5_apply (g : FVec Ideal S19600000x2 .f32) (ea : FVec Ideal S19600000x3 .f32) (e : Fin 19600000) (c : Fin 5) :
    concatenate S19600000x5 1 [⟨S19600000x2, g⟩, ⟨S19600000x3, ea⟩] concatenates_S19600000x2_S19600000x3_S19600000x5_d1 (ix2 e c)
      = if h : c.val < 2 then g (ix2 e ⟨c.val, h⟩) else ea (ix2 e ⟨c.val - 2, by omega⟩) := by
  split
  · rename_i h
    exact concatenate_pair_apply_left (1 : Fin S19600000x5.rank) g ea concatenates_S19600000x2_S19600000x3_S19600000x5_d1
      (ix2 e c) rfl (ix2 e ⟨c.val, h⟩) (fun b => match b with
        | ⟨0, _⟩ => rfl
        | ⟨1, _⟩ => rfl)
  · rename_i h
    exact concatenate_pair_apply_right (1 : Fin S19600000x5.rank) g ea concatenates_S19600000x2_S19600000x3_S19600000x5_d1
      (ix2 e c) rfl rfl (ix2 e ⟨c.val - 2, by omega⟩) (fun b => match b with
        | ⟨0, _⟩ => fun _ => rfl
        | ⟨1, _⟩ => fun hb => absurd rfl hb)
      (by show c.val - 2 + 2 = c.val; omega)

/-- The printed gather's dimension numbers are a row gather's. -/
theorem gather_eq_rowGather : gather_S400000x2_S19600000x1_S19600000x2_1_0_n_n_0_1_12
    = RowOps.rowGather 400000 19600000 2 Facts₀.gather_S400000x2_S19600000x1_S19600000x2_1_0_n_n_0_1_12_wf := rfl

/-- The printed accumulation's dimension numbers are a row scatter's. -/
theorem scatter_eq_rowScatter : scatter_S400000x5_S19600000x1_S19600000x5_1_0_0_1
    = RowOps.rowScatter 400000 19600000 5 Facts₀.scatter_S400000x5_S19600000x1_S19600000x5_1_0_0_1_wf := rfl

/-- The gather read at an edge and a column: the features at the row the edge's source word selects. -/
theorem gatherOps_apply (x : FVec Ideal S400000x2 .f32) (src : Fin 19600000 → BitVec 32) (iw : IVec S19600000x1 32)
    (hiw : ∀ e : Fin 19600000, iw (ix2 e (0 : Fin 1))
      = Scalar.select (IntOp.cmpi .slt (src e) 0#32) (IntOp.addi (src e) 400000#32) (src e))
    (e : Fin 19600000) (c : Fin 2) :
    Host.gather gather_S400000x2_S19600000x1_S19600000x2_1_0_n_n_0_1_12 x iw (ix2 e c)
      = x (ix2 (Cert.Spec.rowOf (src e)) c) := by
  rw [gather_eq_rowGather]
  refine (RowOps.rowGather_apply (by norm_num) _ x iw e c).trans ?_
  refine congrArg (fun r => x (ix2 r c)) (Fin.ext ?_)
  show min (iw (ix2 e (0 : Fin 1))).toInt.toNat (400000 - 1) = (Cert.Spec.rowOf (src e)).val
  rw [hiw e]
  rfl

/-- The accumulation read at a node and a column: the starting value plus the updates' column summed over the
    edges into the node. -/
theorem scatterOps_apply (z5 : FVec Ideal S400000x5 .f32) (src : Fin 19600000 → BitVec 32) (is_ : IVec S19600000x1 32)
    (his : ∀ e : Fin 19600000, is_ (ix2 e (0 : Fin 1)) = src e)
    (upd : FVec Ideal S19600000x5 .f32) (n : Fin 400000) (c : Fin 5) :
    Host.scatterAdd scatter_S400000x5_S19600000x1_S19600000x5_1_0_0_1 z5 is_ upd (ix2 n c)
      = z5 (ix2 n c) + ∑ e ∈ Cert.Spec.into src n, upd (ix2 e c) := by
  rw [scatter_eq_rowScatter]
  refine (RowOps.rowScatterAdd_apply _ z5 is_ upd n c).trans ?_
  unfold Cert.Spec.into
  simp only [his]

/-- THE AGGREGATED COLUMNS: the accumulated rows divided by the denominators, read at a node and a column, are the
    node's features times its scale (columns 0, 1: every edge into the node brings the features at the node itself)
    and the mean of the edge attributes (columns 2 to 4). -/
theorem aggOps_apply (x : FVec Ideal S400000x2 .f32) (src : Fin 19600000 → BitVec 32) (iw is_ : IVec S19600000x1 32)
    (ea : FVec Ideal S19600000x3 .f32) (z5 den5 : FVec Ideal S400000x5 .f32)
    (his : ∀ e : Fin 19600000, is_ (ix2 e (0 : Fin 1)) = src e)
    (hiw : ∀ e : Fin 19600000, iw (ix2 e (0 : Fin 1))
      = Scalar.select (IntOp.cmpi .slt (src e) 0#32) (IntOp.addi (src e) 400000#32) (src e))
    (hz5 : ∀ i, z5 i = Cert.Spec.zero)
    (hden : ∀ (n : Fin 400000) (k : Fin 5), den5 (ix2 n k) = Cert.Spec.den src n)
    (n : Fin 400000) (c : Fin 5) :
    Host.divf (Host.scatterAdd scatter_S400000x5_S19600000x1_S19600000x5_1_0_0_1 z5 is_
        (concatenate S19600000x5 1 [⟨S19600000x2, (Host.gather gather_S400000x2_S19600000x1_S19600000x2_1_0_n_n_0_1_12 x iw)⟩, ⟨S19600000x3, ea⟩] concatenates_S19600000x2_S19600000x3_S19600000x5_d1)) den5 (ix2 n c)
      = if h : c.val < 2 then x (ix2 n ⟨c.val, h⟩) * Cert.Spec.scale src (ix2 n (0 : Fin 1))
        else Cert.Spec.aggA src ea (ix2 n ⟨c.val - 2, by omega⟩) := by
  show Ideal.div (Host.scatterAdd scatter_S400000x5_S19600000x1_S19600000x5_1_0_0_1 z5 is_ _ (ix2 n c)) (den5 (ix2 n c)) = _
  rw [scatterOps_apply z5 src is_ his, hden, hz5]
  by_cases h : c.val < 2
  · rw [dif_pos h]
    have hs : ∀ e ∈ Cert.Spec.into src n,
        concatenate S19600000x5 1 [⟨S19600000x2, (Host.gather gather_S400000x2_S19600000x1_S19600000x2_1_0_n_n_0_1_12 x iw)⟩, ⟨S19600000x3, ea⟩] concatenates_S19600000x2_S19600000x3_S19600000x5_d1 (ix2 e c)
          = x (ix2 n ⟨c.val, h⟩) := by
      intro e he
      rw [cat5_apply, dif_pos h, gatherOps_apply x src iw hiw, Cert.Spec.rowOf_of_mem_into he]
    rw [Finset.sum_congr rfl hs, Cert.Spec.agg_law]
    rfl
  · rw [dif_neg h]
    have hs : ∀ e ∈ Cert.Spec.into src n,
        concatenate S19600000x5 1 [⟨S19600000x2, (Host.gather gather_S400000x2_S19600000x1_S19600000x2_1_0_n_n_0_1_12 x iw)⟩, ⟨S19600000x3, ea⟩] concatenates_S19600000x2_S19600000x3_S19600000x5_d1 (ix2 e c)
          = ea (ix2 e ⟨c.val - 2, by omega⟩) := by
      intro e he
      rw [cat5_apply, dif_neg h]
    rw [Finset.sum_congr rfl hs]
    rfl

/-- THE HIDDEN LAYER'S INPUT: the reference's joined row at a node and a column is the specification's. -/
theorem rowOps_apply (x : FVec Ideal S400000x2 .f32) (src : Fin 19600000 → BitVec 32) (iw is_ : IVec S19600000x1 32)
    (ea : FVec Ideal S19600000x3 .f32) (z5 den5 : FVec Ideal S400000x5 .f32)
    (his : ∀ e : Fin 19600000, is_ (ix2 e (0 : Fin 1)) = src e)
    (hiw : ∀ e : Fin 19600000, iw (ix2 e (0 : Fin 1))
      = Scalar.select (IntOp.cmpi .slt (src e) 0#32) (IntOp.addi (src e) 400000#32) (src e))
    (hz5 : ∀ i, z5 i = Cert.Spec.zero)
    (hden : ∀ (n : Fin 400000) (k : Fin 5), den5 (ix2 n k) = Cert.Spec.den src n)
    (n : Fin 400000) (q : Fin 7) :
    concatenate S400000x7 1 [⟨S400000x2, x⟩, ⟨S400000x5,
        (Host.divf (Host.scatterAdd scatter_S400000x5_S19600000x1_S19600000x5_1_0_0_1 z5 is_
          (concatenate S19600000x5 1 [⟨S19600000x2, (Host.gather gather_S400000x2_S19600000x1_S19600000x2_1_0_n_n_0_1_12 x iw)⟩, ⟨S19600000x3, ea⟩] concatenates_S19600000x2_S19600000x3_S19600000x5_d1)) den5)⟩]
        concatenates_S400000x2_S400000x5_S400000x7_d1 (ix2 n q)
      = Cert.Spec.rowK x (Cert.Spec.scale src) (Cert.Spec.aggA src ea) n q := by
  rw [cat7_apply]
  unfold Cert.Spec.rowK
  by_cases h2 : q.val < 2
  · rw [dif_pos h2, dif_pos h2]
  · rw [dif_neg h2, dif_neg h2, aggOps_apply x src iw is_ ea z5 den5 his hiw hz5 hden]
    by_cases h4 : q.val < 4
    · rw [dif_pos h4, dif_pos (show (⟨q.val - 2, by omega⟩ : Fin 5).val < 2 by show q.val - 2 < 2; omega)]
    · rw [dif_neg h4, dif_neg (show ¬ (⟨q.val - 2, by omega⟩ : Fin 5).val < 2 by show ¬ q.val - 2 < 2; omega)]
      exact congrArg (fun k => Cert.Spec.aggA src ea (ix2 n k)) (Fin.ext (by show q.val - 2 - 2 = q.val - 4; omega))

/-- THE REFERENCE'S LAYER IS THE SPECIFICATION'S: with `src` the edges' source words, `is_` holding them, `iw` holding
    them wrapped as an array index wraps a negative word, the starting value zero, the denominators the nodes', and
    the biases spread over the rows. -/
theorem layerOps_eq (x : FVec Ideal S400000x2 .f32) (src : Fin 19600000 → BitVec 32) (iw is_ : IVec S19600000x1 32)
    (ea : FVec Ideal S19600000x3 .f32) (z5 den5 : FVec Ideal S400000x5 .f32) (W1 : FVec Ideal S7x128 .f32)
    (b1b zr : FVec Ideal S400000x128 .f32) (W2 : FVec Ideal S128x2 .f32) (b2b : FVec Ideal S400000x2 .f32)
    (B1 : Cert.Spec.SB1.Idx → EReal) (B2 : Cert.Spec.SB2.Idx → EReal)
    (his : ∀ e : Fin 19600000, is_ (ix2 e (0 : Fin 1)) = src e)
    (hiw : ∀ e : Fin 19600000, iw (ix2 e (0 : Fin 1))
      = Scalar.select (IntOp.cmpi .slt (src e) 0#32) (IntOp.addi (src e) 400000#32) (src e))
    (hz5 : ∀ i, z5 i = Cert.Spec.zero)
    (hden : ∀ (n : Fin 400000) (k : Fin 5), den5 (ix2 n k) = Cert.Spec.den src n)
    (hb1 : ∀ (n : Fin 400000) (u : Fin 128), b1b (ix2 n u) = B1 (ix2 (0 : Fin 1) u))
    (hzr : ∀ i, zr i = Cert.Spec.zero)
    (hb2 : ∀ (n : Fin 400000) (k : Fin 2), b2b (ix2 n k) = B2 (ix2 (0 : Fin 1) k)) :
    layerOps x iw is_ ea z5 den5 W1 b1b zr W2 b2b
      = Cert.Spec.layerK x (Cert.Spec.scale src) (Cert.Spec.aggA src ea) W1 B1 W2 B2 := by
  funext i
  obtain ⟨n, k, rfl⟩ : ∃ (n : Fin 400000) (k : Fin 2), i = ix2 n k := ⟨i 0, i 1, eq_ix2 i⟩
  unfold layerOps Cert.Spec.layerK Cert.Spec.dense
  show Host.dotGeneral dot_S400000x128_S128x2_S400000x2_1_0_0_1_n_n none _ W2 (ix2 n k) + b2b (ix2 n k) = _
  rw [dot2_apply, hb2]
  refine congrArg (· + B2 (ix2 (0 : Fin 1) k)) (Finset.sum_congr rfl fun u _ => ?_)
  refine congrArg (· * W2 (ix2 u k)) ?_
  show max (Host.dotGeneral dot_S400000x7_S7x128_S400000x128_1_0_0_1_n_n none _ W1 (ix2 n u) + b1b (ix2 n u)) (zr (ix2 n u)) = _
  rw [dot1_apply, hb1, hzr]
  refine congrArg (fun t => max (t + B1 (ix2 (0 : Fin 1) u)) Cert.Spec.zero) (Finset.sum_congr rfl fun q _ => ?_)
  rw [rowOps_apply x src iw is_ ea z5 den5 his hiw hz5 hden]

end Cert.ReferenceIdeal.RefValue

end
-- ==== Proof.Ref.DistVal.lean ====
/-
  The last part of the reference program: per edge, the squared distance between the rows of the final node features
  at the edge's two endpoints.

  The reference wraps each endpoint word as an array index wraps a negative word, gathers the features' row the word
  selects (the gather clamps it into the table: together that is Spec.rowOf), subtracts the source's row from the
  destination's, squares, and sums the two columns from zero. The destination words are row 0 of the edge index array
  and the source words row 1.
-/
import proofs.«406876_j85478439125102_3_alg».proof.Proof.Ref.ReadP
import proofs.«406876_j85478439125102_3_alg».proof.Proof.Spec
import proofs.«406876_j85478439125102_3_alg».proof.Proof.LibRowOps
import proofs.«406876_j85478439125102_3_alg».proof.Proof.Ref.Layer
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

/-- The destination words read at an edge: row 0 of the edge index array. -/
theorem dstWords_apply (x1 : (⟨S2x19600000, .i32⟩ : BufTy).Contents (Elt Ideal)) (e : Fin 19600000) :
    val_main_v1 (F := Ideal) x1 (ix1 e) = Cert.Spec.dstOf x1 e := by
  rw [val_main_v1_apply, val_main_v0_apply]
  unfold Cert.Spec.dstOf
  refine congrArg x1 (funext fun a => Fin.ext ?_)
  match a with
  | ⟨0, _⟩ => rfl
  | ⟨1, _⟩ => exact Nat.mod_eq_of_lt e.isLt

/-- The source words read at an edge: row 1 of the edge index array. -/
theorem srcWords_apply (x1 : (⟨S2x19600000, .i32⟩ : BufTy).Contents (Elt Ideal)) (e : Fin 19600000) :
    val_main_v3 (F := Ideal) x1 (ix1 e) = Cert.Spec.srcOf x1 e := by
  rw [val_main_v3_apply, val_main_v2_apply]
  unfold Cert.Spec.srcOf
  refine congrArg x1 (funext fun a => Fin.ext ?_)
  match a with
  | ⟨0, _⟩ => rfl
  | ⟨1, _⟩ => exact Nat.mod_eq_of_lt e.isLt

/-- The destination gather's start words: the destination words wrapped as an array index wraps a negative word. -/
theorem dstWrapped_apply (x1 : (⟨S2x19600000, .i32⟩ : BufTy).Contents (Elt Ideal)) (e : Fin 19600000) :
    val_main_v77 (F := Ideal) x1 (ix2 e (0 : Fin 1))
      = Scalar.select (IntOp.cmpi .slt (Cert.Spec.dstOf x1 e) 0#32) (IntOp.addi (Cert.Spec.dstOf x1 e) 400000#32) (Cert.Spec.dstOf x1 e) := by
  have hi : idx_main_v77 (ix2 e (0 : Fin 1)) = ix1 e := funext fun a => match a with
    | ⟨0, _⟩ => rfl
  rw [val_main_v77_apply, hi, val_main_v76_apply, val_main_v73_apply, val_main_v75_apply, val_main_v72_apply,
    val_main_v74_apply, dstWords_apply]
  rfl

/-- The source gather's start words: the source words wrapped likewise. -/
theorem srcWrapped_apply (x1 : (⟨S2x19600000, .i32⟩ : BufTy).Contents (Elt Ideal)) (e : Fin 19600000) :
    val_main_v84 (F := Ideal) x1 (ix2 e (0 : Fin 1))
      = Scalar.select (IntOp.cmpi .slt (Cert.Spec.srcOf x1 e) 0#32) (IntOp.addi (Cert.Spec.srcOf x1 e) 400000#32) (Cert.Spec.srcOf x1 e) := by
  have hi : idx_main_v84 (ix2 e (0 : Fin 1)) = ix1 e := funext fun a => match a with
    | ⟨0, _⟩ => rfl
  rw [val_main_v84_apply, hi, val_main_v83_apply, val_main_v80_apply, val_main_v82_apply, val_main_v79_apply,
    val_main_v81_apply, srcWords_apply]
  rfl

/-- THE LAST PART OF THE REFERENCE: per edge, the squared distance between the final node features' rows at the edge's
    two endpoints. -/
theorem ref_dist (x0 : (⟨S400000x2, .f32⟩ : BufTy).Contents (Elt Ideal)) (x1 : (⟨S2x19600000, .i32⟩ : BufTy).Contents (Elt Ideal)) (x2 : (⟨S19600000x3, .f32⟩ : BufTy).Contents (Elt Ideal)) (x3 : (⟨S2x7x128, .f32⟩ : BufTy).Contents (Elt Ideal)) (x4 : (⟨S2x128, .f32⟩ : BufTy).Contents (Elt Ideal)) (x5 : (⟨S2x128x2, .f32⟩ : BufTy).Contents (Elt Ideal)) (x6 : (⟨S2x2, .f32⟩ : BufTy).Contents (Elt Ideal)) :
    val_main_v89 (F := Ideal) x0 x1 x2 x3 x4 x5 x6
      = Cert.Spec.dist (val_main_v71 (F := Ideal) x0 x1 x2 x3 x4 x5 x6) (Cert.Spec.srcOf x1) (Cert.Spec.dstOf x1) := by
  funext i
  obtain ⟨e, z, rfl⟩ : ∃ (e : Fin 19600000) (z : Fin 1), i = ix2 e z := ⟨i 0, i 1, eq_ix2 i⟩
  have hk : ∀ k : Fin 2, idx_main_v88 (idx_main_v89 (ix2 e z)) k = ix2 e k := fun k => funext fun a => match a with
    | ⟨0, _⟩ => rfl
    | ⟨1, _⟩ => rfl
  have hd : ∀ c : Fin 2, val_main_v78 (F := Ideal) x0 x1 x2 x3 x4 x5 x6 (ix2 e c)
      = val_main_v71 (F := Ideal) x0 x1 x2 x3 x4 x5 x6 (ix2 (Cert.Spec.rowOf (Cert.Spec.dstOf x1 e)) c) := fun c => by
    unfold val_main_v78
    exact gatherOps_apply _ (Cert.Spec.dstOf x1) _ (dstWrapped_apply x1) e c
  have hs : ∀ c : Fin 2, val_main_v85 (F := Ideal) x0 x1 x2 x3 x4 x5 x6 (ix2 e c)
      = val_main_v71 (F := Ideal) x0 x1 x2 x3 x4 x5 x6 (ix2 (Cert.Spec.rowOf (Cert.Spec.srcOf x1 e)) c) := fun c => by
    unfold val_main_v85
    exact gatherOps_apply _ (Cert.Spec.srcOf x1) _ (srcWrapped_apply x1) e c
  rw [val_main_v89_apply, val_main_v88_apply, Fin.sum_univ_two, hk 0, hk 1]
  simp only [val_main_v87_apply, val_main_v86_apply]
  rw [hd 0, hd 1, hs 0, hs 1, val_main_cst_11_apply]
  unfold Cert.Spec.dist Cert.Spec.sqd
  simp only [Ideal.ofBits_def, Ideal.ofBits_zero_f32, zero_add, Ideal.mulf_def, Ideal.subf_def]

end Cert.ReferenceIdeal.RefValue

end
-- ==== Proof.Ref.Value.lean ====
/-
  The reference program's result is the specification's.

  Each of the program's two layers is the layer's chain of operations applied to that layer's operands: the node
  features (the arguments', then the first layer's result), the edges' source words wrapped for the row gather and
  unwrapped for the accumulation, the edge attributes, a starting value of zeros, the denominators spread over the five
  aggregated columns, and the layer's slices of the stacked weights and biases. Read at an index these operands are what
  the layer's theorem asks: the source words are row 1 of the edge array; the wrapped word is the word plus 400000
  where it is negative; the accumulation of a one per edge into the edges' source nodes counts the edges into each
  node, so its maximum with one is the node's denominator; the slices of the stacked parameters are the parameters of
  layer 0 and of layer 1. So the first layer's result is the specification's first layer, the second's is the node
  features after two layers, and the squared distances between the endpoints' rows of those are the result.
-/
import proofs.«406876_j85478439125102_3_alg».proof.Proof.Ref.ReadP
import proofs.«406876_j85478439125102_3_alg».proof.Proof.Ref.Layer
import proofs.«406876_j85478439125102_3_alg».proof.Proof.Ref.DistVal
import proofs.«406876_j85478439125102_3_alg».proof.Proof.Spec
import proofs.«406876_j85478439125102_3_alg».proof.Proof.LibRowOps
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

variable (x0 : (⟨S400000x2, .f32⟩ : BufTy).Contents (Elt Ideal)) (x1 : (⟨S2x19600000, .i32⟩ : BufTy).Contents (Elt Ideal))
  (x2 : (⟨S19600000x3, .f32⟩ : BufTy).Contents (Elt Ideal)) (x3 : (⟨S2x7x128, .f32⟩ : BufTy).Contents (Elt Ideal))
  (x4 : (⟨S2x128, .f32⟩ : BufTy).Contents (Elt Ideal)) (x5 : (⟨S2x128x2, .f32⟩ : BufTy).Contents (Elt Ideal))
  (x6 : (⟨S2x2, .f32⟩ : BufTy).Contents (Elt Ideal))

/-! ## The two layers are the layer's operations -/

theorem v40_layer : val_main_v40 (F := Ideal) x0 x1 x2 x3 x4 x5 x6
    = layerOps x0 (val_main_v15 (F := Ideal) x1) (val_main_v19 (F := Ideal) x1) x2 (val_main_v18 (F := Ideal))
        (val_main_v21 (F := Ideal) x1) (val_main_v25 (F := Ideal) x3) (val_main_v30 (F := Ideal) x4)
        (val_main_call0_v0 (F := Ideal)) (val_main_v34 (F := Ideal) x5) (val_main_v39 (F := Ideal) x6) := by
  unfold val_main_v40 val_main_v35 val_main_v32 val_main_v31 val_main_v26 val_main_v23 val_main_v22 val_main_v20
    val_main_v17 val_main_v16 layerOps
  rfl

theorem v71_layer : val_main_v71 (F := Ideal) x0 x1 x2 x3 x4 x5 x6
    = layerOps (val_main_v40 (F := Ideal) x0 x1 x2 x3 x4 x5 x6) (val_main_v46 (F := Ideal) x1) (val_main_v50 (F := Ideal) x1) x2
        (val_main_v49 (F := Ideal)) (val_main_v52 (F := Ideal) x1) (val_main_v56 (F := Ideal) x3) (val_main_v61 (F := Ideal) x4)
        (val_main_call1_v0 (F := Ideal)) (val_main_v65 (F := Ideal) x5) (val_main_v70 (F := Ideal) x6) := by
  unfold val_main_v71 val_main_v66 val_main_v63 val_main_v62 val_main_v57 val_main_v54 val_main_v53 val_main_v51
    val_main_v48 val_main_v47 layerOps
  rfl

/-! ## The edges' words -/

theorem v3_at (e : Fin 19600000) : val_main_v3 (F := Ideal) x1 (ix1 e) = Cert.Spec.srcOf x1 e := by
  rw [val_main_v3_apply, val_main_v2_apply]
  unfold Cert.Spec.srcOf
  exact congrArg x1 (funext fun a => Fin.ext (by
    match a with
    | ⟨0, _⟩ => rfl
    | ⟨1, _⟩ => exact Nat.mod_eq_of_lt e.isLt))

/-- The source words as the accumulations take them, -/
theorem his0 (e : Fin 19600000) : val_main_v19 (F := Ideal) x1 (ix2 e (0 : Fin 1)) = Cert.Spec.srcOf x1 e := by
  rw [val_main_v19_apply, show idx_main_v19 (ix2 e (0 : Fin 1)) = ix1 e from funext fun a => by match a with | ⟨0, _⟩ => rfl]
  exact v3_at x1 e
theorem his1 (e : Fin 19600000) : val_main_v50 (F := Ideal) x1 (ix2 e (0 : Fin 1)) = Cert.Spec.srcOf x1 e := by
  rw [val_main_v50_apply, show idx_main_v50 (ix2 e (0 : Fin 1)) = ix1 e from funext fun a => by match a with | ⟨0, _⟩ => rfl]
  exact v3_at x1 e
theorem his6 (e : Fin 19600000) : val_main_v6 (F := Ideal) x1 (ix2 e (0 : Fin 1)) = Cert.Spec.srcOf x1 e := by
  rw [val_main_v6_apply, show idx_main_v6 (ix2 e (0 : Fin 1)) = ix1 e from funext fun a => by match a with | ⟨0, _⟩ => rfl]
  exact v3_at x1 e

/-- and wrapped as an array index wraps a negative word, for each layer's row gather. -/
theorem hiw0 (e : Fin 19600000) : val_main_v15 (F := Ideal) x1 (ix2 e (0 : Fin 1))
    = Scalar.select (IntOp.cmpi .slt (Cert.Spec.srcOf x1 e) 0#32) (IntOp.addi (Cert.Spec.srcOf x1 e) 400000#32) (Cert.Spec.srcOf x1 e) := by
  rw [val_main_v15_apply, show idx_main_v15 (ix2 e (0 : Fin 1)) = ix1 e from funext fun a => by match a with | ⟨0, _⟩ => rfl,
    val_main_v14_apply, val_main_v11_apply, val_main_v13_apply, val_main_v10_apply, val_main_c_apply, val_main_v12_apply,
    val_main_c_2_apply, v3_at]
theorem hiw1 (e : Fin 19600000) : val_main_v46 (F := Ideal) x1 (ix2 e (0 : Fin 1))
    = Scalar.select (IntOp.cmpi .slt (Cert.Spec.srcOf x1 e) 0#32) (IntOp.addi (Cert.Spec.srcOf x1 e) 400000#32) (Cert.Spec.srcOf x1 e) := by
  rw [val_main_v46_apply, show idx_main_v46 (ix2 e (0 : Fin 1)) = ix1 e from funext fun a => by match a with | ⟨0, _⟩ => rfl,
    val_main_v45_apply, val_main_v42_apply, val_main_v44_apply, val_main_v41_apply, val_main_c_4_apply, val_main_v43_apply,
    val_main_c_5_apply, v3_at]
/-! ## The constants -/

theorem hz5_0 (i : S400000x5.Idx) : val_main_v18 (F := Ideal) i = Cert.Spec.zero := by
  rw [val_main_v18_apply]; rfl
theorem hz5_1 (i : S400000x5.Idx) : val_main_v49 (F := Ideal) i = Cert.Spec.zero := by
  rw [val_main_v49_apply]; rfl
theorem hzr_0 (i : S400000x128.Idx) : val_main_call0_v0 (F := Ideal) i = Cert.Spec.zero := by
  rw [val_main_call0_v0_apply]; rfl
theorem hzr_1 (i : S400000x128.Idx) : val_main_call1_v0 (F := Ideal) i = Cert.Spec.zero := by
  rw [val_main_call1_v0_apply]; rfl

/-! ## The denominators -/

theorem scatter1_eq_rowScatter : scatter_S400000x1_S19600000x1_S19600000x1_1_0_0_1
    = RowOps.rowScatter 400000 19600000 1 Facts₀.scatter_S400000x1_S19600000x1_S19600000x1_1_0_0_1_wf := rfl

/-- The one-column accumulation read at a node: the starting value plus the updates of the rows sent to the node. -/
theorem scatter1_apply (z : FVec Ideal S400000x1 .f32) (is_ : IVec S19600000x1 32) (u : FVec Ideal S19600000x1 .f32)
    (n : Fin 400000) :
    Host.scatterAdd scatter_S400000x1_S19600000x1_S19600000x1_1_0_0_1 z is_ u (ix2 n (0 : Fin 1))
      = z (ix2 n (0 : Fin 1)) + ∑ e ∈ Finset.univ.filter (fun e : Fin 19600000 =>
          (is_ (ix2 e (0 : Fin 1))).toInt = (n.val : ℤ)), u (ix2 e (0 : Fin 1)) := by
  rw [scatter1_eq_rowScatter]
  exact RowOps.rowScatterAdd_apply _ z is_ u n (0 : Fin 1)

/-- The accumulation of a one per edge into the edges' source nodes counts the edges into each node. -/
theorem cnt_at (n : Fin 400000) :
    val_main_v7 (F := Ideal) x1 (ix2 n (0 : Fin 1)) = Cert.Spec.cnt (Cert.Spec.srcOf x1) n := by
  unfold val_main_v7
  refine (scatter1_apply _ _ _ n).trans ?_
  unfold Cert.Spec.cnt Cert.Spec.into
  refine congrArg₂ (· + ·) ?_ (Finset.sum_congr (Finset.filter_congr fun e _ => by rw [his6]) fun e _ => ?_)
  · rw [val_main_v5_apply]; rfl
  · rw [val_main_v4_apply]; rfl

theorem den_at0 (n : Fin 400000) (k : Fin 5) :
    val_main_v21 (F := Ideal) x1 (ix2 n k) = Cert.Spec.den (Cert.Spec.srcOf x1) n := by
  rw [val_main_v21_apply, show idx_main_v21 (ix2 n k) = ix2 n (0 : Fin 1) from funext fun a => by
    match a with
    | ⟨0, _⟩ => rfl
    | ⟨1, _⟩ => rfl, val_main_v9_apply, Ideal.maximumf_def, cnt_at, val_main_v8_apply]
  rfl
theorem den_at1 (n : Fin 400000) (k : Fin 5) :
    val_main_v52 (F := Ideal) x1 (ix2 n k) = Cert.Spec.den (Cert.Spec.srcOf x1) n := by
  rw [val_main_v52_apply, show idx_main_v52 (ix2 n k) = ix2 n (0 : Fin 1) from funext fun a => by
    match a with
    | ⟨0, _⟩ => rfl
    | ⟨1, _⟩ => rfl, val_main_v9_apply, Ideal.maximumf_def, cnt_at, val_main_v8_apply]
  rfl

/-! ## The parameters: each layer's slice of the stacked arrays -/

theorem hb1_0 (n : Fin 400000) (u : Fin 128) :
    val_main_v30 (F := Ideal) x4 (ix2 n u) = Cert.Spec.b1 x4 0 (ix2 (0 : Fin 1) u) := by
  rw [val_main_v30_apply, val_main_v29_apply, val_main_v28_apply, val_main_v27_apply]
  unfold Cert.Spec.b1
  exact congrArg x4 (funext fun a => Fin.ext (by
    match a with
    | ⟨0, _⟩ => rfl
    | ⟨1, _⟩ => exact Nat.mod_eq_of_lt u.isLt))
theorem hb1_1 (n : Fin 400000) (u : Fin 128) :
    val_main_v61 (F := Ideal) x4 (ix2 n u) = Cert.Spec.b1 x4 1 (ix2 (0 : Fin 1) u) := by
  rw [val_main_v61_apply, val_main_v60_apply, val_main_v59_apply, val_main_v58_apply]
  unfold Cert.Spec.b1
  exact congrArg x4 (funext fun a => Fin.ext (by
    match a with
    | ⟨0, _⟩ => rfl
    | ⟨1, _⟩ => exact Nat.mod_eq_of_lt u.isLt))
theorem hb2_0 (n : Fin 400000) (k : Fin 2) :
    val_main_v39 (F := Ideal) x6 (ix2 n k) = Cert.Spec.b2 x6 0 (ix2 (0 : Fin 1) k) := by
  rw [val_main_v39_apply, val_main_v38_apply, val_main_v37_apply, val_main_v36_apply]
  unfold Cert.Spec.b2
  exact congrArg x6 (funext fun a => Fin.ext (by
    match a with
    | ⟨0, _⟩ => rfl
    | ⟨1, _⟩ => exact Nat.mod_eq_of_lt k.isLt))
theorem hb2_1 (n : Fin 400000) (k : Fin 2) :
    val_main_v70 (F := Ideal) x6 (ix2 n k) = Cert.Spec.b2 x6 1 (ix2 (0 : Fin 1) k) := by
  rw [val_main_v70_apply, val_main_v69_apply, val_main_v68_apply, val_main_v67_apply]
  unfold Cert.Spec.b2
  exact congrArg x6 (funext fun a => Fin.ext (by
    match a with
    | ⟨0, _⟩ => rfl
    | ⟨1, _⟩ => exact Nat.mod_eq_of_lt k.isLt))

theorem w1_0 : val_main_v25 (F := Ideal) x3 = Cert.Spec.w1 x3 0 := by
  funext i
  rw [val_main_v25_apply, val_main_v24_apply]
  unfold Cert.Spec.w1
  have h0 : (i 0).val < 7 := (i 0).isLt
  have h1 : (i 1).val < 128 := (i 1).isLt
  exact congrArg x3 (funext fun a => Fin.ext (by
    match a with
    | ⟨0, _⟩ => rfl
    | ⟨1, _⟩ => show ((i 0).val * 128 + (i 1).val) / 128 % 7 = (i 0).val; omega
    | ⟨2, _⟩ => show ((i 0).val * 128 + (i 1).val) % 128 = (i 1).val; omega))
theorem w1_1 : val_main_v56 (F := Ideal) x3 = Cert.Spec.w1 x3 1 := by
  funext i
  rw [val_main_v56_apply, val_main_v55_apply]
  unfold Cert.Spec.w1
  have h0 : (i 0).val < 7 := (i 0).isLt
  have h1 : (i 1).val < 128 := (i 1).isLt
  exact congrArg x3 (funext fun a => Fin.ext (by
    match a with
    | ⟨0, _⟩ => rfl
    | ⟨1, _⟩ => show ((i 0).val * 128 + (i 1).val) / 128 % 7 = (i 0).val; omega
    | ⟨2, _⟩ => show ((i 0).val * 128 + (i 1).val) % 128 = (i 1).val; omega))
theorem w2_0 : val_main_v34 (F := Ideal) x5 = Cert.Spec.w2 x5 0 := by
  funext i
  rw [val_main_v34_apply, val_main_v33_apply]
  unfold Cert.Spec.w2
  have h0 : (i 0).val < 128 := (i 0).isLt
  have h1 : (i 1).val < 2 := (i 1).isLt
  exact congrArg x5 (funext fun a => Fin.ext (by
    match a with
    | ⟨0, _⟩ => rfl
    | ⟨1, _⟩ => show ((i 0).val * 2 + (i 1).val) / 2 % 128 = (i 0).val; omega
    | ⟨2, _⟩ => show ((i 0).val * 2 + (i 1).val) % 2 = (i 1).val; omega))
theorem w2_1 : val_main_v65 (F := Ideal) x5 = Cert.Spec.w2 x5 1 := by
  funext i
  rw [val_main_v65_apply, val_main_v64_apply]
  unfold Cert.Spec.w2
  have h0 : (i 0).val < 128 := (i 0).isLt
  have h1 : (i 1).val < 2 := (i 1).isLt
  exact congrArg x5 (funext fun a => Fin.ext (by
    match a with
    | ⟨0, _⟩ => rfl
    | ⟨1, _⟩ => show ((i 0).val * 2 + (i 1).val) / 2 % 128 = (i 0).val; omega
    | ⟨2, _⟩ => show ((i 0).val * 2 + (i 1).val) % 2 = (i 1).val; omega))

/-! ## The two layers are the specification's -/

theorem ref_l0 : val_main_v40 (F := Ideal) x0 x1 x2 x3 x4 x5 x6
    = Cert.Spec.layerK x0 (Cert.Spec.scale (Cert.Spec.srcOf x1)) (Cert.Spec.aggA (Cert.Spec.srcOf x1) x2)
        (Cert.Spec.w1 x3 0) (Cert.Spec.b1 x4 0) (Cert.Spec.w2 x5 0) (Cert.Spec.b2 x6 0) := by
  rw [v40_layer, w1_0, w2_0]
  exact layerOps_eq x0 (Cert.Spec.srcOf x1) _ _ x2 _ _ _ _ _ _ _ (Cert.Spec.b1 x4 0) (Cert.Spec.b2 x6 0)
    (his0 x1) (hiw0 x1) hz5_0 (den_at0 x1) (hb1_0 x4) hzr_0 (hb2_0 x6)

theorem ref_feat : val_main_v71 (F := Ideal) x0 x1 x2 x3 x4 x5 x6 = Cert.Spec.feat x0 x1 x2 x3 x4 x5 x6 := by
  rw [v71_layer, ref_l0, w1_1, w2_1]
  exact layerOps_eq _ (Cert.Spec.srcOf x1) _ _ x2 _ _ _ _ _ _ _ (Cert.Spec.b1 x4 1) (Cert.Spec.b2 x6 1)
    (his1 x1) (hiw1 x1) hz5_1 (den_at1 x1) (hb1_1 x4) hzr_1 (hb2_1 x6)

/-! ## The result -/

/-- The reference's result is the specification's: per edge, the squared distance between its endpoints' features
    after the two layers. -/
theorem ref_G : val_main_v89 (F := Ideal) x0 x1 x2 x3 x4 x5 x6 = Cert.Spec.G x0 x1 x2 x3 x4 x5 x6 := by
  rw [ref_dist, ref_feat]
  rfl

end Cert.ReferenceIdeal.RefValue

end
-- ==== Proof.lean ====
/-
  The certificate's claims for the graph layer kernel against its reference.

  Frames. The kernel program is four stretches of host operations around three pipelined regions; each of its two
  readings (at the words, at the extended reals) runs to the end with every argument as launched: the run over the
  list of segments (K/Segs.lean, KI/Segs.lean). The reference is host operations only; its frame is its run with the
  result dropped.

  The idealization rewrote nothing, so that claim is trivial.

  Equality over the extended reals. Both programs end at ONE function of the arguments, Cert.Spec.G: per edge, the
  squared distance between the rows, at the edge's endpoints, of the node features after two layers
  relu([x, x·scale, a]·W₁ + b₁)·W₂ + b₂. The kernel program computes scale and a once and forms x·scale in its
  body (KI/KVal.lean); the reference gathers x at each edge's source, accumulates it into the source's node and
  divides by the node's denominator, which is x·scale because every edge accumulated into a node has that node as
  its source row (Ref/Layer.lean, Ref/Value.lean; Spec.agg_law).
-/
import proofs.«406876_j85478439125102_3_alg».proof.Defs
import proofs.«406876_j85478439125102_3_alg».proof.Proof.Gen.Kernel
import proofs.«406876_j85478439125102_3_alg».proof.Proof.Gen.KernelIdeal
import proofs.«406876_j85478439125102_3_alg».proof.Proof.Gen.ReferenceIdeal
import proofs.«406876_j85478439125102_3_alg».proof.Proof.Gen.Pre_finite_inputs
import proofs.«406876_j85478439125102_3_alg».proof.Proof.K.Segs
import proofs.«406876_j85478439125102_3_alg».proof.Proof.KI.KVal
import proofs.«406876_j85478439125102_3_alg».proof.Proof.Ref.RunH
import proofs.«406876_j85478439125102_3_alg».proof.Proof.Ref.ReadP
import proofs.«406876_j85478439125102_3_alg».proof.Proof.Ref.Value

noncomputable section

namespace Cert.Proof

open Idealize.ShloMosaic Idealize.SL.Sem

theorem frame_K : Cert.frame_Kernel (hKernel := Cert.Kernel.Gen.facts) (hPre_finite_inputs := Cert.Pre_finite_inputs.Gen.facts) :=
  fun m ρ _ => Cert.Kernel.Fr.frame (F := Bits) m ρ

theorem frame_KI : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_R : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueH.run (F := Ideal) m ρ)

/-- Both programs end at `Cert.Spec.G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Fr.runG m ρ, ?_⟩
  refine (θ_run Cert.ReferenceIdeal.defs _ _).mono (fun _ h c => ⟨(h c).1.trans ?_, (h c).2⟩)
    (Cert.ReferenceIdeal.ValueH.run (F := Ideal) m' ρ')
  rw [Cert.ReferenceIdeal.ReadP.val_main_v89_eq, Cert.ReferenceIdeal.RefValue.ref_G, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_K, frame_KI, frame_R, trivial, algebraic⟩

end Cert.Proof

end
